-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x5 : Shape := ⟨2, ![200000, 5]⟩
abbrev S2x400000 : Shape := ⟨2, ![2, 400000]⟩
abbrev S400000x1 : Shape := ⟨2, ![400000, 1]⟩
abbrev S200000 : Shape := ⟨1, ![200000]⟩
abbrev S1x5 : Shape := ⟨2, ![1, 5]⟩
abbrev S5 : Shape := ⟨1, ![5]⟩
abbrev S5x128 : Shape := ⟨2, ![5, 128]⟩
abbrev S128 : Shape := ⟨1, ![128]⟩
abbrev S128x128 : Shape := ⟨2, ![128, 128]⟩
abbrev S1x128 : Shape := ⟨2, ![1, 128]⟩
abbrev S_ : Shape := ⟨0, ![]⟩

class Facts : Prop where
  bcast_S_S200000x5 : S_.BroadcastsInDim S200000x5 (![] : Fin 0 → Fin S200000x5.rank)
  reducesTo_S200000x5_S_d0_1 : S200000x5.ReducesTo [0, 1] S_
  h_S_ : 0 < S_.numel
  bcast_S_S400000x1 : S_.BroadcastsInDim S400000x1 (![] : Fin 0 → Fin S400000x1.rank)
  reducesTo_S400000x1_S_d0_1 : S400000x1.ReducesTo [0, 1] S_
  bcast_S_S1x5 : S_.BroadcastsInDim S1x5 (![] : Fin 0 → Fin S1x5.rank)
  reducesTo_S1x5_S_d0_1 : S1x5.ReducesTo [0, 1] S_
  bcast_S_S5 : S_.BroadcastsInDim S5 (![] : Fin 0 → Fin S5.rank)
  reducesTo_S5_S_d0 : S5.ReducesTo [0] S_
  bcast_S_S5x128 : S_.BroadcastsInDim S5x128 (![] : Fin 0 → Fin S5x128.rank)
  reducesTo_S5x128_S_d0_1 : S5x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_

variable [Facts]

def fn_part7 {F : FTy → Type} [FloatOps F] (main_arg27 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg27
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  main_v128

def fn_part6 {F : FTy → Type} [FloatOps F] (main_arg23 : FVec F S128 .f32) (main_arg24 : FVec F S128x128 .f32) (main_arg25 : FVec F S128 .f32) (main_arg26 : FVec F S128 .f32) (main_arg27 : FVec F S128 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg24
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg26
  fn_part7 (F := F) main_arg27 main_v118 main_v119

def fn_part5 {F : FTy → Type} [FloatOps F] (main_arg20 : FVec F S1x128 .f32) (main_arg21 : FVec F S128 .f32) (main_arg22 : FVec F S128x128 .f32) (main_arg23 : FVec F S128 .f32) (main_arg24 : FVec F S128x128 .f32) (main_arg25 : FVec F S128 .f32) (main_arg26 : FVec F S128 .f32) (main_arg27 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S1x128 .f32 := Host.absf main_arg20
  let main_cst_34 : FVec F S_ .f32 := constant S_ .f32 0x7F800000#32
  let main_v90 : FVec F S1x128 .f32 := broadcastInDim S1x128 ![] bcast_S_S1x128 main_cst_34
  let main_v91 : IVec S1x128 1 := cmpf .olt main_v89 main_v90
  let main_c_35 : IVec S_ 1 := constantI S_ 1 1#1
  let main_v92 : IVec S_ 1 := (fun x v => Host.reduce IntOp.andi x v reducesTo_S1x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg22
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg23 main_arg24 main_arg25 main_arg26 main_arg27 main_v98 main_v101 main_c_39

def fn_part4 {F : FTy → Type} [FloatOps F] (main_arg16 : FVec F S128x128 .f32) (main_arg17 : FVec F S128 .f32) (main_arg18 : FVec F S128 .f32) (main_arg19 : FVec F S128 .f32) (main_arg20 : FVec F S1x128 .f32) (main_arg21 : FVec F S128 .f32) (main_arg22 : FVec F S128x128 .f32) (main_arg23 : FVec F S128 .f32) (main_arg24 : FVec F S128x128 .f32) (main_arg25 : FVec F S128 .f32) (main_arg26 : FVec F S128 .f32) (main_arg27 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_arg26 main_arg27 main_v83 main_v84 main_cst_32

def fn_part3 {F : FTy → Type} [FloatOps F] (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S1x128 .f32) (main_arg21 : FVec F S128 .f32) (main_arg22 : FVec F S128x128 .f32) (main_arg23 : FVec F S128 .f32) (main_arg24 : FVec F S128x128 .f32) (main_arg25 : FVec F S128 .f32) (main_arg26 : FVec F S128 .f32) (main_arg27 : FVec F S128 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_arg27 main_v63 main_v67

def fn_part2 {F : FTy → Type} [FloatOps F] (main_arg9 : FVec F S128 .f32) (main_arg10 : FVec F S128 .f32) (main_arg11 : FVec F S128 .f32) (main_arg12 : FVec F S1x128 .f32) (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S1x128 .f32) (main_arg21 : FVec F S128 .f32) (main_arg22 : FVec F S128x128 .f32) (main_arg23 : FVec F S128 .f32) (main_arg24 : FVec F S128x128 .f32) (main_arg25 : FVec F S128 .f32) (main_arg26 : FVec F S128 .f32) (main_arg27 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1x128 .f32 := Host.absf main_arg12
  let main_cst_18 : FVec F S_ .f32 := constant S_ .f32 0x7F800000#32
  let main_v50 : FVec F S1x128 .f32 := broadcastInDim S1x128 ![] bcast_S_S1x128 main_cst_18
  fn_part3 (F := F) main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg6 : FVec F S5x128 .f32) (main_arg7 : FVec F S128 .f32) (main_arg8 : FVec F S128x128 .f32) (main_arg9 : FVec F S128 .f32) (main_arg10 : FVec F S128 .f32) (main_arg11 : FVec F S128 .f32) (main_arg12 : FVec F S1x128 .f32) (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S1x128 .f32) (main_arg21 : FVec F S128 .f32) (main_arg22 : FVec F S128x128 .f32) (main_arg23 : FVec F S128 .f32) (main_arg24 : FVec F S128x128 .f32) (main_arg25 : FVec F S128 .f32) (main_arg26 : FVec F S128 .f32) (main_arg27 : FVec F S128 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S5x128 .f32 := Host.absf main_arg6
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S200000x5 .f32) (main_arg1 : IVec S2x400000 32) (main_arg2 : FVec F S400000x1 .f32) (main_arg3 : IVec S200000 32) (main_arg4 : FVec F S1x5 .f32) (main_arg5 : FVec F S5 .f32) (main_arg6 : FVec F S5x128 .f32) (main_arg7 : FVec F S128 .f32) (main_arg8 : FVec F S128x128 .f32) (main_arg9 : FVec F S128 .f32) (main_arg10 : FVec F S128 .f32) (main_arg11 : FVec F S128 .f32) (main_arg12 : FVec F S1x128 .f32) (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S1x128 .f32) (main_arg21 : FVec F S128 .f32) (main_arg22 : FVec F S128x128 .f32) (main_arg23 : FVec F S128 .f32) (main_arg24 : FVec F S128x128 .f32) (main_arg25 : FVec F S128 .f32) (main_arg26 : FVec F S128 .f32) (main_arg27 : FVec F S128 .f32) : IVec S_ 1 :=
  let main_v0 : FVec F S200000x5 .f32 := Host.absf main_arg0
  let main_cst : FVec F S_ .f32 := constant S_ .f32 0x7F800000#32
  let main_v1 : FVec F S200000x5 .f32 := broadcastInDim S200000x5 ![] bcast_S_S200000x5 main_cst
  let main_v2 : IVec S200000x5 1 := cmpf .olt main_v0 main_v1
  let main_c : IVec S_ 1 := constantI S_ 1 1#1
  let main_v3 : IVec S_ 1 := (fun x v => Host.reduce IntOp.andi x v reducesTo_S200000x5_S_d0_1 h_S_) main_v2 main_c
  let main_v4 : FVec F S400000x1 .f32 := Host.absf main_arg2
  let main_cst_0 : FVec F S_ .f32 := constant S_ .f32 0x7F800000#32
  let main_v5 : FVec F S400000x1 .f32 := broadcastInDim S400000x1 ![] bcast_S_S400000x1 main_cst_0
  let main_v6 : IVec S400000x1 1 := cmpf .olt main_v4 main_v5
  let main_c_1 : IVec S_ 1 := constantI S_ 1 1#1
  let main_v7 : IVec S_ 1 := (fun x v => Host.reduce IntOp.andi x v reducesTo_S400000x1_S_d0_1 h_S_) main_v6 main_c_1
  let main_v8 : IVec S_ 1 := andi main_v3 main_v7
  let main_v9 : FVec F S1x5 .f32 := Host.absf main_arg4
  let main_cst_2 : FVec F S_ .f32 := constant S_ .f32 0x7F800000#32
  let main_v10 : FVec F S1x5 .f32 := broadcastInDim S1x5 ![] bcast_S_S1x5 main_cst_2
  let main_v11 : IVec S1x5 1 := cmpf .olt main_v9 main_v10
  let main_c_3 : IVec S_ 1 := constantI S_ 1 1#1
  let main_v12 : IVec S_ 1 := (fun x v => Host.reduce IntOp.andi x v reducesTo_S1x5_S_d0_1 h_S_) main_v11 main_c_3
  let main_v13 : IVec S_ 1 := andi main_v8 main_v12
  let main_v14 : FVec F S5 .f32 := Host.absf main_arg5
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S200000x5 : Shape := ⟨2, ![200000, 5]⟩
abbrev S2x400000 : Shape := ⟨2, ![2, 400000]⟩
abbrev S400000x1 : Shape := ⟨2, ![400000, 1]⟩
abbrev S200000 : Shape := ⟨1, ![200000]⟩
abbrev S1x5 : Shape := ⟨2, ![1, 5]⟩
abbrev S5 : Shape := ⟨1, ![5]⟩
abbrev S5x128 : Shape := ⟨2, ![5, 128]⟩
abbrev S128 : Shape := ⟨1, ![128]⟩
abbrev S128x128 : Shape := ⟨2, ![128, 128]⟩
abbrev S1x128 : Shape := ⟨2, ![1, 128]⟩
abbrev S1x400000 : Shape := ⟨2, ![1, 400000]⟩
abbrev S400000 : Shape := ⟨1, ![400000]⟩
abbrev S_ : Shape := ⟨0, ![]⟩
abbrev S400000x5 : Shape := ⟨2, ![400000, 5]⟩
abbrev S8000x1 : Shape := ⟨2, ![8000, 1]⟩
abbrev S8000x5 : Shape := ⟨2, ![8000, 5]⟩
abbrev S200000x128 : Shape := ⟨2, ![200000, 128]⟩
abbrev S4000x5 : Shape := ⟨2, ![4000, 5]⟩
abbrev S4000x128 : Shape := ⟨2, ![4000, 128]⟩
abbrev S4000 : Shape := ⟨1, ![4000]⟩
abbrev S4000x1 : Shape := ⟨2, ![4000, 1]⟩
abbrev S400000x128 : Shape := ⟨2, ![400000, 128]⟩
abbrev S8000x128 : Shape := ⟨2, ![8000, 128]⟩
abbrev S200000x1 : Shape := ⟨2, ![200000, 1]⟩
abbrev S64x128 : Shape := ⟨2, ![64, 128]⟩
abbrev S4000x64 : Shape := ⟨2, ![4000, 64]⟩
abbrev S64 : Shape := ⟨1, ![64]⟩
abbrev S64x1 : Shape := ⟨2, ![64, 1]⟩
abbrev S64x256 : Shape := ⟨2, ![64, 256]⟩

abbrev nBuf : Space → Nat
  | .hbm => 107
  | .vmem => 65
  | .smem => 0
  | _ => 0

abbrev bufTy : (tb : Table) → Fin (tcTables nBuf tb) → BufTy
  | .hbm, ⟨0, _⟩ => ⟨S200000x5, .f32⟩
  | .hbm, ⟨1, _⟩ => ⟨S2x400000, .i32⟩
  | .hbm, ⟨2, _⟩ => ⟨S400000x1, .f32⟩
  | .hbm, ⟨3, _⟩ => ⟨S200000, .i32⟩
  | .hbm, ⟨4, _⟩ => ⟨S1x5, .f32⟩
  | .hbm, ⟨5, _⟩ => ⟨S5, .f32⟩
  | .hbm, ⟨6, _⟩ => ⟨S5x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S128, .f32⟩
  | .hbm, ⟨22, _⟩ => ⟨S128x128, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S1x400000, .i32⟩
  | .hbm, ⟨29, _⟩ => ⟨S400000, .i32⟩
  | .hbm, ⟨30, _⟩ => ⟨S1x400000, .i32⟩
  | .hbm, ⟨31, _⟩ => ⟨S400000, .i32⟩
  | .hbm, ⟨32, _⟩ => ⟨S_, .i32⟩
  | .hbm, ⟨33, _⟩ => ⟨S400000, .i32⟩
  | .hbm, ⟨34, _⟩ => ⟨S400000, .i1⟩
  | .hbm, ⟨35, _⟩ => ⟨S_, .i32⟩
  | .hbm, ⟨36, _⟩ => ⟨S400000, .i32⟩
  | .hbm, ⟨37, _⟩ => ⟨S400000, .i32⟩
  | .hbm, ⟨38, _⟩ => ⟨S400000, .i32⟩
  | .hbm, ⟨39, _⟩ => ⟨S400000x1, .i32⟩
  | .hbm, ⟨40, _⟩ => ⟨S400000x5, .f32⟩
  | .hbm, ⟨41, _⟩ => ⟨S1x5, .f32⟩
  | .hbm, ⟨42, _⟩ => ⟨S400000x5, .f32⟩
  | .hbm, ⟨43, _⟩ => ⟨S_, .f32⟩
  | .hbm, ⟨44, _⟩ => ⟨S200000x5, .f32⟩
  | .hbm, ⟨45, _⟩ => ⟨S400000x1, .i32⟩
  | .hbm, ⟨46, _⟩ => ⟨S200000x5, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S200000x128, .f32⟩
  | .hbm, ⟨52, _⟩ => ⟨S_, .i32⟩
  | .hbm, ⟨53, _⟩ => ⟨S400000, .i32⟩
  | .hbm, ⟨54, _⟩ => ⟨S400000, .i1⟩
  | .hbm, ⟨55, _⟩ => ⟨S_, .i32⟩
  | .hbm, ⟨56, _⟩ => ⟨S400000, .i32⟩
  | .hbm, ⟨57, _⟩ => ⟨S400000, .i32⟩
  | .hbm, ⟨58, _⟩ => ⟨S400000, .i32⟩
  | .hbm, ⟨59, _⟩ => ⟨S400000x1, .i32⟩
  | .hbm, ⟨60, _⟩ => ⟨S400000x128, .f32⟩
  | .hbm, ⟨61, _⟩ => ⟨S1x128, .f32⟩
  | .hbm, ⟨62, _⟩ => ⟨S400000x128, .f32⟩
  | .hbm, ⟨63, _⟩ => ⟨S_, .f32⟩
  | .hbm, ⟨64, _⟩ => ⟨S200000x128, .f32⟩
  | .hbm, ⟨65, _⟩ => ⟨S400000x1, .i32⟩
  | .hbm, ⟨66, _⟩ => ⟨S200000x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S200000x128, .f32⟩
  | .hbm, ⟨72, _⟩ => ⟨S_, .i32⟩
  | .hbm, ⟨73, _⟩ => ⟨S400000, .i32⟩
  | .hbm, ⟨74, _⟩ => ⟨S400000, .i1⟩
  | .hbm, ⟨75, _⟩ => ⟨S_, .i32⟩
  | .hbm, ⟨76, _⟩ => ⟨S400000, .i32⟩
  | .hbm, ⟨77, _⟩ => ⟨S400000, .i32⟩
  | .hbm, ⟨78, _⟩ => ⟨S400000, .i32⟩
  | .hbm, ⟨79, _⟩ => ⟨S400000x1, .i32⟩
  | .hbm, ⟨80, _⟩ => ⟨S400000x128, .f32⟩
  | .hbm, ⟨81, _⟩ => ⟨S1x128, .f32⟩
  | .hbm, ⟨82, _⟩ => ⟨S400000x128, .f32⟩
  | .hbm, ⟨83, _⟩ => ⟨S_, .f32⟩
  | .hbm, ⟨84, _⟩ => ⟨S200000x128, .f32⟩
  | .hbm, ⟨85, _⟩ => ⟨S400000x1, .i32⟩
  | .hbm, ⟨86, _⟩ => ⟨S200000x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S200000x128, .f32⟩
  | .hbm, ⟨92, _⟩ => ⟨S200000x1, .i32⟩
  | .hbm, ⟨93, _⟩ => ⟨S64x128, .f32⟩
  | .hbm, ⟨94, _⟩ => ⟨S_, .f32⟩
  | .hbm, ⟨95, _⟩ => ⟨S200000, .f32⟩
  | .hbm, ⟨96, _⟩ => ⟨S_, .f32⟩
  | .hbm, ⟨97, _⟩ => ⟨S64, .f32⟩
  | .hbm, ⟨98, _⟩ => ⟨S200000x1, .i32⟩
  | .hbm, ⟨99, _⟩ => ⟨S64, .f32⟩
  | .hbm, ⟨100, _⟩ => ⟨S_, .f32⟩
  | .hbm, ⟨101, _⟩ => ⟨S64, .f32⟩
  | .hbm, ⟨102, _⟩ => ⟨S64, .f32⟩
  | .hbm, ⟨103, _⟩ => ⟨S64x1, .f32⟩
  | .hbm, ⟨104, _⟩ => ⟨S64x128, .f32⟩
  | .hbm, ⟨105, _⟩ => ⟨S64x128, .f32⟩
  | .hbm, ⟨106, _⟩ => ⟨S64x256, .f32⟩
  | .local _ .vmem, ⟨0, _⟩ => ⟨S8000x1, .f32⟩
  | .local _ .vmem, ⟨1, _⟩ => ⟨S8000x1, .f32⟩
  | .local _ .vmem, ⟨2, _⟩ => ⟨S8000x5, .f32⟩
  | .local _ .vmem, ⟨3, _⟩ => ⟨S8000x5, .f32⟩
  | .local _ .vmem, ⟨4, _⟩ => ⟨S1x5, .f32⟩
  | .local _ .vmem, ⟨5, _⟩ => ⟨S1x5, .f32⟩
  | .local _ .vmem, ⟨6, _⟩ => ⟨S8000x5, .f32⟩
  | .local _ .vmem, ⟨7, _⟩ => ⟨S8000x5, .f32⟩
  | .local _ .vmem, ⟨8, _⟩ => ⟨S4000x5, .f32⟩
  | .local _ .vmem, ⟨9, _⟩ => ⟨S4000x5, .f32⟩
  | .local _ .vmem, ⟨10, _⟩ => ⟨S4000x5, .f32⟩
  | .local _ .vmem, ⟨11, _⟩ => ⟨S4000x5, .f32⟩
  | .local _ .vmem, ⟨12, _⟩ => ⟨S5x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S8000x1, .f32⟩
  | .local _ .vmem, ⟨21, _⟩ => ⟨S8000x1, .f32⟩
  | .local _ .vmem, ⟨22, _⟩ => ⟨S8000x128, .f32⟩
  | .local _ .vmem, ⟨23, _⟩ => ⟨S8000x128, .f32⟩
  | .local _ .vmem, ⟨24, _⟩ => ⟨S1x128, .f32⟩
  | .local _ .vmem, ⟨25, _⟩ => ⟨S1x128, .f32⟩
  | .local _ .vmem, ⟨26, _⟩ => ⟨S8000x128, .f32⟩
  | .local _ .vmem, ⟨27, _⟩ => ⟨S8000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | .local _ .vmem, ⟨40, _⟩ => ⟨S8000x1, .f32⟩
  | .local _ .vmem, ⟨41, _⟩ => ⟨S8000x1, .f32⟩
  | .local _ .vmem, ⟨42, _⟩ => ⟨S8000x128, .f32⟩
  | .local _ .vmem, ⟨43, _⟩ => ⟨S8000x128, .f32⟩
  | .local _ .vmem, ⟨44, _⟩ => ⟨S1x128, .f32⟩
  | .local _ .vmem, ⟨45, _⟩ => ⟨S1x128, .f32⟩
  | .local _ .vmem, ⟨46, _⟩ => ⟨S8000x128, .f32⟩
  | .local _ .vmem, ⟨47, _⟩ => ⟨S8000x128, .f32⟩
  | .local _ .vmem, ⟨48, _⟩ => ⟨S4000x128, .f32⟩
  | .local _ .vmem, ⟨49, _⟩ => ⟨S4000x128, .f32⟩
  | .local _ .vmem, ⟨50, _⟩ => ⟨S4000x128, .f32⟩
  | .local _ .vmem, ⟨51, _⟩ => ⟨S4000x128, .f32⟩
  | .local _ .vmem, ⟨52, _⟩ => ⟨S128x128, .f32⟩
  | .local _ .vmem, ⟨53, _⟩ => ⟨S1x128, .f32⟩
  | .local _ .vmem, ⟨54, _⟩ => ⟨S128x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S4000x128, .f32⟩
  | .local _ .vmem, ⟨59, _⟩ => ⟨S4000x128, .f32⟩
  | .local _ .vmem, ⟨60, _⟩ => ⟨S4000x128, .f32⟩
  | .local _ .vmem, ⟨61, _⟩ => ⟨S4000x128, .f32⟩
  | .local _ .vmem, ⟨62, _⟩ => ⟨S4000x1, .i32⟩
  | .local _ .vmem, ⟨63, _⟩ => ⟨S4000x1, .i32⟩
  | .local _ .vmem, ⟨64, _⟩ => ⟨S64x128, .f32⟩
  | _, _ => ⟨S200000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_c_1 : Ref sig .tc := ⟨.hbm, 52, rfl⟩
abbrev main_v21 : Ref sig .tc := ⟨.hbm, 53, rfl⟩
abbrev main_v22 : Ref sig .tc := ⟨.hbm, 54, rfl⟩
abbrev main_c_2 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_3 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_c_4 : Ref sig .tc := ⟨.hbm, 72, rfl⟩
abbrev main_v38 : Ref sig .tc := ⟨.hbm, 73, rfl⟩
abbrev main_v39 : Ref sig .tc := ⟨.hbm, 74, rfl⟩
abbrev main_c_5 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_6 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_7 : Ref sig .tc := ⟨.hbm, 94, rfl⟩
abbrev main_v57 : Ref sig .tc := ⟨.hbm, 95, rfl⟩
abbrev main_cst_8 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_9 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg8_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg6_0 : Ref sig .tc := ⟨.vmem, 56, rfl⟩
abbrev cc5_stg7_0 : Ref sig .tc := ⟨.vmem, 57, rfl⟩
abbrev cc5_stg8_0 : Ref sig .tc := ⟨.vmem, 58, rfl⟩
abbrev cc5_stg8_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem8_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem4_1 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem6_0 : DmaSem sig := 56
abbrev cc5_sem7_0 : DmaSem sig := 57
abbrev cc5_sem8_0 : DmaSem sig := 58
abbrev cc5_sem8_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S4000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S8000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S4000x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  shapeCasts_S5_S1x5 : S5.ShapeCasts S1x5
  inb_S8000x1_S8000x1_0_0 : ∀ a, (![0, 0] : Fin 2 → Nat) a + S8000x1.size a ≤ S8000x1.size a
  h_S8000x1 : 0 < S8000x1.numel
  inb_S8000x5_S8000x5_0_0 : ∀ a, (![0, 0] : Fin 2 → Nat) a + S8000x5.size a ≤ S8000x5.size a
  h_S8000x5 : 0 < S8000x5.numel
  shapeCasts_S8000x5_S8000x5 : S8000x5.ShapeCasts S8000x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S8000x1_S8000x5 : S8000x1.Broadcasts S8000x5
  broadcasts_S1x5_S8000x5 : S1x5.Broadcasts S8000x5
  bcast_S_S200000x5 : S_.BroadcastsInDim S200000x5 (![] : Fin 0 → Fin S200000x5.rank)
  shapeCasts_S128_S1x128 : S128.ShapeCasts S1x128
  inb_S4000x5_S4000x5_0_0 : ∀ a, (![0, 0] : Fin 2 → Nat) a + S4000x5.size a ≤ S4000x5.size a
  h_S4000x5 : 0 < S4000x5.numel
  shapeCasts_S4000x5_S4000x5 : S4000x5.ShapeCasts S4000x5
  inb_S5x128_S5x128_0_0 : ∀ a, (![0, 0] : Fin 2 → Nat) a + S5x128.size a ≤ S5x128.size a
  h_S5x128 : 0 < S5x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S4000x128 : S1x128.Broadcasts S4000x128
  inb_S128x128_S128x128_0_0 : ∀ a, (![0, 0] : Fin 2 → Nat) a + S128x128.size a ≤ S128x128.size a
  h_S128x128 : 0 < S128x128.numel
  reduces_S4000x128_S4000 : S4000x128.Reduces [1] S4000
  shapeCasts_S4000_S4000x1 : S4000.ShapeCasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  broadcasts_S8000x1_S8000x128 : S8000x1.Broadcasts S8000x128
  broadcasts_S1x128_S8000x128 : S1x128.Broadcasts S8000x128
  bcast_S_S200000x128 : S_.BroadcastsInDim S200000x128 (![] : Fin 0 → Fin S200000x128.rank)
  shapeCasts_S4000x128_S4000x128 : S4000x128.ShapeCasts S4000x128
  shapeCasts_S200000_S200000x1 : S200000.ShapeCasts S200000x1
  inb_S64x128_S64x128_0_0 : ∀ a, (![0, 0] : Fin 2 → Nat) a + S64x128.size a ≤ S64x128.size a
  h_S64x128 : 0 < S64x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x64_d1_w32 : S4000x64.Iotas .tc 32 [1]
  broadcasts_S4000x1_S4000x64 : S4000x1.Broadcasts S4000x64
  natLt_1_32 : 1 < 32
  shapeCasts_S64x128_S64x128 : S64x128.ShapeCasts S64x128
  bcast_S_S200000 : S_.BroadcastsInDim S200000 (![] : Fin 0 → Fin S200000.rank)
  bcast_S_S64 : S_.BroadcastsInDim S64 (![] : Fin 0 → Fin S64.rank)
  bcast_S200000_S200000x1_0 : S200000.BroadcastsInDim S200000x1 (![0] : Fin 1 → Fin S200000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  concatenates_S64x128_S64x128_S64x256_d1 : Shape.Concatenates [S64x128, S64x128] S64x256 1
  gather_S200000x5_S400000x1_S400000x5_1_0_n_n_0_1_15_wf : GatherDims.WF S200000x5 S400000x1 S400000x5 [1] [0] [] [0] [] 1 ![1, 5]
  scatter_S200000x5_S400000x1_S400000x5_1_0_0_1_wf : ScatterDims.WF S200000x5 S400000x1 S400000x5 [1] [0] [0] 1
  dot_S4000x5_S5x128_S4000x128_1_0_0_1_n_n_wf : DotDims.WF S4000x5 S5x128 S4000x128 [1] [0] [0] [1] [] []
  dot_S4000x128_S128x128_S4000x128_1_0_0_1_n_n_wf : DotDims.WF S4000x128 S128x128 S4000x128 [1] [0] [0] [1] [] []
  gather_S200000x128_S400000x1_S400000x128_1_0_n_n_0_1_1128_wf : GatherDims.WF S200000x128 S400000x1 S400000x128 [1] [0] [] [0] [] 1 ![1, 128]
  scatter_S200000x128_S400000x1_S400000x128_1_0_0_1_wf : ScatterDims.WF S200000x128 S400000x1 S400000x128 [1] [0] [0] 1
  dot_S4000x64_S4000x128_S64x128_0_0_1_1_n_n_wf : DotDims.WF S4000x64 S4000x128 S64x128 [0] [0] [1] [1] [] []
  scatter_S64_S200000x1_S200000_n_0_0_1_wf : ScatterDims.WF S64 S200000x1 S200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S400000x1.size a
  hwx0_0 : ∀ i : grid0.Coords, EltTy.bits .f32 = 32 ∨ (Rect.block (s := S400000x1) S8000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x5.size a ≤ S400000x5.size a
  hwx0_1 : ∀ i : grid0.Coords, EltTy.bits .f32 = 32 ∨ (Rect.block (s := S400000x5) S8000x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x5.size a ≤ S1x5.size a
  hwx0_3 : ∀ i : grid0.Coords, EltTy.bits .f32 = 32 ∨ (Rect.block (s := S1x5) S1x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x5.size a ≤ S400000x5.size a
  hwx0_4 : ∀ i : grid0.Coords, EltTy.bits .f32 = 32 ∨ (Rect.block (s := S400000x5) S8000x5.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x5.size a ≤ S200000x5.size a
  hwx1_0 : ∀ i : grid1.Coords, EltTy.bits .f32 = 32 ∨ (Rect.block (s := S200000x5) S4000x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x5.size a ≤ S200000x5.size a
  hwx1_1 : ∀ i : grid1.Coords, EltTy.bits .f32 = 32 ∨ (Rect.block (s := S200000x5) S4000x5.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5x128.size a ≤ S5x128.size a
  hwx1_2 : ∀ i : grid1.Coords, EltTy.bits .f32 = 32 ∨ (Rect.block (s := S5x128) S5x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S200000x128.size a
  hwx1_8 : ∀ i : grid1.Coords, EltTy.bits .f32 = 32 ∨ (Rect.block (s := S200000x128) S4000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x1.size a ≤ S400000x1.size a
  hwx2_0 : ∀ i : grid2.Coords, EltTy.bits .f32 = 32 ∨ (Rect.block (s := S400000x1) S8000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S400000x128.size a
  hwx2_1 : ∀ i : grid2.Coords, EltTy.bits .f32 = 32 ∨ (Rect.block (s := S400000x128) S8000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x128.size a ≤ S400000x128.size a
  hwx2_4 : ∀ i : grid2.Coords, EltTy.bits .f32 = 32 ∨ (Rect.block (s := S400000x128) S8000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S200000x128.size a
  hwx3_0 : ∀ i : grid3.Coords, EltTy.bits .f32 = 32 ∨ (Rect.block (s := S200000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S200000x128.size a
  hwx3_1 : ∀ i : grid3.Coords, EltTy.bits .f32 = 32 ∨ (Rect.block (s := S200000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4000x128.size a ≤ S200000x128.size a
  hwx3_8 : ∀ i : grid3.Coords, EltTy.bits .f32 = 32 ∨ (Rect.block (s := S200000x128) S4000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x1.size a ≤ S400000x1.size a
  hwx4_0 : ∀ i : grid4.Coords, EltTy.bits .f32 = 32 ∨ (Rect.block (s := S400000x1) S8000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S400000x128.size a
  hwx4_1 : ∀ i : grid4.Coords, EltTy.bits .f32 = 32 ∨ (Rect.block (s := S400000x128) S8000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8000x128.size a ≤ S400000x128.size a
  hwx4_4 : ∀ i : grid4.Coords, EltTy.bits .f32 = 32 ∨ (Rect.block (s := S400000x128) S8000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S200000x128.size a
  hwx5_0 : ∀ i : grid5.Coords, EltTy.bits .f32 = 32 ∨ (Rect.block (s := S200000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S200000x128.size a
  hwx5_1 : ∀ i : grid5.Coords, EltTy.bits .f32 = 32 ∨ (Rect.block (s := S200000x128) S4000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S4000x128.size a ≤ S200000x128.size a
  hwx5_8 : ∀ i : grid5.Coords, EltTy.bits .f32 = 32 ∨ (Rect.block (s := S200000x128) S4000x128.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S200000x128.size a
  hwx6_0 : ∀ i : grid6.Coords, EltTy.bits .f32 = 32 ∨ (Rect.block (s := S200000x128) S4000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x1.size a ≤ S200000x1.size a
  hwx6_1 : ∀ i : grid6.Coords, EltTy.bits .i32 = 32 ∨ (Rect.block (s := S200000x1) S4000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)

variable [Facts₀]

def gather_S200000x5_S400000x1_S400000x5_1_0_n_n_0_1_15 : GatherDims S200000x5 S400000x1 S400000x5 where
  offsetDims := [1]
  collapsedSliceDims := [0]
  operandBatchingDims := []
  startIndicesBatchingDims := []
  startIndexMap := [0]
  indexVectorDim := 1
  sliceSizes := ![1, 5]
  wf := gather_S200000x5_S400000x1_S400000x5_1_0_n_n_0_1_15_wf
def scatter_S200000x5_S400000x1_S400000x5_1_0_0_1 : ScatterDims S200000x5 S400000x1 S400000x5 where
  updateWindowDims := [1]
  insertedWindowDims := [0]
  scatterDimsToOperandDims := [0]
  indexVectorDim := 1
  wf := scatter_S200000x5_S400000x1_S400000x5_1_0_0_1_wf
def dot_S4000x5_S5x128_S4000x128_1_0_0_1_n_n : DotDims S4000x5 S5x128 S4000x128 where
  lhsContracting := [1]
  rhsContracting := [0]
  lhsNonContracting := [0]
  rhsNonContracting := [1]
  lhsBatch := []
  rhsBatch := []
  wf := dot_S4000x5_S5x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def dot_S4000x64_S4000x128_S64x128_0_0_1_1_n_n : DotDims S4000x64 S4000x128 S64x128 where
  lhsContracting := [0]
  rhsContracting := [0]
  lhsNonContracting := [1]
  rhsNonContracting := [1]
  lhsBatch := []
  rhsBatch := []
  wf := dot_S4000x64_S4000x128_S64x128_0_0_1_1_n_n_wf
def scatter_S64_S200000x1_S200000_n_0_0_1 : ScatterDims S64 S200000x1 S200000 where
  updateWindowDims := []
  insertedWindowDims := [0]
  scatterDimsToOperandDims := [0]
  indexVectorDim := 1
  wf := scatter_S64_S200000x1_S200000_n_0_0_1_wf

abbrev win0_0 : Pipeline.Window sig grid0 :=
  Pipeline.Window.ofSpec (Memref.whole main_arg2) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S8000x5.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S4000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S5x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20) S4000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg2) S8000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S8000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v20) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v34) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v35) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v36) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v37) S4000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_arg2) S8000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg20) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v45) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v46) S8000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v37) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v49) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg22) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v50) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg24) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v51) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v52) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v53) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v54) S4000x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v54) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v55) S4000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v56) S64x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S200000x5 : Shape := ⟨2, ![200000, 5]⟩
abbrev S2x400000 : Shape := ⟨2, ![2, 400000]⟩
abbrev S400000x1 : Shape := ⟨2, ![400000, 1]⟩
abbrev S200000 : Shape := ⟨1, ![200000]⟩
abbrev S1x5 : Shape := ⟨2, ![1, 5]⟩
abbrev S5 : Shape := ⟨1, ![5]⟩
abbrev S5x128 : Shape := ⟨2, ![5, 128]⟩
abbrev S128 : Shape := ⟨1, ![128]⟩
abbrev S128x128 : Shape := ⟨2, ![128, 128]⟩
abbrev S1x128 : Shape := ⟨2, ![1, 128]⟩
abbrev S1x400000 : Shape := ⟨2, ![1, 400000]⟩
abbrev S400000 : Shape := ⟨1, ![400000]⟩
abbrev S400000x5 : Shape := ⟨2, ![400000, 5]⟩
abbrev S_ : Shape := ⟨0, ![]⟩
abbrev S200000x128 : Shape := ⟨2, ![200000, 128]⟩
abbrev S200000x1 : Shape := ⟨2, ![200000, 1]⟩
abbrev S400000x128 : Shape := ⟨2, ![400000, 128]⟩
abbrev S64x128 : Shape := ⟨2, ![64, 128]⟩
abbrev S64 : Shape := ⟨1, ![64]⟩
abbrev S64x1 : Shape := ⟨2, ![64, 1]⟩
abbrev S64x256 : Shape := ⟨2, ![64, 256]⟩

abbrev nBuf : Space → Nat
  | .hbm => 244
  | .vmem => 0
  | .smem => 0
  | _ => 0

abbrev hbmTy0_0 (i : Nat) : BufTy := match i % 128 with
  | 0 => ⟨S200000x5, .f32⟩
  | 1 => ⟨S2x400000, .i32⟩
  | 2 => ⟨S400000x1, .f32⟩
  | 3 => ⟨S200000, .i32⟩
  | 4 => ⟨S1x5, .f32⟩
  | 5 => ⟨S5, .f32⟩
  | 6 => ⟨S5x128, .f32⟩
  | 7 => ⟨S128, .f32⟩
  | 8 => ⟨S128x128, .f32⟩
  | 9 => ⟨S128, .f32⟩
  | 10 => ⟨S128, .f32⟩
  | 11 => ⟨S128, .f32⟩
  | 12 => ⟨S1x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128, .f32⟩
  | 19 => ⟨S128, .f32⟩
  | 20 => ⟨S1x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S128, .f32⟩
  | 27 => ⟨S128, .f32⟩
  | 28 => ⟨S1x400000, .i32⟩
  | 29 => ⟨S400000, .i32⟩
  | 30 => ⟨S1x400000, .i32⟩
  | 31 => ⟨S400000, .i32⟩
  | 32 => ⟨S400000x5, .f32⟩
  | 33 => ⟨S1x5, .f32⟩
  | 34 => ⟨S400000x5, .f32⟩
  | 35 => ⟨S400000x5, .f32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000x5, .f32⟩
  | 45 => ⟨S400000x5, .f32⟩
  | 46 => ⟨S_, .f32⟩
  | 47 => ⟨S400000x5, .f32⟩
  | 48 => ⟨S400000x5, .f32⟩
  | 49 => ⟨S_, .f32⟩
  | 50 => ⟨S200000x5, .f32⟩
  | 51 => ⟨S400000x1, .i32⟩
  | 52 => ⟨S200000x5, .f32⟩
  | 53 => ⟨S200000x5, .f32⟩
  | 54 => ⟨S200000x128, .f32⟩
  | 55 => ⟨S1x128, .f32⟩
  | 56 => ⟨S200000x128, .f32⟩
  | 57 => ⟨S200000x128, .f32⟩
  | 58 => ⟨S_, .f32⟩
  | 59 => ⟨S200000x128, .f32⟩
  | 60 => ⟨S200000x128, .f32⟩
  | 61 => ⟨S200000x128, .f32⟩
  | 62 => ⟨S1x128, .f32⟩
  | 63 => ⟨S200000x128, .f32⟩
  | 64 => ⟨S200000x128, .f32⟩
  | 65 => ⟨S_, .f32⟩
  | 66 => ⟨S200000, .f32⟩
  | 67 => ⟨S200000x1, .f32⟩
  | 68 => ⟨S_, .f32⟩
  | 69 => ⟨S200000x1, .f32⟩
  | 70 => ⟨S200000x1, .f32⟩
  | 71 => ⟨S200000x128, .f32⟩
  | 72 => ⟨S200000x128, .f32⟩
  | 73 => ⟨S200000x128, .f32⟩
  | 74 => ⟨S_, .f32⟩
  | 75 => ⟨S200000, .f32⟩
  | 76 => ⟨S200000x1, .f32⟩
  | 77 => ⟨S_, .f32⟩
  | 78 => ⟨S200000x1, .f32⟩
  | 79 => ⟨S200000x1, .f32⟩
  | 80 => ⟨S200000x128, .f32⟩
  | 81 => ⟨S200000x128, .f32⟩
  | 82 => ⟨S_, .f32⟩
  | 83 => ⟨S200000x1, .f32⟩
  | 84 => ⟨S200000x1, .f32⟩
  | 85 => ⟨S200000x1, .f32⟩
  | 86 => ⟨S200000x128, .f32⟩
  | 87 => ⟨S200000x128, .f32⟩
  | 88 => ⟨S1x128, .f32⟩
  | 89 => ⟨S200000x128, .f32⟩
  | 90 => ⟨S200000x128, .f32⟩
  | 91 => ⟨S1x128, .f32⟩
  | 92 => ⟨S200000x128, .f32⟩
  | 93 => ⟨S200000x128, .f32⟩
  | 94 => ⟨S_, .f32⟩
  | 95 => ⟨S200000x128, .f32⟩
  | 96 => ⟨S200000x128, .f32⟩
  | 97 => ⟨S400000x128, .f32⟩
  | 98 => ⟨S1x128, .f32⟩
  | 99 => ⟨S400000x128, .f32⟩
  | 100 => ⟨S400000x128, .f32⟩
  | 101 => ⟨S_, .i32⟩
  | 102 => ⟨S400000, .i32⟩
  | 103 => ⟨S400000, .i1⟩
  | 104 => ⟨S_, .i32⟩
  | 105 => ⟨S400000, .i32⟩
  | 106 => ⟨S400000, .i32⟩
  | 107 => ⟨S400000, .i32⟩
  | 108 => ⟨S400000x1, .i32⟩
  | 109 => ⟨S400000x128, .f32⟩
  | 110 => ⟨S400000x128, .f32⟩
  | 111 => ⟨S_, .f32⟩
  | 112 => ⟨S400000x128, .f32⟩
  | 113 => ⟨S400000x128, .f32⟩
  | 114 => ⟨S_, .f32⟩
  | 115 => ⟨S200000x128, .f32⟩
  | 116 => ⟨S400000x1, .i32⟩
  | 117 => ⟨S200000x128, .f32⟩
  | 118 => ⟨S200000x128, .f32⟩
  | 119 => ⟨S200000x128, .f32⟩
  | 120 => ⟨S1x128, .f32⟩
  | 121 => ⟨S200000x128, .f32⟩
  | 122 => ⟨S200000x128, .f32⟩
  | 123 => ⟨S_, .f32⟩
  | 124 => ⟨S200000x128, .f32⟩
  | 125 => ⟨S200000x128, .f32⟩
  | 126 => ⟨S200000x128, .f32⟩
  | 127 => ⟨S1x128, .f32⟩
  | _ => ⟨S200000x5, .f32⟩

abbrev hbmTy0_1 (i : Nat) : BufTy := match i % 128 with
  | 0 => ⟨S200000x128, .f32⟩
  | 1 => ⟨S200000x128, .f32⟩
  | 2 => ⟨S_, .f32⟩
  | 3 => ⟨S200000, .f32⟩
  | 4 => ⟨S200000x1, .f32⟩
  | 5 => ⟨S_, .f32⟩
  | 6 => ⟨S200000x1, .f32⟩
  | 7 => ⟨S200000x1, .f32⟩
  | 8 => ⟨S200000x128, .f32⟩
  | 9 => ⟨S200000x128, .f32⟩
  | 10 => ⟨S200000x128, .f32⟩
  | 11 => ⟨S_, .f32⟩
  | 12 => ⟨S200000, .f32⟩
  | 13 => ⟨S200000x1, .f32⟩
  | 14 => ⟨S_, .f32⟩
  | 15 => ⟨S200000x1, .f32⟩
  | 16 => ⟨S200000x1, .f32⟩
  | 17 => ⟨S200000x128, .f32⟩
  | 18 => ⟨S200000x128, .f32⟩
  | 19 => ⟨S_, .f32⟩
  | 20 => ⟨S200000x1, .f32⟩
  | 21 => ⟨S200000x1, .f32⟩
  | 22 => ⟨S200000x1, .f32⟩
  | 23 => ⟨S200000x128, .f32⟩
  | 24 => ⟨S200000x128, .f32⟩
  | 25 => ⟨S1x128, .f32⟩
  | 26 => ⟨S200000x128, .f32⟩
  | 27 => ⟨S200000x128, .f32⟩
  | 28 => ⟨S1x128, .f32⟩
  | 29 => ⟨S200000x128, .f32⟩
  | 30 => ⟨S200000x128, .f32⟩
  | 31 => ⟨S_, .f32⟩
  | 32 => ⟨S200000x128, .f32⟩
  | 33 => ⟨S200000x128, .f32⟩
  | 34 => ⟨S400000x128, .f32⟩
  | 35 => ⟨S1x128, .f32⟩
  | 36 => ⟨S400000x128, .f32⟩
  | 37 => ⟨S400000x128, .f32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000x128, .f32⟩
  | 47 => ⟨S400000x128, .f32⟩
  | 48 => ⟨S_, .f32⟩
  | 49 => ⟨S400000x128, .f32⟩
  | 50 => ⟨S400000x128, .f32⟩
  | 51 => ⟨S_, .f32⟩
  | 52 => ⟨S200000x128, .f32⟩
  | 53 => ⟨S400000x1, .i32⟩
  | 54 => ⟨S200000x128, .f32⟩
  | 55 => ⟨S200000x128, .f32⟩
  | 56 => ⟨S200000x128, .f32⟩
  | 57 => ⟨S1x128, .f32⟩
  | 58 => ⟨S200000x128, .f32⟩
  | 59 => ⟨S200000x128, .f32⟩
  | 60 => ⟨S_, .f32⟩
  | 61 => ⟨S200000x128, .f32⟩
  | 62 => ⟨S200000x128, .f32⟩
  | 63 => ⟨S200000x128, .f32⟩
  | 64 => ⟨S1x128, .f32⟩
  | 65 => ⟨S200000x128, .f32⟩
  | 66 => ⟨S200000x128, .f32⟩
  | 67 => ⟨S_, .f32⟩
  | 68 => ⟨S200000, .f32⟩
  | 69 => ⟨S200000x1, .f32⟩
  | 70 => ⟨S_, .f32⟩
  | 71 => ⟨S200000x1, .f32⟩
  | 72 => ⟨S200000x1, .f32⟩
  | 73 => ⟨S200000x128, .f32⟩
  | 74 => ⟨S200000x128, .f32⟩
  | 75 => ⟨S200000x128, .f32⟩
  | 76 => ⟨S_, .f32⟩
  | 77 => ⟨S200000, .f32⟩
  | 78 => ⟨S200000x1, .f32⟩
  | 79 => ⟨S_, .f32⟩
  | 80 => ⟨S200000x1, .f32⟩
  | 81 => ⟨S200000x1, .f32⟩
  | 82 => ⟨S200000x128, .f32⟩
  | 83 => ⟨S200000x128, .f32⟩
  | 84 => ⟨S_, .f32⟩
  | 85 => ⟨S200000x1, .f32⟩
  | 86 => ⟨S200000x1, .f32⟩
  | 87 => ⟨S200000x1, .f32⟩
  | 88 => ⟨S200000x128, .f32⟩
  | 89 => ⟨S200000x128, .f32⟩
  | 90 => ⟨S1x128, .f32⟩
  | 91 => ⟨S200000x128, .f32⟩
  | 92 => ⟨S200000x128, .f32⟩
  | 93 => ⟨S1x128, .f32⟩
  | 94 => ⟨S200000x128, .f32⟩
  | 95 => ⟨S200000x128, .f32⟩
  | 96 => ⟨S_, .f32⟩
  | 97 => ⟨S200000x128, .f32⟩
  | 98 => ⟨S200000x128, .f32⟩
  | 99 => ⟨S_, .f32⟩
  | 100 => ⟨S64x128, .f32⟩
  | 101 => ⟨S200000x1, .i32⟩
  | 102 => ⟨S64x128, .f32⟩
  | 103 => ⟨S_, .f32⟩
  | 104 => ⟨S200000, .f32⟩
  | 105 => ⟨S_, .f32⟩
  | 106 => ⟨S64, .f32⟩
  | 107 => ⟨S200000x1, .i32⟩
  | 108 => ⟨S64, .f32⟩
  | 109 => ⟨S_, .f32⟩
  | 110 => ⟨S64, .f32⟩
  | 111 => ⟨S64, .f32⟩
  | 112 => ⟨S64x1, .f32⟩
  | 113 => ⟨S64x128, .f32⟩
  | 114 => ⟨S64x128, .f32⟩
  | 115 => ⟨S64x256, .f32⟩
  | _ => ⟨S200000x5, .f32⟩

abbrev hbmTy (i : Nat) : BufTy := match i / 128 with
  | 0 => hbmTy0_0 i
  | 1 => hbmTy0_1 i
  | _ => ⟨S200000x5, .f32⟩

abbrev bufTy : (tb : Table) → Fin (tcTables nBuf tb) → BufTy
  | .hbm, ⟨i, _⟩ => hbmTy i
  | _, _ => ⟨S200000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_c : Ref sig .tc := ⟨.hbm, 36, rfl⟩
abbrev main_v8 : Ref sig .tc := ⟨.hbm, 37, rfl⟩
abbrev main_v9 : Ref sig .tc := ⟨.hbm, 38, rfl⟩
abbrev main_c_0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_call0_cst : Ref sig .tc := ⟨.hbm, 46, rfl⟩
abbrev main_call0_v0 : Ref sig .tc := ⟨.hbm, 47, rfl⟩
abbrev main_v16 : Ref sig .tc := ⟨.hbm, 48, rfl⟩
abbrev main_cst : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_call1_cst : Ref sig .tc := ⟨.hbm, 58, rfl⟩
abbrev main_call1_v0 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_1 : Ref sig .tc := ⟨.hbm, 65, rfl⟩
abbrev main_v30 : Ref sig .tc := ⟨.hbm, 66, rfl⟩
abbrev main_v31 : Ref sig .tc := ⟨.hbm, 67, rfl⟩
abbrev main_cst_2 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_3 : Ref sig .tc := ⟨.hbm, 74, rfl⟩
abbrev main_v37 : Ref sig .tc := ⟨.hbm, 75, rfl⟩
abbrev main_v38 : Ref sig .tc := ⟨.hbm, 76, rfl⟩
abbrev main_cst_4 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_5 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_call2_cst : Ref sig .tc := ⟨.hbm, 94, rfl⟩
abbrev main_call2_v0 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_c_6 : Ref sig .tc := ⟨.hbm, 101, rfl⟩
abbrev main_v59 : Ref sig .tc := ⟨.hbm, 102, rfl⟩
abbrev main_v60 : Ref sig .tc := ⟨.hbm, 103, rfl⟩
abbrev main_c_7 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_call3_cst : Ref sig .tc := ⟨.hbm, 111, rfl⟩
abbrev main_call3_v0 : Ref sig .tc := ⟨.hbm, 112, rfl⟩
abbrev main_v67 : Ref sig .tc := ⟨.hbm, 113, rfl⟩
abbrev main_cst_8 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_call4_cst : Ref sig .tc := ⟨.hbm, 123, rfl⟩
abbrev main_call4_v0 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_9 : Ref sig .tc := ⟨.hbm, 130, rfl⟩
abbrev main_v81 : Ref sig .tc := ⟨.hbm, 131, rfl⟩
abbrev main_v82 : Ref sig .tc := ⟨.hbm, 132, rfl⟩
abbrev main_cst_10 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_cst_11 : Ref sig .tc := ⟨.hbm, 139, rfl⟩
abbrev main_v88 : Ref sig .tc := ⟨.hbm, 140, rfl⟩
abbrev main_v89 : Ref sig .tc := ⟨.hbm, 141, rfl⟩
abbrev main_cst_12 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_13 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_call5_cst : Ref sig .tc := ⟨.hbm, 159, rfl⟩
abbrev main_call5_v0 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_c_14 : Ref sig .tc := ⟨.hbm, 166, rfl⟩
abbrev main_v110 : Ref sig .tc := ⟨.hbm, 167, rfl⟩
abbrev main_v111 : Ref sig .tc := ⟨.hbm, 168, rfl⟩
abbrev main_c_15 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_call6_cst : Ref sig .tc := ⟨.hbm, 176, rfl⟩
abbrev main_call6_v0 : Ref sig .tc := ⟨.hbm, 177, rfl⟩
abbrev main_v118 : Ref sig .tc := ⟨.hbm, 178, rfl⟩
abbrev main_cst_16 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_call7_cst : Ref sig .tc := ⟨.hbm, 188, rfl⟩
abbrev main_call7_v0 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_cst_17 : Ref sig .tc := ⟨.hbm, 195, rfl⟩
abbrev main_v132 : Ref sig .tc := ⟨.hbm, 196, rfl⟩
abbrev main_v133 : Ref sig .tc := ⟨.hbm, 197, rfl⟩
abbrev main_cst_18 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_cst_19 : Ref sig .tc := ⟨.hbm, 204, rfl⟩
abbrev main_v139 : Ref sig .tc := ⟨.hbm, 205, rfl⟩
abbrev main_v140 : Ref sig .tc := ⟨.hbm, 206, rfl⟩
abbrev main_cst_20 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_cst_21 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_call8_cst : Ref sig .tc := ⟨.hbm, 224, rfl⟩
abbrev main_call8_v0 : Ref sig .tc := ⟨.hbm, 225, rfl⟩
abbrev main_v156 : Ref sig .tc := ⟨.hbm, 226, rfl⟩
abbrev main_cst_22 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_cst_23 : Ref sig .tc := ⟨.hbm, 231, rfl⟩
abbrev main_v160 : Ref sig .tc := ⟨.hbm, 232, rfl⟩
abbrev main_cst_24 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_cst_25 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S5_S1x5_1 : S5.BroadcastsInDim S1x5 (![1] : Fin 1 → Fin S1x5.rank)
  bcast_S1x5_S400000x5_0_1 : S1x5.BroadcastsInDim S400000x5 (![0, 1] : Fin 2 → Fin S400000x5.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S400000x5 : S_.BroadcastsInDim S400000x5 (![] : Fin 0 → Fin S400000x5.rank)
  bcast_S_S200000x5 : S_.BroadcastsInDim S200000x5 (![] : Fin 0 → Fin S200000x5.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  reducesTo_S200000x128_S200000_d1 : S200000x128.ReducesTo [1] S200000
  h_S_ : 0 < S_.numel
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S_S64x128 : S_.BroadcastsInDim S64x128 (![] : Fin 0 → Fin S64x128.rank)
  bcast_S_S200000 : S_.BroadcastsInDim S200000 (![] : Fin 0 → Fin S200000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  concatenates_S64x128_S64x128_S64x256_d1 : Shape.Concatenates [S64x128, S64x128] S64x256 1
  dot_S400000x1_S1x5_S400000x5_1_0_0_1_n_n_wf : DotDims.WF S400000x1 S1x5 S400000x5 [1] [0] [0] [1] [] []
  gather_S200000x5_S400000x1_S400000x5_1_0_n_n_0_1_15_wf : GatherDims.WF S200000x5 S400000x1 S400000x5 [1] [0] [] [0] [] 1 ![1, 5]
  scatter_S200000x5_S400000x1_S400000x5_1_0_0_1_wf : ScatterDims.WF S200000x5 S400000x1 S400000x5 [1] [0] [0] 1
  dot_S200000x5_S5x128_S200000x128_1_0_0_1_n_n_wf : DotDims.WF S200000x5 S5x128 S200000x128 [1] [0] [0] [1] [] []
  dot_S200000x128_S128x128_S200000x128_1_0_0_1_n_n_wf : DotDims.WF S200000x128 S128x128 S200000x128 [1] [0] [0] [1] [] []
  dot_S400000x1_S1x128_S400000x128_1_0_0_1_n_n_wf : DotDims.WF S400000x1 S1x128 S400000x128 [1] [0] [0] [1] [] []
  gather_S200000x128_S400000x1_S400000x128_1_0_n_n_0_1_1128_wf : GatherDims.WF S200000x128 S400000x1 S400000x128 [1] [0] [] [0] [] 1 ![1, 128]
  scatter_S200000x128_S400000x1_S400000x128_1_0_0_1_wf : ScatterDims.WF S200000x128 S400000x1 S400000x128 [1] [0] [0] 1
  scatter_S64x128_S200000x1_S200000x128_1_0_0_1_wf : ScatterDims.WF S64x128 S200000x1 S200000x128 [1] [0] [0] 1
  scatter_S64_S200000x1_S200000_n_0_0_1_wf : ScatterDims.WF S64 S200000x1 S200000 [] [0] [0] 1

variable [Facts₀]

def dot_S400000x1_S1x5_S400000x5_1_0_0_1_n_n : DotDims S400000x1 S1x5 S400000x5 where
  lhsContracting := [1]
  rhsContracting := [0]
  lhsNonContracting := [0]
  rhsNonContracting := [1]
  lhsBatch := []
  rhsBatch := []
  wf := dot_S400000x1_S1x5_S400000x5_1_0_0_1_n_n_wf
def gather_S200000x5_S400000x1_S400000x5_1_0_n_n_0_1_15 : GatherDims S200000x5 S400000x1 S400000x5 where
  offsetDims := [1]
  collapsedSliceDims := [0]
  operandBatchingDims := []
  startIndicesBatchingDims := []
  startIndexMap := [0]
  indexVectorDim := 1
  sliceSizes := ![1, 5]
  wf := gather_S200000x5_S400000x1_S400000x5_1_0_n_n_0_1_15_wf
def scatter_S200000x5_S400000x1_S400000x5_1_0_0_1 : ScatterDims S200000x5 S400000x1 S400000x5 where
  updateWindowDims := [1]
  insertedWindowDims := [0]
  scatterDimsToOperandDims := [0]
  indexVectorDim := 1
  wf := scatter_S200000x5_S400000x1_S400000x5_1_0_0_1_wf
def dot_S200000x5_S5x128_S200000x128_1_0_0_1_n_n : DotDims S200000x5 S5x128 S200000x128 where
  lhsContracting := [1]
  rhsContracting := [0]
  lhsNonContracting := [0]
  rhsNonContracting := [1]
  lhsBatch := []
  rhsBatch := []
  wf := dot_S200000x5_S5x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S400000x1_S1x128_S400000x128_1_0_0_1_n_n : DotDims S400000x1 S1x128 S400000x128 where
  lhsContracting := [1]
  rhsContracting := [0]
  lhsNonContracting := [0]
  rhsNonContracting := [1]
  lhsBatch := []
  rhsBatch := []
  wf := dot_S400000x1_S1x128_S400000x128_1_0_0_1_n_n_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def scatter_S64x128_S200000x1_S200000x128_1_0_0_1 : ScatterDims S64x128 S200000x1 S200000x128 where
  updateWindowDims := [1]
  insertedWindowDims := [0]
  scatterDimsToOperandDims := [0]
  indexVectorDim := 1
  wf := scatter_S64x128_S200000x1_S200000x128_1_0_0_1_wf
def scatter_S64_S200000x1_S200000_n_0_0_1 : ScatterDims S64 S200000x1 S200000 where
  updateWindowDims := []
  insertedWindowDims := [0]
  scatterDimsToOperandDims := [0]
  indexVectorDim := 1
  wf := scatter_S64_S200000x1_S200000_n_0_0_1_wf

class Facts : Prop extends Facts₀ where

variable [Facts]
-- ==== Proof.Spec.lean ====
/-
  The mathematics of the certificate, with no program in sight: the three stages of one message-passing layer and the
  pooling, each as ONE function of whole arrays over the extended reals, index by index.

  * the edge message at edge e, feature d:  max (x_src[e,d] + (a[e] · w[d] + b[d]), 0)  — the edge encoder is a
    one-column-by-one-row product, so its "matrix product" has a single term;
  * the node update at node r: two affine maps with a rectifier between them applied to x[r,·] + aggr[r,·], then the
    row's normalization — mean and variance over the 128 features as sums divided by 128, the centred row times the
    reciprocal square root of (variance + ε), scaled, shifted and rectified;
  * the pooling at graph g, feature h: the sum of x[n,h] over the nodes n whose graph word equals g.

  A sum is stated over the plain coordinate of the contracted or reduced axis, so that a matrix-unit product, a host
  dot product, a lane reduction and a host reduction all read as the same Finset sum.
-/
import Idealize.ShloMosaic.PureOps.Ideal
import Idealize.ShloMosaic.Lib.ValueIdx

noncomputable section

namespace Cert.Spec

open Idealize.ShloMosaic Idealize.ShloMosaic.ValueIdx

/-- Index type of a rank-2 array of literal extents. -/
abbrev I2 (n0 n1 : Nat) : Type := (⟨2, ![n0, n1]⟩ : Shape).Idx
/-- Index type of a rank-1 array. -/
abbrev I1 (n : Nat) : Type := (⟨1, ![n]⟩ : Shape).Idx

/-- The two f32 literals both programs share: 128 (the feature count the means divide by) and ε. -/
abbrev c128 : EReal := Ideal.ofBits .f32 0x43000000#32
abbrev cEps : EReal := Ideal.ofBits .f32 0x3727C5AC#32

/-- A length-n vector laid out as the one row of a [1, n] array. -/
def rowOf {n : Nat} (b : I1 n → EReal) : I2 1 n → EReal := fun i => b (ix1 (i 1))
/-- A length-n vector of words laid out as the one column of an [n, 1] array. -/
def colOf {n : Nat} {α : Type} (b : I1 n → α) : I2 n 1 → α := fun i => b (ix1 (i 0))

/-- The edge message: at edge e and feature d, the rectified sum of the gathered source row and the encoded edge
    attribute a[e] · w[d] + b[d]. -/
def edgeMsg (E D : Nat) (a : I2 E 1 → EReal) (xs : I2 E D → EReal) (w b : I2 1 D → EReal) : I2 E D → EReal :=
  fun i => max (xs i + (a (ix2 (i 0) 0) * w (ix2 0 (i 1)) + b (ix2 0 (i 1)))) 0

/-- The first affine map and rectifier of the node update, on h = x + aggr. -/
def hidden1 (N K : Nat) (x aggr : I2 N K → EReal) (w1 : I2 K 128 → EReal) (b1 : I2 1 128 → EReal) : I2 N 128 → EReal :=
  fun i => max ((∑ k : Fin K, (x (ix2 (i 0) k) + aggr (ix2 (i 0) k)) * w1 (ix2 k (i 1))) + b1 (ix2 0 (i 1))) 0

/-- The second affine map. -/
def hidden2 (N : Nat) (h1 : I2 N 128 → EReal) (w2 : I2 128 128 → EReal) (b2 : I2 1 128 → EReal) : I2 N 128 → EReal :=
  fun i => (∑ k : Fin 128, h1 (ix2 (i 0) k) * w2 (ix2 k (i 1))) + b2 (ix2 0 (i 1))

/-- A row's mean over its 128 features. -/
def rowMean (N : Nat) (h : I2 N 128 → EReal) (r : Fin N) : EReal := Ideal.div (∑ k : Fin 128, h (ix2 r k)) c128

/-- A row's variance: the mean of the squared centred features. -/
def rowVar (N : Nat) (h : I2 N 128 → EReal) (r : Fin N) : EReal :=
  Ideal.div (∑ k : Fin 128, (h (ix2 r k) - rowMean N h r) * (h (ix2 r k) - rowMean N h r)) c128

/-- The normalization of a row, scaled by g, shifted by bt, rectified. -/
def normRelu (N : Nat) (h : I2 N 128 → EReal) (g bt : I2 1 128 → EReal) : I2 N 128 → EReal :=
  fun i => max ((h i - rowMean N h (i 0)) * Ideal.rsqrt (rowVar N h (i 0) + cEps) * g (ix2 0 (i 1)) + bt (ix2 0 (i 1))) 0

/-- The node update of one layer. -/
def nodeUpd (N K : Nat) (x aggr : I2 N K → EReal) (w1 : I2 K 128 → EReal) (b1 : I2 1 128 → EReal)
    (w2 : I2 128 128 → EReal) (b2 g bt : I2 1 128 → EReal) : I2 N 128 → EReal :=
  normRelu N (hidden2 N (hidden1 N K x aggr w1 b1) w2 b2) g bt

/-- The pooling: at graph g and feature h, the sum over the nodes whose graph word is g (a word outside 0..G-1 equals
    no g and contributes nowhere). -/
def poolSum (N G : Nat) (x : I2 N 128 → EReal) (b : I2 N 1 → BitVec 32) : I2 G 128 → EReal :=
  fun i => ∑ n : Fin N, if b (ix2 n 0) = BitVec.ofNat 32 (i 0).val then x (ix2 n (i 1)) else 0

end Cert.Spec

end
-- ==== Proof.Model.lean ====
/-
  The whole network as ONE function of the program's 28 arguments, over the extended reals.

  A layer gathers each edge's source row, forms the edge messages, sums them at the destination nodes and applies the node
  update; three layers, then the pooling by graph and the closing arithmetic (the pooled sums divided by the graph sizes,
  clamped below at 1, beside the sums themselves). The gather, the segment sums and the closing arithmetic are the host's
  own operations, kept as they are printed (both programs apply the very same ones); the edge messages, the node update
  and the pooling are the mathematics of Proof/Spec.lean. Both programs are shown to compute this function.

  A bias vector enters the mathematics as the one row of a [1, n] array and the graph words as the one column of an
  [n, 1] array: that is what a host reshape of the vector is, index by index.
-/
import proofs.«409793_j85925115724498_1_alg».proof.Proof.Gen.KernelIdeal
import proofs.«409793_j85925115724498_1_alg».proof.Proof.Spec
import Idealize.ShloMosaic.Lib.Pipeline.Value
import Idealize.ShloMosaic.Lib.ValueLayout

noncomputable section

namespace Cert.Model

open Cert.KernelIdeal Cert.KernelIdeal.Facts₀ Cert.Spec
open Idealize.ShloMosaic Idealize.ShloMosaic.ValueIdx

/-- The edges' source words: row 0 of the edge index, as a vector. -/
def srcOf (ei : IVec S2x400000 32) : IVec S400000 32 :=
  shapeCast S400000 (extractStridedSlice S1x400000 ![0, 0] ei slices_S2x400000_S1x400000_0_0) shapeCasts_S1x400000_S400000
/-- The edges' destination words: row 1 of the edge index. -/
def dstOf (ei : IVec S2x400000 32) : IVec S400000 32 :=
  shapeCast S400000 (extractStridedSlice S1x400000 ![1, 0] ei slices_S2x400000_S1x400000_1_0) shapeCasts_S1x400000_S400000
/-- The gather's start indices: a negative source word is taken from the end (word + 200000), as a column. -/
def srcIdx (ei : IVec S2x400000 32) : IVec S400000x1 32 :=
  broadcastInDim S400000x1 ![0] bcast_S400000_S400000x1_0
    (select (cmpi .slt (srcOf ei) (broadcastInDim S400000 ![] bcast_S_S400000 (constantI S_ 32 0#32)))
      (addi (srcOf ei) (broadcastInDim S400000 ![] bcast_S_S400000 (constantI S_ 32 200000#32))) (srcOf ei))
/-- The segment sum's scatter indices: the destination words as a column. -/
def dstIdx (ei : IVec S2x400000 32) : IVec S400000x1 32 :=
  broadcastInDim S400000x1 ![0] bcast_S400000_S400000x1_0 (dstOf ei)

/-- Each edge's source row, 5 features. -/
def gather5 (x : FVec Ideal S200000x5 .f32) (ei : IVec S2x400000 32) : FVec Ideal S400000x5 .f32 :=
  Host.gather gather_S200000x5_S400000x1_S400000x5_1_0_n_n_0_1_15 x (srcIdx ei)
/-- Each edge's source row, 128 features. -/
def gather128 (x : FVec Ideal S200000x128 .f32) (ei : IVec S2x400000 32) : FVec Ideal S400000x128 .f32 :=
  Host.gather gather_S200000x128_S400000x1_S400000x128_1_0_n_n_0_1_1128 x (srcIdx ei)
/-- The messages summed at their destination nodes, 5 features. -/
def segsum5 (ei : IVec S2x400000 32) (u : FVec Ideal S400000x5 .f32) : FVec Ideal S200000x5 .f32 :=
  Host.scatterAdd scatter_S200000x5_S400000x1_S400000x5_1_0_0_1
    (broadcastInDim S200000x5 ![] bcast_S_S200000x5 (constant S_ .f32 0x00000000#32)) (dstIdx ei) u
/-- The messages summed at their destination nodes, 128 features. -/
def segsum128 (ei : IVec S2x400000 32) (u : FVec Ideal S400000x128 .f32) : FVec Ideal S200000x128 .f32 :=
  Host.scatterAdd scatter_S200000x128_S400000x1_S400000x128_1_0_0_1
    (broadcastInDim S200000x128 ![] bcast_S_S200000x128 (constant S_ .f32 0x00000000#32)) (dstIdx ei) u

/-- The first layer (5 input features). -/
def layer5 (x : FVec Ideal S200000x5 .f32) (ei : IVec S2x400000 32) (ea : FVec Ideal S400000x1 .f32)
    (ew : FVec Ideal S1x5 .f32) (eb : FVec Ideal S5 .f32) (w1 : FVec Ideal S5x128 .f32) (b1 : FVec Ideal S128 .f32)
    (w2 : FVec Ideal S128x128 .f32) (b2 g bt : FVec Ideal S128 .f32) : FVec Ideal S200000x128 .f32 :=
  nodeUpd 200000 5 x (segsum5 ei (edgeMsg 400000 5 ea (gather5 x ei) ew (rowOf eb))) w1 (rowOf b1) w2 (rowOf b2) (rowOf g) (rowOf bt)
/-- A later layer (128 input features). -/
def layer128 (x : FVec Ideal S200000x128 .f32) (ei : IVec S2x400000 32) (ea : FVec Ideal S400000x1 .f32)
    (ew : FVec Ideal S1x128 .f32) (eb : FVec Ideal S128 .f32) (w1 : FVec Ideal S128x128 .f32) (b1 : FVec Ideal S128 .f32)
    (w2 : FVec Ideal S128x128 .f32) (b2 g bt : FVec Ideal S128 .f32) : FVec Ideal S200000x128 .f32 :=
  nodeUpd 200000 128 x (segsum128 ei (edgeMsg 400000 128 ea (gather128 x ei) ew (rowOf eb))) w1 (rowOf b1) w2 (rowOf b2) (rowOf g) (rowOf bt)

/-- Each graph's size clamped below at 1, spread over the 128 features. -/
def sizes (batch : IVec S200000 32) : FVec Ideal S64x128 .f32 :=
  broadcastInDim S64x128 ![0, 1] bcast_S64x1_S64x128_0_1
    (broadcastInDim S64x1 ![0] bcast_S64_S64x1_0
      (maximumf
        (Host.scatterAdd scatter_S64_S200000x1_S200000_n_0_0_1
          (broadcastInDim S64 ![] bcast_S_S64 (constant S_ .f32 0x00000000#32))
          (broadcastInDim S200000x1 ![0] bcast_S200000_S200000x1_0 batch)
          (broadcastInDim S200000 ![] bcast_S_S200000 (constant S_ .f32 0x3F800000#32)))
        (broadcastInDim S64 ![] bcast_S_S64 (constant S_ .f32 0x3F800000#32))))
/-- The closing arithmetic: the pooled sums over the graph sizes, beside the pooled sums. -/
def closing (P : FVec Ideal S64x128 .f32) (batch : IVec S200000 32) : FVec Ideal S64x256 .f32 :=
  concatenate S64x256 1 [⟨S64x128, Host.divf P (sizes batch)⟩, ⟨S64x128, P⟩] concatenates_S64x128_S64x128_S64x256_d1

/-- The network. -/
def net (x : FVec Ideal S200000x5 .f32) (ei : IVec S2x400000 32) (ea : FVec Ideal S400000x1 .f32) (batch : IVec S200000 32)
    (ew0 : FVec Ideal S1x5 .f32) (eb0 : FVec Ideal S5 .f32) (w1_0 : FVec Ideal S5x128 .f32) (b1_0 : FVec Ideal S128 .f32)
    (w2_0 : FVec Ideal S128x128 .f32) (b2_0 g0 bt0 : FVec Ideal S128 .f32)
    (ew1 : FVec Ideal S1x128 .f32) (eb1 : FVec Ideal S128 .f32) (w1_1 : FVec Ideal S128x128 .f32) (b1_1 : FVec Ideal S128 .f32)
    (w2_1 : FVec Ideal S128x128 .f32) (b2_1 g1 bt1 : FVec Ideal S128 .f32)
    (ew2 : FVec Ideal S1x128 .f32) (eb2 : FVec Ideal S128 .f32) (w1_2 : FVec Ideal S128x128 .f32) (b1_2 : FVec Ideal S128 .f32)
    (w2_2 : FVec Ideal S128x128 .f32) (b2_2 g2 bt2 : FVec Ideal S128 .f32) : FVec Ideal S64x256 .f32 :=
  closing (poolSum 200000 64
    (layer128 (layer128 (layer5 x ei ea ew0 eb0 w1_0 b1_0 w2_0 b2_0 g0 bt0) ei ea ew1 eb1 w1_1 b1_1 w2_1 b2_1 g1 bt1)
      ei ea ew2 eb2 w1_2 b1_2 w2_2 b2_2 g2 bt2) (colOf batch)) batch

/-! ## A host reshape of a vector is the row, or the column, of the mathematics -/

/-- A length-128 vector reshaped to [1, 128] is its row. -/
theorem reshape_row128 (b : FVec Ideal S128 .f32) : shapeCast S1x128 b shapeCasts_S128_S1x128 = rowOf b := by
  funext i
  obtain ⟨u, q, rfl⟩ : ∃ (u : Fin 1) (q : Fin 128), i = ix2 u q := ⟨i 0, i 1, eq_ix2 i⟩
  exact shapeCast_a_1a_apply b _ u q
/-- A length-5 vector reshaped to [1, 5] is its row. -/
theorem reshape_row5 (b : FVec Ideal S5 .f32) : shapeCast S1x5 b shapeCasts_S5_S1x5 = rowOf b := by
  funext i
  obtain ⟨u, q, rfl⟩ : ∃ (u : Fin 1) (q : Fin 5), i = ix2 u q := ⟨i 0, i 1, eq_ix2 i⟩
  exact shapeCast_a_1a_apply b _ u q
/-- The graph words reshaped to [200000, 1] are their column. -/
theorem reshape_col (b : IVec S200000 32) : shapeCast S200000x1 b shapeCasts_S200000_S200000x1 = colOf b := by
  funext i
  obtain ⟨n, u, rfl⟩ : ∃ (n : Fin 200000) (u : Fin 1), i = ix2 n u := ⟨i 0, i 1, eq_ix2 i⟩
  refine shapeCast_apply b _ _ (ix1 n) ?_
  have hu : u.val = 0 := by omega
  rw [Shape.rowMajor_val_two, Shape.rowMajor_val_one]
  show n.val = n.val * 1 + u.val
  omega

end Cert.Model

end
-- ==== Proof.KCarry.lean ====
import proofs.«409793_j85925115724498_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A stretch of host operations leaves a buffer that none of them writes: the buffer differs from every result buffer. -/
local macro "host_keeps " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-- `main_arg0` at boundary 3 is what it was at boundary 0: no segment in between writes it. -/
theorem main_arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps hostOps1
    _ = W1 m ρ c (Proc.devRef .tc main_arg0) := W2_of_ne m ρ c main_arg0 (by decide)
    _ = W0 m ρ c (Proc.devRef .tc main_arg0) := by host_keeps hostOps0
    _ = m ((c : Thread nD τ).loc main_arg0) := rfl

/-- `main_arg2` at boundary 1 is what it was at boundary 0: no segment in between writes it. -/
theorem main_arg2_at1 (c : Dev nD) : W1 m ρ c (Proc.devRef .tc main_arg2) = m ((c : Thread nD τ).loc main_arg2) :=
  calc W1 m ρ c (Proc.devRef .tc main_arg2)
    _ = W0 m ρ c (Proc.devRef .tc main_arg2) := by host_keeps hostOps0
    _ = m ((c : Thread nD τ).loc main_arg2) := rfl
/-- `main_arg2` at boundary 5 is what it was at boundary 0: no segment in between writes it. -/
theorem main_arg2_at5 (c : Dev nD) : W5 m ρ c (Proc.devRef .tc main_arg2) = m ((c : Thread nD τ).loc main_arg2) :=
  calc W5 m ρ c (Proc.devRef .tc main_arg2)
    _ = W4 m ρ c (Proc.devRef .tc main_arg2) := by host_keeps hostOps2
    _ = W3 m ρ c (Proc.devRef .tc main_arg2) := W4_of_ne m ρ c main_arg2 (by decide)
    _ = W2 m ρ c (Proc.devRef .tc main_arg2) := by host_keeps hostOps1
    _ = W1 m ρ c (Proc.devRef .tc main_arg2) := (W2_arr m ρ c 0).trans (((dat0 (V1 m ρ) c).arrAt_in 0 rfl _).trans (A_eq0 (V1 m ρ) c 0))
    _ = m ((c : Thread nD τ).loc main_arg2) := main_arg2_at1 m ρ c
/-- `main_arg2` at boundary 9 is what it was at boundary 0: no segment in between writes it. -/
theorem main_arg2_at9 (c : Dev nD) : W9 m ρ c (Proc.devRef .tc main_arg2) = m ((c : Thread nD τ).loc main_arg2) :=
  calc W9 m ρ c (Proc.devRef .tc main_arg2)
    _ = W8 m ρ c (Proc.devRef .tc main_arg2) := by host_keeps hostOps4
    _ = W7 m ρ c (Proc.devRef .tc main_arg2) := W8_of_ne m ρ c main_arg2 (by decide)
    _ = W6 m ρ c (Proc.devRef .tc main_arg2) := by host_keeps hostOps3
    _ = W5 m ρ c (Proc.devRef .tc main_arg2) := (W6_arr m ρ c 0).trans (((dat2 (V5 m ρ) c).arrAt_in 0 rfl _).trans (A_eq2 (V5 m ρ) c 0))
    _ = m ((c : Thread nD τ).loc main_arg2) := main_arg2_at5 m ρ c

/-- `main_arg3` at boundary 12 is what it was at boundary 0: no segment in between writes it. -/
theorem main_arg3_at12 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := by host_keeps hostOps5
    _ = W9 m ρ c (Proc.devRef .tc main_arg3) := W10_of_ne m ρ c main_arg3 (by decide)
    _ = W8 m ρ c (Proc.devRef .tc main_arg3) := by host_keeps hostOps4
    _ = W7 m ρ c (Proc.devRef .tc main_arg3) := W8_of_ne m ρ c main_arg3 (by decide)
    _ = W6 m ρ c (Proc.devRef .tc main_arg3) := by host_keeps hostOps3
    _ = W5 m ρ c (Proc.devRef .tc main_arg3) := W6_of_ne m ρ c main_arg3 (by decide)
    _ = W4 m ρ c (Proc.devRef .tc main_arg3) := by host_keeps hostOps2
    _ = W3 m ρ c (Proc.devRef .tc main_arg3) := W4_of_ne m ρ c main_arg3 (by decide)
    _ = W2 m ρ c (Proc.devRef .tc main_arg3) := by host_keeps hostOps1
    _ = W1 m ρ c (Proc.devRef .tc main_arg3) := W2_of_ne m ρ c main_arg3 (by decide)
    _ = W0 m ρ c (Proc.devRef .tc main_arg3) := by host_keeps hostOps0
    _ = m ((c : Thread nD τ).loc main_arg3) := rfl
/-- `main_arg3` at boundary 14 is what it was at boundary 0: no segment in between writes it. -/
theorem main_arg3_at14 (c : Dev nD) : W14 m ρ c (Proc.devRef .tc main_arg3) = m ((c : Thread nD τ).loc main_arg3) :=
  calc W14 m ρ c (Proc.devRef .tc main_arg3)
    _ = W13 m ρ c (Proc.devRef .tc main_arg3) := W14_of_ne m ρ c main_arg3 (by decide)
    _ = W12 m ρ c (Proc.devRef .tc main_arg3) := by host_keeps hostOps6
    _ = m ((c : Thread nD τ).loc main_arg3) := main_arg3_at12 m ρ c

/-- `main_arg4` at boundary 1 is what it was at boundary 0: no segment in between writes it. -/
theorem main_arg4_at1 (c : Dev nD) : W1 m ρ c (Proc.devRef .tc main_arg4) = m ((c : Thread nD τ).loc main_arg4) :=
  calc W1 m ρ c (Proc.devRef .tc main_arg4)
    _ = W0 m ρ c (Proc.devRef .tc main_arg4) := by host_keeps hostOps0
    _ = m ((c : Thread nD τ).loc main_arg4) := rfl

/-- `main_arg6` at boundary 3 is what it was at boundary 0: no segment in between writes it. -/
theorem main_arg6_at3 (c : Dev nD) : W3 m ρ c (Proc.devRef .tc main_arg6) = m ((c : Thread nD τ).loc main_arg6) :=
  calc W3 m ρ c (Proc.devRef .tc main_arg6)
    _ = W2 m ρ c (Proc.devRef .tc main_arg6) := by host_keeps hostOps1
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl

/-- `main_arg7` at boundary 2 is what it was at boundary 0: no segment in between writes it. -/
theorem main_arg7_at2 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by host_keeps hostOps0
    _ = m ((c : Thread nD τ).loc main_arg7) := rfl

/-- `main_arg8` at boundary 3 is what it was at boundary 0: no segment in between writes it. -/
theorem main_arg8_at3 (c : Dev nD) : W3 m ρ c (Proc.devRef .tc main_arg8) = m ((c : Thread nD τ).loc main_arg8) :=
  calc W3 m ρ c (Proc.devRef .tc main_arg8)
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0
    _ = m ((c : Thread nD τ).loc main_arg8) := rfl

/-- `main_arg9` at boundary 2 is what it was at boundary 0: no segment in between writes it. -/
theorem main_arg9_at2 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl

/-- `main_arg10` at boundary 2 is what it was at boundary 0: no segment in between writes it. -/
theorem main_arg10_at2 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := by host_keeps hostOps0
    _ = m ((c : Thread nD τ).loc main_arg10) := rfl

/-- `main_arg11` at boundary 2 is what it was at boundary 0: no segment in between writes it. -/
theorem main_arg11_at2 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := by host_keeps hostOps0
    _ = m ((c : Thread nD τ).loc main_arg11) := rfl

/-- `main_arg12` at boundary 5 is what it was at boundary 0: no segment in between writes it. -/
theorem main_arg12_at5 (c : Dev nD) : W5 m ρ c (Proc.devRef .tc main_arg12) = m ((c : Thread nD τ).loc main_arg12) :=
  calc W5 m ρ c (Proc.devRef .tc main_arg12)
    _ = W4 m ρ c (Proc.devRef .tc main_arg12) := by host_keeps hostOps2
    _ = W3 m ρ c (Proc.devRef .tc main_arg12) := W4_of_ne m ρ c main_arg12 (by decide)
    _ = W2 m ρ c (Proc.devRef .tc main_arg12) := by host_keeps hostOps1
    _ = W1 m ρ c (Proc.devRef .tc main_arg12) := W2_of_ne m ρ c main_arg12 (by decide)
    _ = W0 m ρ c (Proc.devRef .tc main_arg12) := by host_keeps hostOps0
    _ = m ((c : Thread nD τ).loc main_arg12) := rfl

/-- `main_arg13` at boundary 4 is what it was at boundary 0: no segment in between writes it. -/
theorem main_arg13_at4 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := by host_keeps hostOps1
    _ = W1 m ρ c (Proc.devRef .tc main_arg13) := W2_of_ne m ρ c main_arg13 (by decide)
    _ = W0 m ρ c (Proc.devRef .tc main_arg13) := by host_keeps hostOps0
    _ = m ((c : Thread nD τ).loc main_arg13) := rfl

/-- `main_arg14` at boundary 7 is what it was at boundary 0: no segment in between writes it. -/
theorem main_arg14_at7 (c : Dev nD) : W7 m ρ c (Proc.devRef .tc main_arg14) = m ((c : Thread nD τ).loc main_arg14) :=
  calc W7 m ρ c (Proc.devRef .tc main_arg14)
    _ = W6 m ρ c (Proc.devRef .tc main_arg14) := by host_keeps hostOps3
    _ = W5 m ρ c (Proc.devRef .tc main_arg14) := W6_of_ne m ρ c main_arg14 (by decide)
    _ = W4 m ρ c (Proc.devRef .tc main_arg14) := by host_keeps hostOps2
    _ = W3 m ρ c (Proc.devRef .tc main_arg14) := W4_of_ne m ρ c main_arg14 (by decide)
    _ = W2 m ρ c (Proc.devRef .tc main_arg14) := by host_keeps hostOps1
    _ = W1 m ρ c (Proc.devRef .tc main_arg14) := W2_of_ne m ρ c main_arg14 (by decide)
    _ = W0 m ρ c (Proc.devRef .tc main_arg14) := by host_keeps hostOps0
    _ = m ((c : Thread nD τ).loc main_arg14) := rfl

/-- `main_arg15` at boundary 6 is what it was at boundary 0: no segment in between writes it. -/
theorem main_arg15_at6 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := by host_keeps hostOps2
    _ = W3 m ρ c (Proc.devRef .tc main_arg15) := W4_of_ne m ρ c main_arg15 (by decide)
    _ = W2 m ρ c (Proc.devRef .tc main_arg15) := by host_keeps hostOps1
    _ = W1 m ρ c (Proc.devRef .tc main_arg15) := W2_of_ne m ρ c main_arg15 (by decide)
    _ = W0 m ρ c (Proc.devRef .tc main_arg15) := by host_keeps hostOps0
    _ = m ((c : Thread nD τ).loc main_arg15) := rfl

/-- `main_arg16` at boundary 7 is what it was at boundary 0: no segment in between writes it. -/
theorem main_arg16_at7 (c : Dev nD) : W7 m ρ c (Proc.devRef .tc main_arg16) = m ((c : Thread nD τ).loc main_arg16) :=
  calc W7 m ρ c (Proc.devRef .tc main_arg16)
    _ = W6 m ρ c (Proc.devRef .tc main_arg16) := by host_keeps hostOps3
    _ = W5 m ρ c (Proc.devRef .tc main_arg16) := W6_of_ne m ρ c main_arg16 (by decide)
    _ = W4 m ρ c (Proc.devRef .tc main_arg16) := by host_keeps hostOps2
    _ = W3 m ρ c (Proc.devRef .tc main_arg16) := W4_of_ne m ρ c main_arg16 (by decide)
    _ = W2 m ρ c (Proc.devRef .tc main_arg16) := by host_keeps hostOps1
    _ = W1 m ρ c (Proc.devRef .tc main_arg16) := W2_of_ne m ρ c main_arg16 (by decide)
    _ = W0 m ρ c (Proc.devRef .tc main_arg16) := by host_keeps hostOps0
    _ = m ((c : Thread nD τ).loc main_arg16) := rfl

/-- `main_arg17` at boundary 6 is what it was at boundary 0: no segment in between writes it. -/
theorem main_arg17_at6 (c : Dev nD) : W6 m ρ c (Proc.devRef .tc main_arg17) = m ((c : Thread nD τ).loc main_arg17) :=
  calc W6 m ρ c (Proc.devRef .tc main_arg17)
    _ = W5 m ρ c (Proc.devRef .tc main_arg17) := W6_of_ne m ρ c main_arg17 (by decide)
    _ = W4 m ρ c (Proc.devRef .tc main_arg17) := by host_keeps hostOps2
    _ = W3 m ρ c (Proc.devRef .tc main_arg17) := W4_of_ne m ρ c main_arg17 (by decide)
    _ = W2 m ρ c (Proc.devRef .tc main_arg17) := by host_keeps hostOps1
    _ = W1 m ρ c (Proc.devRef .tc main_arg17) := W2_of_ne m ρ c main_arg17 (by decide)
    _ = W0 m ρ c (Proc.devRef .tc main_arg17) := by host_keeps hostOps0
    _ = m ((c : Thread nD τ).loc main_arg17) := rfl

/-- `main_arg18` at boundary 6 is what it was at boundary 0: no segment in between writes it. -/
theorem main_arg18_at6 (c : Dev nD) : W6 m ρ c (Proc.devRef .tc main_arg18) = m ((c : Thread nD τ).loc main_arg18) :=
  calc W6 m ρ c (Proc.devRef .tc main_arg18)
    _ = W5 m ρ c (Proc.devRef .tc main_arg18) := W6_of_ne m ρ c main_arg18 (by decide)
    _ = W4 m ρ c (Proc.devRef .tc main_arg18) := by host_keeps hostOps2
    _ = W3 m ρ c (Proc.devRef .tc main_arg18) := W4_of_ne m ρ c main_arg18 (by decide)
    _ = W2 m ρ c (Proc.devRef .tc main_arg18) := by host_keeps hostOps1
    _ = W1 m ρ c (Proc.devRef .tc main_arg18) := W2_of_ne m ρ c main_arg18 (by decide)
    _ = W0 m ρ c (Proc.devRef .tc main_arg18) := by host_keeps hostOps0
    _ = m ((c : Thread nD τ).loc main_arg18) := rfl

/-- `main_arg19` at boundary 6 is what it was at boundary 0: no segment in between writes it. -/
theorem main_arg19_at6 (c : Dev nD) : W6 m ρ c (Proc.devRef .tc main_arg19) = m ((c : Thread nD τ).loc main_arg19) :=
  calc W6 m ρ c (Proc.devRef .tc main_arg19)
    _ = W5 m ρ c (Proc.devRef .tc main_arg19) := W6_of_ne m ρ c main_arg19 (by decide)
    _ = W4 m ρ c (Proc.devRef .tc main_arg19) := by host_keeps hostOps2
    _ = W3 m ρ c (Proc.devRef .tc main_arg19) := W4_of_ne m ρ c main_arg19 (by decide)
    _ = W2 m ρ c (Proc.devRef .tc main_arg19) := by host_keeps hostOps1
    _ = W1 m ρ c (Proc.devRef .tc main_arg19) := W2_of_ne m ρ c main_arg19 (by decide)
    _ = W0 m ρ c (Proc.devRef .tc main_arg19) := by host_keeps hostOps0
    _ = m ((c : Thread nD τ).loc main_arg19) := rfl

/-- `main_arg20` at boundary 9 is what it was at boundary 0: no segment in between writes it. -/
theorem main_arg20_at9 (c : Dev nD) : W9 m ρ c (Proc.devRef .tc main_arg20) = m ((c : Thread nD τ).loc main_arg20) :=
  calc W9 m ρ c (Proc.devRef .tc main_arg20)
    _ = W8 m ρ c (Proc.devRef .tc main_arg20) := by host_keeps hostOps4
    _ = W7 m ρ c (Proc.devRef .tc main_arg20) := W8_of_ne m ρ c main_arg20 (by decide)
    _ = W6 m ρ c (Proc.devRef .tc main_arg20) := by host_keeps hostOps3
    _ = W5 m ρ c (Proc.devRef .tc main_arg20) := W6_of_ne m ρ c main_arg20 (by decide)
    _ = W4 m ρ c (Proc.devRef .tc main_arg20) := by host_keeps hostOps2
    _ = W3 m ρ c (Proc.devRef .tc main_arg20) := W4_of_ne m ρ c main_arg20 (by decide)
    _ = W2 m ρ c (Proc.devRef .tc main_arg20) := by host_keeps hostOps1
    _ = W1 m ρ c (Proc.devRef .tc main_arg20) := W2_of_ne m ρ c main_arg20 (by decide)
    _ = W0 m ρ c (Proc.devRef .tc main_arg20) := by host_keeps hostOps0
    _ = m ((c : Thread nD τ).loc main_arg20) := rfl

/-- `main_arg21` at boundary 8 is what it was at boundary 0: no segment in between writes it. -/
theorem main_arg21_at8 (c : Dev nD) : W8 m ρ c (Proc.devRef .tc main_arg21) = m ((c : Thread nD τ).loc main_arg21) :=
  calc W8 m ρ c (Proc.devRef .tc main_arg21)
    _ = W7 m ρ c (Proc.devRef .tc main_arg21) := W8_of_ne m ρ c main_arg21 (by decide)
    _ = W6 m ρ c (Proc.devRef .tc main_arg21) := by host_keeps hostOps3
    _ = W5 m ρ c (Proc.devRef .tc main_arg21) := W6_of_ne m ρ c main_arg21 (by decide)
    _ = W4 m ρ c (Proc.devRef .tc main_arg21) := by host_keeps hostOps2
    _ = W3 m ρ c (Proc.devRef .tc main_arg21) := W4_of_ne m ρ c main_arg21 (by decide)
    _ = W2 m ρ c (Proc.devRef .tc main_arg21) := by host_keeps hostOps1
    _ = W1 m ρ c (Proc.devRef .tc main_arg21) := W2_of_ne m ρ c main_arg21 (by decide)
    _ = W0 m ρ c (Proc.devRef .tc main_arg21) := by host_keeps hostOps0
    _ = m ((c : Thread nD τ).loc main_arg21) := rfl

/-- `main_arg22` at boundary 11 is what it was at boundary 0: no segment in between writes it. -/
theorem main_arg22_at11 (c : Dev nD) : W11 m ρ c (Proc.devRef .tc main_arg22) = m ((c : Thread nD τ).loc main_arg22) :=
  calc W11 m ρ c (Proc.devRef .tc main_arg22)
    _ = W10 m ρ c (Proc.devRef .tc main_arg22) := by host_keeps hostOps5
    _ = W9 m ρ c (Proc.devRef .tc main_arg22) := W10_of_ne m ρ c main_arg22 (by decide)
    _ = W8 m ρ c (Proc.devRef .tc main_arg22) := by host_keeps hostOps4
    _ = W7 m ρ c (Proc.devRef .tc main_arg22) := W8_of_ne m ρ c main_arg22 (by decide)
    _ = W6 m ρ c (Proc.devRef .tc main_arg22) := by host_keeps hostOps3
    _ = W5 m ρ c (Proc.devRef .tc main_arg22) := W6_of_ne m ρ c main_arg22 (by decide)
    _ = W4 m ρ c (Proc.devRef .tc main_arg22) := by host_keeps hostOps2
    _ = W3 m ρ c (Proc.devRef .tc main_arg22) := W4_of_ne m ρ c main_arg22 (by decide)
    _ = W2 m ρ c (Proc.devRef .tc main_arg22) := by host_keeps hostOps1
    _ = W1 m ρ c (Proc.devRef .tc main_arg22) := W2_of_ne m ρ c main_arg22 (by decide)
    _ = W0 m ρ c (Proc.devRef .tc main_arg22) := by host_keeps hostOps0
    _ = m ((c : Thread nD τ).loc main_arg22) := rfl

/-- `main_arg23` at boundary 10 is what it was at boundary 0: no segment in between writes it. -/
theorem main_arg23_at10 (c : Dev nD) : W10 m ρ c (Proc.devRef .tc main_arg23) = m ((c : Thread nD τ).loc main_arg23) :=
  calc W10 m ρ c (Proc.devRef .tc main_arg23)
    _ = W9 m ρ c (Proc.devRef .tc main_arg23) := W10_of_ne m ρ c main_arg23 (by decide)
    _ = W8 m ρ c (Proc.devRef .tc main_arg23) := by host_keeps hostOps4
    _ = W7 m ρ c (Proc.devRef .tc main_arg23) := W8_of_ne m ρ c main_arg23 (by decide)
    _ = W6 m ρ c (Proc.devRef .tc main_arg23) := by host_keeps hostOps3
    _ = W5 m ρ c (Proc.devRef .tc main_arg23) := W6_of_ne m ρ c main_arg23 (by decide)
    _ = W4 m ρ c (Proc.devRef .tc main_arg23) := by host_keeps hostOps2
    _ = W3 m ρ c (Proc.devRef .tc main_arg23) := W4_of_ne m ρ c main_arg23 (by decide)
    _ = W2 m ρ c (Proc.devRef .tc main_arg23) := by host_keeps hostOps1
    _ = W1 m ρ c (Proc.devRef .tc main_arg23) := W2_of_ne m ρ c main_arg23 (by decide)
    _ = W0 m ρ c (Proc.devRef .tc main_arg23) := by host_keeps hostOps0
    _ = m ((c : Thread nD τ).loc main_arg23) := rfl

/-- `main_arg24` at boundary 11 is what it was at boundary 0: no segment in between writes it. -/
theorem main_arg24_at11 (c : Dev nD) : W11 m ρ c (Proc.devRef .tc main_arg24) = m ((c : Thread nD τ).loc main_arg24) :=
  calc W11 m ρ c (Proc.devRef .tc main_arg24)
    _ = W10 m ρ c (Proc.devRef .tc main_arg24) := by host_keeps hostOps5
    _ = W9 m ρ c (Proc.devRef .tc main_arg24) := W10_of_ne m ρ c main_arg24 (by decide)
    _ = W8 m ρ c (Proc.devRef .tc main_arg24) := by host_keeps hostOps4
    _ = W7 m ρ c (Proc.devRef .tc main_arg24) := W8_of_ne m ρ c main_arg24 (by decide)
    _ = W6 m ρ c (Proc.devRef .tc main_arg24) := by host_keeps hostOps3
    _ = W5 m ρ c (Proc.devRef .tc main_arg24) := W6_of_ne m ρ c main_arg24 (by decide)
    _ = W4 m ρ c (Proc.devRef .tc main_arg24) := by host_keeps hostOps2
    _ = W3 m ρ c (Proc.devRef .tc main_arg24) := W4_of_ne m ρ c main_arg24 (by decide)
    _ = W2 m ρ c (Proc.devRef .tc main_arg24) := by host_keeps hostOps1
    _ = W1 m ρ c (Proc.devRef .tc main_arg24) := W2_of_ne m ρ c main_arg24 (by decide)
    _ = W0 m ρ c (Proc.devRef .tc main_arg24) := by host_keeps hostOps0
    _ = m ((c : Thread nD τ).loc main_arg24) := rfl

/-- `main_arg25` at boundary 10 is what it was at boundary 0: no segment in between writes it. -/
theorem main_arg25_at10 (c : Dev nD) : W10 m ρ c (Proc.devRef .tc main_arg25) = m ((c : Thread nD τ).loc main_arg25) :=
  calc W10 m ρ c (Proc.devRef .tc main_arg25)
    _ = W9 m ρ c (Proc.devRef .tc main_arg25) := W10_of_ne m ρ c main_arg25 (by decide)
    _ = W8 m ρ c (Proc.devRef .tc main_arg25) := by host_keeps hostOps4
    _ = W7 m ρ c (Proc.devRef .tc main_arg25) := W8_of_ne m ρ c main_arg25 (by decide)
    _ = W6 m ρ c (Proc.devRef .tc main_arg25) := by host_keeps hostOps3
    _ = W5 m ρ c (Proc.devRef .tc main_arg25) := W6_of_ne m ρ c main_arg25 (by decide)
    _ = W4 m ρ c (Proc.devRef .tc main_arg25) := by host_keeps hostOps2
    _ = W3 m ρ c (Proc.devRef .tc main_arg25) := W4_of_ne m ρ c main_arg25 (by decide)
    _ = W2 m ρ c (Proc.devRef .tc main_arg25) := by host_keeps hostOps1
    _ = W1 m ρ c (Proc.devRef .tc main_arg25) := W2_of_ne m ρ c main_arg25 (by decide)
    _ = W0 m ρ c (Proc.devRef .tc main_arg25) := by host_keeps hostOps0
    _ = m ((c : Thread nD τ).loc main_arg25) := rfl

/-- `main_arg26` at boundary 10 is what it was at boundary 0: no segment in between writes it. -/
theorem main_arg26_at10 (c : Dev nD) : W10 m ρ c (Proc.devRef .tc main_arg26) = m ((c : Thread nD τ).loc main_arg26) :=
  calc W10 m ρ c (Proc.devRef .tc main_arg26)
    _ = W9 m ρ c (Proc.devRef .tc main_arg26) := W10_of_ne m ρ c main_arg26 (by decide)
    _ = W8 m ρ c (Proc.devRef .tc main_arg26) := by host_keeps hostOps4
    _ = W7 m ρ c (Proc.devRef .tc main_arg26) := W8_of_ne m ρ c main_arg26 (by decide)
    _ = W6 m ρ c (Proc.devRef .tc main_arg26) := by host_keeps hostOps3
    _ = W5 m ρ c (Proc.devRef .tc main_arg26) := W6_of_ne m ρ c main_arg26 (by decide)
    _ = W4 m ρ c (Proc.devRef .tc main_arg26) := by host_keeps hostOps2
    _ = W3 m ρ c (Proc.devRef .tc main_arg26) := W4_of_ne m ρ c main_arg26 (by decide)
    _ = W2 m ρ c (Proc.devRef .tc main_arg26) := by host_keeps hostOps1
    _ = W1 m ρ c (Proc.devRef .tc main_arg26) := W2_of_ne m ρ c main_arg26 (by decide)
    _ = W0 m ρ c (Proc.devRef .tc main_arg26) := by host_keeps hostOps0
    _ = m ((c : Thread nD τ).loc main_arg26) := rfl

/-- `main_arg27` at boundary 10 is what it was at boundary 0: no segment in between writes it. -/
theorem main_arg27_at10 (c : Dev nD) : W10 m ρ c (Proc.devRef .tc main_arg27) = m ((c : Thread nD τ).loc main_arg27) :=
  calc W10 m ρ c (Proc.devRef .tc main_arg27)
    _ = W9 m ρ c (Proc.devRef .tc main_arg27) := W10_of_ne m ρ c main_arg27 (by decide)
    _ = W8 m ρ c (Proc.devRef .tc main_arg27) := by host_keeps hostOps4
    _ = W7 m ρ c (Proc.devRef .tc main_arg27) := W8_of_ne m ρ c main_arg27 (by decide)
    _ = W6 m ρ c (Proc.devRef .tc main_arg27) := by host_keeps hostOps3
    _ = W5 m ρ c (Proc.devRef .tc main_arg27) := W6_of_ne m ρ c main_arg27 (by decide)
    _ = W4 m ρ c (Proc.devRef .tc main_arg27) := by host_keeps hostOps2
    _ = W3 m ρ c (Proc.devRef .tc main_arg27) := W4_of_ne m ρ c main_arg27 (by decide)
    _ = W2 m ρ c (Proc.devRef .tc main_arg27) := by host_keeps hostOps1
    _ = W1 m ρ c (Proc.devRef .tc main_arg27) := W2_of_ne m ρ c main_arg27 (by decide)
    _ = W0 m ρ c (Proc.devRef .tc main_arg27) := by host_keeps hostOps0
    _ = m ((c : Thread nD τ).loc main_arg27) := rfl

/-- `main_v1` at boundary 4 is what it was at boundary 1: no segment in between writes it. -/
theorem main_v1_at4 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by host_keeps hostOps1
    _ = W1 m ρ c (Proc.devRef .tc main_v1) := W2_of_ne m ρ c main_v1 (by decide)
    _ = W1 m ρ c (Proc.devRef .tc main_v1) := rfl
/-- `main_v1` at boundary 8 is what it was at boundary 1: no segment in between writes it. -/
theorem main_v1_at8 (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by host_keeps hostOps3
    _ = W5 m ρ c (Proc.devRef .tc main_v1) := W6_of_ne m ρ c main_v1 (by decide)
    _ = W4 m ρ c (Proc.devRef .tc main_v1) := by host_keeps hostOps2
    _ = W1 m ρ c (Proc.devRef .tc main_v1) := main_v1_at4 m ρ c

/-- `main_v3` at boundary 2 is what it was at boundary 1: no segment in between writes it. -/
theorem main_v3_at2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)
    _ = W1 m ρ c (Proc.devRef .tc main_v3) := rfl
/-- `main_v3` at boundary 6 is what it was at boundary 1: no segment in between writes it. -/
theorem main_v3_at6 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by host_keeps hostOps2
    _ = W3 m ρ c (Proc.devRef .tc main_v3) := W4_of_ne m ρ c main_v3 (by decide)
    _ = W2 m ρ c (Proc.devRef .tc main_v3) := by host_keeps hostOps1
    _ = W1 m ρ c (Proc.devRef .tc main_v3) := main_v3_at2 m ρ c
/-- `main_v3` at boundary 10 is what it was at boundary 1: no segment in between writes it. -/
theorem main_v3_at10 (c : Dev nD) : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by host_keeps hostOps4
    _ = W7 m ρ c (Proc.devRef .tc main_v3) := W8_of_ne m ρ c main_v3 (by decide)
    _ = W6 m ρ c (Proc.devRef .tc main_v3) := by host_keeps hostOps3
    _ = W1 m ρ c (Proc.devRef .tc main_v3) := main_v3_at6 m ρ c

/-- `main_v20` at boundary 7 is what it was at boundary 4: no segment in between writes it. -/
theorem main_v20_at7 (c : Dev nD) : W7 m ρ c (Proc.devRef .tc main_v20) = W4 m ρ c (Proc.devRef .tc main_v20) :=
  calc W7 m ρ c (Proc.devRef .tc main_v20)
    _ = W6 m ρ c (Proc.devRef .tc main_v20) := by host_keeps hostOps3
    _ = W5 m ρ c (Proc.devRef .tc main_v20) := W6_of_ne m ρ c main_v20 (by decide)
    _ = W4 m ρ c (Proc.devRef .tc main_v20) := by host_keeps hostOps2
    _ = W4 m ρ c (Proc.devRef .tc main_v20) := rfl

/-- `main_v37` at boundary 11 is what it was at boundary 8: no segment in between writes it. -/
theorem main_v37_at11 (c : Dev nD) : W11 m ρ c (Proc.devRef .tc main_v37) = W8 m ρ c (Proc.devRef .tc main_v37) :=
  calc W11 m ρ c (Proc.devRef .tc main_v37)
    _ = W10 m ρ c (Proc.devRef .tc main_v37) := by host_keeps hostOps5
    _ = W9 m ρ c (Proc.devRef .tc main_v37) := W10_of_ne m ρ c main_v37 (by decide)
    _ = W8 m ρ c (Proc.devRef .tc main_v37) := by host_keeps hostOps4
    _ = W8 m ρ c (Proc.devRef .tc main_v37) := rfl

/-- `main_v54` at boundary 13 is what it was at boundary 12: no segment in between writes it. -/
theorem main_v54_at13 (c : Dev nD) : W13 m ρ c (Proc.devRef .tc main_v54) = W12 m ρ c (Proc.devRef .tc main_v54) :=
  calc W13 m ρ c (Proc.devRef .tc main_v54)
    _ = W12 m ρ c (Proc.devRef .tc main_v54) := by host_keeps hostOps6
    _ = W12 m ρ c (Proc.devRef .tc main_v54) := rfl

end Cert.KernelIdeal.Carry

end
-- ==== Proof.KEdge0.lean ====
/-
  Region 0 (the first layer's edge messages, 5 features) read as a value.
-/
import proofs.«409793_j85925115724498_1_alg».proof.Proof.Gen.KernelIdeal.Frame
import proofs.«409793_j85925115724498_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-- An [a, 1] column broadcast to [a, b] reads, at (p, c), the column's entry in row p. -/
theorem edge0_broadcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at edge p of the block and feature q: the rectified sum of the source row's entry and the
    encoded attribute a[p] · w[q] + b[q]. -/
theorem edge0_pay_apply (x0 : Vec Ideal S8000x1 .f32) (x1 : Vec Ideal S8000x5 .f32) (x2 x3 : Vec Ideal S1x5 .f32)
    (p : Fin 8000) (q : Fin 5) :
    k0_pay1 x0 x1 x2 x3 (ix2 p q)
      = max (x1 (ix2 p q) + (x0 (ix2 p 0) * x2 (ix2 0 q) + x3 (ix2 0 q))) 0 := by
  unfold k0_pay1
  show max (shapeCast S8000x5 x1 shapeCasts_S8000x5_S8000x5 (ix2 p q)
        + (broadcastTo S8000x5 x0 broadcasts_S8000x1_S8000x5 (ix2 p q)
            * broadcastTo S8000x5 x2 broadcasts_S1x5_S8000x5 (ix2 p q)
           + broadcastTo S8000x5 (shapeCast S1x5 x3 shapeCasts_S1x5_S1x5) broadcasts_S1x5_S8000x5 (ix2 p q)))
      (Ideal.ofBits .f32 0#32) = _
  rw [shapeCast_self x1, shapeCast_self x3, edge0_broadcast_col x0, broadcastTo_1b_ab_apply x2,
    broadcastTo_1b_ab_apply x3, Ideal.ofBits_zero_f32]

/-- One point of one block: if the four loaded blocks read, at (p, q), what the four arrays hold at the array index i
    (the attribute at row i 0, the source row at i, the weight and bias rows at column i 1), the payload there is the
    edge message at i. -/
theorem edge0_point (a : S400000x1.Idx → EReal) (xs : S400000x5.Idx → EReal) (w b : S1x5.Idx → EReal)
    (x0 : Vec Ideal S8000x1 .f32) (x1 : Vec Ideal S8000x5 .f32) (x2 x3 : Vec Ideal S1x5 .f32)
    (p : Fin 8000) (q : Fin 5) (i : S400000x5.Idx)
    (h0 : x0 (ix2 p 0) = a (ix2 (i 0) 0)) (h1 : x1 (ix2 p q) = xs i)
    (h2 : x2 (ix2 0 q) = w (ix2 0 (i 1))) (h3 : x3 (ix2 0 q) = b (ix2 0 (i 1))) :
    k0_pay1 x0 x1 x2 x3 (ix2 p q) = edgeMsg 400000 5 a xs w b i := by
  rw [edge0_pay_apply, h0, h1, h2, h3]
  rfl

-- the TensorCore's buffer contents when the region is entered, at the extended reals
variable (V : (c : Dev nD) → (b : Ref sig .tc) → Buf (Elt Ideal) ((c : Thread nD τ).loc b))

/-- The zero offsets of a whole-block access, however spelt. -/
theorem edge0_hz : (![0, 0] : Fin 2 → Nat) = fun _ => 0 := funext fun a => by fin_cases a <;> rfl

/-- The printed index maps over the 50 grid points: the edge-attribute, source-row and output windows sit at block
    (t, 0); the weight and bias rows at block (0, 0). -/
theorem edge0_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What grid point t writes back is block t of the edge-message function of the four arrays as the region finds
    them: the one whole-block store leaves the payload, and each loaded block reads its array where the output block's
    rectangle says. -/
theorem edge0_flushed_eq (c : Dev nD) (t : Fin cfg0.N) :
    (dat0 V c).flushed 4 t = ((cfg0.win 4).blk t).view.read (Elt Ideal)
      (edgeMsg 400000 5 (V c main_arg2) (V c main_v10) (V c main_arg4) (V c main_v11)) := by
  show (cfg0.win 4).cut (grid0.coords t) ((dat0 V c).after 4 t) = _
  rw [after0_4]
  unfold out0_4
  rw [View.canon_unit_zero edge0_hz]
  simp only [View.ld_unit_zero (S := S8000x1) edge0_hz, View.ld_unit_zero (S := S8000x5) edge0_hz, View.ld_unit_zero (S := S1x5) edge0_hz]
  funext j
  obtain ⟨e00, e01, e10, e11, e20, e21, e30, e31, e40, e41⟩ := edge0_idx_facts t
  have hp : (j 0).val < 8000 := (j 0).isLt
  have hq : (j 1).val < 5 := (j 1).isLt
  show k0_pay1 (iblk0 V c 0 t) (iblk0 V c 1 t) (iblk0 V c 2 t) (iblk0 V c 3 t) j
    = edgeMsg 400000 5 (V c main_arg2) (V c main_v10) (V c main_arg4) (V c main_v11) (((cfg0.win 4).blk t).view.emb j)
  refine (congrArg (k0_pay1 (iblk0 V c 0 t) (iblk0 V c 1 t) (iblk0 V c 2 t) (iblk0 V c 3 t))
    (eq_ix2 (n0 := 8000) (n1 := 5) j)).trans ?_
  refine edge0_point (V c main_arg2) (V c main_v10) (V c main_arg4) (V c main_v11)
    (iblk0 V c 0 t) (iblk0 V c 1 t) (iblk0 V c 2 t) (iblk0 V c 3 t) (j 0) (j 1) (((cfg0.win 4).blk t).view.emb j) ?_ ?_ ?_ ?_
  · show V c main_arg2 (((cfg0.win 0).blk t).view.emb (ix2 (j 0) 0))
      = V c main_arg2 (ix2 ((((cfg0.win 4).blk t).view.emb j) 0) 0)
    refine congrArg (V c main_arg2) (funext fun a => Fin.ext ?_)
    match a with
    | ⟨0, _⟩ =>
      show win0_0.index t (0 : Fin 2) * 8000 + 1 * (j 0).val = win0_4.index t (0 : Fin 2) * 8000 + 1 * (j 0).val
      omega
    | ⟨1, _⟩ => show win0_0.index t (1 : Fin 2) * 1 + 1 * 0 = 0; omega
  · show V c main_v10 (((cfg0.win 1).blk t).view.emb (ix2 (j 0) (j 1)))
      = V c main_v10 (((cfg0.win 4).blk t).view.emb j)
    refine congrArg (V c main_v10) (funext fun a => Fin.ext ?_)
    match a with
    | ⟨0, _⟩ =>
      show win0_1.index t (0 : Fin 2) * 8000 + 1 * (j 0).val = win0_4.index t (0 : Fin 2) * 8000 + 1 * (j 0).val
      omega
    | ⟨1, _⟩ =>
      show win0_1.index t (1 : Fin 2) * 5 + 1 * (j 1).val = win0_4.index t (1 : Fin 2) * 5 + 1 * (j 1).val
      omega
  · show V c main_arg4 (((cfg0.win 2).blk t).view.emb (ix2 0 (j 1)))
      = V c main_arg4 (ix2 0 ((((cfg0.win 4).blk t).view.emb j) 1))
    refine congrArg (V c main_arg4) (funext fun a => Fin.ext ?_)
    match a with
    | ⟨0, _⟩ => show win0_2.index t (0 : Fin 2) * 1 + 1 * 0 = 0; omega
    | ⟨1, _⟩ =>
      show win0_2.index t (1 : Fin 2) * 5 + 1 * (j 1).val = win0_4.index t (1 : Fin 2) * 5 + 1 * (j 1).val
      omega
  · show V c main_v11 (((cfg0.win 3).blk t).view.emb (ix2 0 (j 1)))
      = V c main_v11 (ix2 0 ((((cfg0.win 4).blk t).view.emb j) 1))
    refine congrArg (V c main_v11) (funext fun a => Fin.ext ?_)
    match a with
    | ⟨0, _⟩ => show win0_3.index t (0 : Fin 2) * 1 + 1 * 0 = 0; omega
    | ⟨1, _⟩ =>
      show win0_3.index t (1 : Fin 2) * 5 + 1 * (j 1).val = win0_4.index t (1 : Fin 2) * 5 + 1 * (j 1).val
      omega

/-- An index of the message array is in point t's block iff each coordinate lies in the block's range on its axis. -/
theorem edge0_mem_blk (t : Fin cfg0.N) (i : S400000x5.Idx) :
    i ∈ ((cfg0.win 4).blk t).view.set ↔ ∀ a : Fin 2, win0_4.index t a * S8000x5.size a ≤ (i a).val
      ∧ (i a).val < win0_4.index t a * S8000x5.size a + S8000x5.size a := by
  show i ∈ ((View.whole main_v12).slice (win0_4.rect t)).set ↔ _
  rw [View.set_slice_whole, Rect.mem_set_unit]
  exact Iff.rfl

/-- The 50 blocks of 8000 edges tile the 400000 edges: edge r lies in the block of point r / 8000. -/
theorem edge0_cover (i : S400000x5.Idx) :
    ∃ t : Fin cfg0.N, (cfg0.win 4).flush t = true ∧ i ∈ ((cfg0.win 4).blk t).view.set := by
  have hi0 : (i 0).val < 400000 := (i 0).isLt
  have hi1 : (i 1).val < 5 := (i 1).isLt
  have hlt : (i 0).val / 8000 < cfg0.N := by
    have hN : cfg0.N = 50 := N_0
    omega
  obtain ⟨-, -, -, -, -, -, -, -, e40, e41⟩ := edge0_idx_facts ⟨(i 0).val / 8000, hlt⟩
  refine ⟨⟨(i 0).val / 8000, hlt⟩, flush0_4 _, ?_⟩
  rw [edge0_mem_blk]
  intro a
  match a with
  | ⟨0, _⟩ =>
    show win0_4.index ⟨(i 0).val / 8000, hlt⟩ (0 : Fin 2) * 8000 ≤ (i 0).val
      ∧ (i 0).val < win0_4.index ⟨(i 0).val / 8000, hlt⟩ (0 : Fin 2) * 8000 + 8000
    have e : win0_4.index ⟨(i 0).val / 8000, hlt⟩ (0 : Fin 2) = (i 0).val / 8000 := e40
    omega
  | ⟨1, _⟩ =>
    show win0_4.index ⟨(i 0).val / 8000, hlt⟩ (1 : Fin 2) * 5 ≤ (i 1).val
      ∧ (i 1).val < win0_4.index ⟨(i 0).val / 8000, hlt⟩ (1 : Fin 2) * 5 + 5
    omega

/-- After region 0 the message array holds, at edge e and feature d, the rectified sum of the gathered source row and
    the encoded edge attribute: every grid point writes its 8000-edge block of that one whole-array function, and the 50
    blocks tile the array. -/
theorem edge0_value (c : Dev nD) :
    (dat0 V c).arrAt 4 cfg0.N
      = edgeMsg 400000 5 (V c main_arg2) (V c main_v10) (V c main_arg4) (V c main_v11) :=
  (dat0 V c).arrAt_eq_of_cover 4 _ (fun t _ => edge0_flushed_eq V c t) edge0_cover

end Cert.KernelIdeal.RegionValue

end
-- ==== Proof.KNode1.lean ====
/-
  Region 1 (the first layer's node update, 5 input features) read as a value.
-/
import proofs.«409793_j85925115724498_1_alg».proof.Proof.Gen.KernelIdeal.Frame
import proofs.«409793_j85925115724498_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

/-! ## The two matrix products read at an index -/

/-- The first matrix product's left operand index on its row axis is the output's row. -/
theorem node1_lhs5_0 (i : S4000x128.Idx) (q : dot_S4000x5_S5x128_S4000x128_1_0_0_1_n_n.contr.Idx) :
    (dot_S4000x5_S5x128_S4000x128_1_0_0_1_n_n.lhsIdx i q 0).val = (i 0).val := by
  unfold DotDims.lhsIdx
  rw [dif_neg (show ¬(0 : Fin S4000x5.rank) ∈ dot_S4000x5_S5x128_S4000x128_1_0_0_1_n_n.lhsBatch by decide), dif_pos (show (0 : Fin S4000x5.rank) ∈ dot_S4000x5_S5x128_S4000x128_1_0_0_1_n_n.lhsNonContracting by decide)]
  rfl
/-- … and on its feature axis the contraction coordinate. -/
theorem node1_lhs5_1 (i : S4000x128.Idx) (q : dot_S4000x5_S5x128_S4000x128_1_0_0_1_n_n.contr.Idx) :
    (dot_S4000x5_S5x128_S4000x128_1_0_0_1_n_n.lhsIdx i q 1).val = (q ⟨0, by decide⟩).val :=
  dot_S4000x5_S5x128_S4000x128_1_0_0_1_n_n.lhsIdx_val_of_single rfl i q
/-- The right operand's row axis carries the contraction coordinate … -/
theorem node1_rhs5_0 (i : S4000x128.Idx) (q : dot_S4000x5_S5x128_S4000x128_1_0_0_1_n_n.contr.Idx) :
    (dot_S4000x5_S5x128_S4000x128_1_0_0_1_n_n.rhsIdx i q 0).val = (q ⟨0, by decide⟩).val :=
  dot_S4000x5_S5x128_S4000x128_1_0_0_1_n_n.rhsIdx_val_of_single rfl i q
/-- … and its column axis the output's feature. -/
theorem node1_rhs5_1 (i : S4000x128.Idx) (q : dot_S4000x5_S5x128_S4000x128_1_0_0_1_n_n.contr.Idx) :
    (dot_S4000x5_S5x128_S4000x128_1_0_0_1_n_n.rhsIdx i q 1).val = (i 1).val := by
  unfold DotDims.rhsIdx
  rw [dif_neg (show ¬(1 : Fin S5x128.rank) ∈ dot_S4000x5_S5x128_S4000x128_1_0_0_1_n_n.rhsBatch by decide), dif_pos (show (1 : Fin S5x128.rank) ∈ dot_S4000x5_S5x128_S4000x128_1_0_0_1_n_n.rhsNonContracting by decide)]
  rfl

/-- The first matrix product into the zero accumulator, at row p and feature q: the sum over the 5 input features. -/
theorem node1_matmul5_apply (a : FVec Ideal S4000x5 .bf16) (b : FVec Ideal S5x128 .bf16) (p : Fin 4000) (q : Fin 128) :
    matmul dot_S4000x5_S5x128_S4000x128_1_0_0_1_n_n none a b (constant (F := Ideal) S4000x128 .f32 0x00000000#32) (ix2 p q)
      = ∑ k : Fin 5, a (ix2 p k) * b (ix2 k q) := by
  simp only [matmul]
  rw [Ideal.matmul_constant_zero_apply, ← Equiv.sum_comp (ValueIdx.contrEquiv1 dot_S4000x5_S5x128_S4000x128_1_0_0_1_n_n 5 rfl rfl).symm]
  refine Finset.sum_congr rfl fun k _ => ?_
  have hk := ValueIdx.contrEquiv1_symm_val dot_S4000x5_S5x128_S4000x128_1_0_0_1_n_n 5 rfl rfl k
  have el : dot_S4000x5_S5x128_S4000x128_1_0_0_1_n_n.lhsIdx (ix2 p q) ((ValueIdx.contrEquiv1 dot_S4000x5_S5x128_S4000x128_1_0_0_1_n_n 5 rfl rfl).symm k) = ix2 p k := funext fun a => Fin.ext (by
    match a with
    | ⟨0, _⟩ => exact node1_lhs5_0 _ _
    | ⟨1, _⟩ => exact (node1_lhs5_1 _ _).trans hk)
  have er : dot_S4000x5_S5x128_S4000x128_1_0_0_1_n_n.rhsIdx (ix2 p q) ((ValueIdx.contrEquiv1 dot_S4000x5_S5x128_S4000x128_1_0_0_1_n_n 5 rfl rfl).symm k) = ix2 k q := funext fun a => Fin.ext (by
    match a with
    | ⟨0, _⟩ => exact (node1_rhs5_0 _ _).trans hk
    | ⟨1, _⟩ => exact node1_rhs5_1 _ _)
  rw [el, er]

/-- The second matrix product's left operand index on its row axis is the output's row. -/
theorem node1_lhs128_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and on its feature axis the contraction coordinate. -/
theorem node1_lhs128_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row axis carries the contraction coordinate … -/
theorem node1_rhs128_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and its column axis the output's feature. -/
theorem node1_rhs128_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The second matrix product into the zero accumulator, at row p and feature q: the sum over the 128 hidden features. -/
theorem node1_matmul128_apply (a : FVec Ideal S4000x128 .bf16) (b : FVec Ideal S128x128 .bf16) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact node1_lhs128_0 _ _
    | ⟨1, _⟩ => exact (node1_lhs128_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (node1_rhs128_0 _ _).trans hk
    | ⟨1, _⟩ => exact node1_rhs128_1 _ _)
  rw [el, er]

/-! ## The layout operations of the row statistics read at an index -/

/-- A lane sum of a [4000,128] block at row p: the sum over the row's 128 features. -/
theorem node1_lanesum_apply (h : FVec Ideal S4000x128 .f32) (p : Fin 4000) :
    multiReduction (F := Ideal) .add [1] S4000 h 0x00000000#32 reduces_S4000x128_S4000 (.inl rfl) rfl (ix1 p) = ∑ k : Fin 128, h (ix2 p k) := by
  refine (Ideal.multiReduction_add_single h 0x00000000#32 reduces_S4000x128_S4000 (.inl rfl) rfl (ix1 p)).trans ?_
  refine Finset.sum_congr rfl fun k _ => congrArg h ?_
  funext a; apply Fin.ext
  match a with
  | ⟨0, _⟩ => rfl
  | ⟨1, _⟩ => rfl

/-- A length-4000 vector laid out as a column reads, at (p, u), its entry p. -/
theorem node1_col_apply {α : Type} (v : S4000.Idx → α) (p : Fin 4000) (u : Fin 1) :
    shapeCast S4000x1 v shapeCasts_S4000_S4000x1 (ix2 p u) = v (ix1 p) :=
  shapeCast_apply v _ _ _ (by
    have hu : u.val = 0 := by omega
    rw [Shape.rowMajor_val_one, Shape.rowMajor_val_two]
    show p.val = p.val * 1 + u.val
    rw [hu, Nat.mul_one, Nat.add_zero])

/-- A column broadcast over the 128 features reads, at (p, q), the column's entry p. -/
theorem node1_colbcast_apply {α : Type} (v : S4000x1.Idx → α) (p : Fin 4000) (q : Fin 128) :
    broadcastTo S4000x128 v broadcasts_S4000x1_S4000x128 (ix2 p q) = v (ix2 p (0 : Fin 1)) := by
  refine broadcastTo_apply v _ (ix2 p q) (ix2 p (0 : Fin 1)) fun ax => ?_
  match ax with
  | ⟨0, _⟩ =>
    exact (if_neg (show ¬ ((4000 : Nat) = 1) by decide)).symm
  | ⟨1, _⟩ => rfl

/-! ## The payloads at an index, and the block's payload as the node update of the blocks -/

/-- The two affine maps of the block's rows: the kernel's first payload at row p and feature q is the second affine
    map of the rectified first one, both matrix products read as sums over the contracted feature. -/
theorem node1_pay2_apply (x0 x1 : Vec Ideal S4000x5 .f32) (w1 : Vec Ideal S5x128 .f32) (b1 : Vec Ideal S1x128 .f32) (w2 : Vec Ideal S128x128 .f32) (b2 : Vec Ideal S1x128 .f32) (p : Fin 4000) (q : Fin 128) :
    k1_pay2 (F := Ideal) x0 x1 w1 b1 w2 b2 (ix2 p q) = hidden2 4000 (hidden1 4000 5 x0 x1 w1 b1) w2 b2 (ix2 p q) := by
  unfold k1_pay2
  simp only [shapeCast_self]
  rw [addf_apply, node1_matmul128_apply, broadcastTo_1b_ab_apply]
  show _ = (∑ k : Fin 128, hidden1 4000 5 x0 x1 w1 b1 (ix2 p k) * w2 (ix2 k q)) + b2 (ix2 0 q)
  refine congrArg (· + b2 (ix2 0 q)) (Finset.sum_congr rfl fun k _ => ?_)
  refine congrArg (· * w2 (ix2 k q)) ?_
  rw [truncf_apply, maximumf_apply, addf_apply, node1_matmul5_apply, broadcastTo_1b_ab_apply, broadcast_apply]
  simp only [truncf_apply, addf_apply]
  exact congrArg (max _) Ideal.ofBits_zero_f32

/-- The same as an equation of whole blocks. -/
theorem node1_pay2_eq (x0 x1 : Vec Ideal S4000x5 .f32) (w1 : Vec Ideal S5x128 .f32) (b1 : Vec Ideal S1x128 .f32) (w2 : Vec Ideal S128x128 .f32) (b2 : Vec Ideal S1x128 .f32) :
    k1_pay2 (F := Ideal) x0 x1 w1 b1 w2 b2 = hidden2 4000 (hidden1 4000 5 x0 x1 w1 b1) w2 b2 := by
  funext j
  obtain ⟨p, q, rfl⟩ : ∃ (p : Fin 4000) (q : Fin 128), j = ix2 p q := ⟨j 0, j 1, eq_ix2 j⟩
  exact node1_pay2_apply x0 x1 w1 b1 w2 b2 p q

/-- The row mean payload at row p: the mean of the second affine map's row. -/
theorem node1_pay5_apply (x0 x1 : Vec Ideal S4000x5 .f32) (w1 : Vec Ideal S5x128 .f32) (b1 : Vec Ideal S1x128 .f32) (w2 : Vec Ideal S128x128 .f32) (b2 : Vec Ideal S1x128 .f32) (p : Fin 4000) (u : Fin 1) :
    k1_pay5 (F := Ideal) x0 x1 w1 b1 w2 b2 (ix2 p u) = rowMean 4000 (k1_pay2 (F := Ideal) x0 x1 w1 b1 w2 b2) p := by
  unfold k1_pay5
  rw [divf_apply, node1_col_apply, node1_lanesum_apply, broadcast_apply]
  rfl

/-- The squared-deviation payload at row p: the sum of the squared centred features of the row. -/
theorem node1_pay6_apply (x0 x1 : Vec Ideal S4000x5 .f32) (w1 : Vec Ideal S5x128 .f32) (b1 : Vec Ideal S1x128 .f32) (w2 : Vec Ideal S128x128 .f32) (b2 : Vec Ideal S1x128 .f32) (p : Fin 4000) (u : Fin 1) :
    k1_pay6 (F := Ideal) x0 x1 w1 b1 w2 b2 (ix2 p u)
      = ∑ k : Fin 128, (k1_pay2 (F := Ideal) x0 x1 w1 b1 w2 b2 (ix2 p k) - rowMean 4000 (k1_pay2 (F := Ideal) x0 x1 w1 b1 w2 b2) p)
          * (k1_pay2 (F := Ideal) x0 x1 w1 b1 w2 b2 (ix2 p k) - rowMean 4000 (k1_pay2 (F := Ideal) x0 x1 w1 b1 w2 b2) p) := by
  unfold k1_pay6
  rw [node1_col_apply, node1_lanesum_apply]
  refine Finset.sum_congr rfl fun k _ => ?_
  rw [mulf_apply, subf_apply, node1_colbcast_apply, node1_pay5_apply]

/-- The divisor payload: 128 everywhere. -/
theorem node1_pay7_apply (p : Fin 4000) (u : Fin 1) : k1_pay7 (F := Ideal) (ix2 p u) = c128 := rfl

/-- The normalization payload at row p and feature q, from the row's mean, its sum of squared deviations and the divisor. -/
theorem node1_pay1_apply (h : FVec Ideal S4000x128 .f32) (g bt : FVec Ideal S1x128 .f32) (mu ss d : FVec Ideal S4000x1 .f32) (p : Fin 4000) (q : Fin 128) :
    k1_pay1 (F := Ideal) h g bt mu ss d (ix2 p q)
      = max ((h (ix2 p q) - mu (ix2 p (0 : Fin 1))) * Ideal.rsqrt (Ideal.div (ss (ix2 p (0 : Fin 1))) (d (ix2 p (0 : Fin 1))) + cEps) * g (ix2 (0 : Fin 1) q) + bt (ix2 (0 : Fin 1) q)) 0 := by
  unfold k1_pay1
  rw [maximumf_apply, addf_apply, mulf_apply, mulf_apply, subf_apply, node1_colbcast_apply, node1_colbcast_apply,
    broadcastTo_1b_ab_apply, broadcastTo_1b_ab_apply, broadcast_apply]
  exact congrArg (max _) Ideal.ofBits_zero_f32

/-- THE BLOCK'S PAYLOAD: what the body stores is the node update of its own eight input blocks. -/
theorem node1_payload_eq (x0 x1 : Vec Ideal S4000x5 .f32) (w1 : Vec Ideal S5x128 .f32) (b1 : Vec Ideal S1x128 .f32) (w2 : Vec Ideal S128x128 .f32) (b2 g bt : Vec Ideal S1x128 .f32) :
    k1_pay1 (F := Ideal) (k1_pay2 x0 x1 w1 b1 w2 b2) (k1_pay3 g) (k1_pay4 bt) (k1_pay5 x0 x1 w1 b1 w2 b2) (k1_pay6 x0 x1 w1 b1 w2 b2) (k1_pay7 (F := Ideal))
      = nodeUpd 4000 5 x0 x1 w1 b1 w2 b2 g bt := by
  funext j
  obtain ⟨p, q, rfl⟩ : ∃ (p : Fin 4000) (q : Fin 128), j = ix2 p q := ⟨j 0, j 1, eq_ix2 j⟩
  rw [node1_pay1_apply, node1_pay5_apply, node1_pay6_apply, node1_pay7_apply, node1_pay2_eq]
  unfold k1_pay3 k1_pay4
  simp only [shapeCast_self]
  rfl

/-- A row of the node update depends on the same row of x and aggr only: two pairs of arrays that agree on a row
    (of possibly different heights) give the same updated row. -/
theorem node1_rowlocal {N M : Nat} (x a : I2 N 5 → EReal) (X A : I2 M 5 → EReal) (w1 : I2 5 128 → EReal) (b1 : I2 1 128 → EReal)
    (w2 : I2 128 128 → EReal) (b2 g bt : I2 1 128 → EReal) (p : Fin N) (r : Fin M)
    (hx : ∀ k : Fin 5, x (ix2 p k) = X (ix2 r k)) (ha : ∀ k : Fin 5, a (ix2 p k) = A (ix2 r k)) (q : Fin 128) :
    nodeUpd N 5 x a w1 b1 w2 b2 g bt (ix2 p q) = nodeUpd M 5 X A w1 b1 w2 b2 g bt (ix2 r q) := by
  have h1 : ∀ k : Fin 128, hidden1 N 5 x a w1 b1 (ix2 p k) = hidden1 M 5 X A w1 b1 (ix2 r k) := fun k => by
    show max ((∑ j : Fin 5, (x (ix2 p j) + a (ix2 p j)) * w1 (ix2 j k)) + b1 (ix2 0 k)) 0
      = max ((∑ j : Fin 5, (X (ix2 r j) + A (ix2 r j)) * w1 (ix2 j k)) + b1 (ix2 0 k)) 0
    simp only [hx, ha]
  have h2 : ∀ k : Fin 128, hidden2 N (hidden1 N 5 x a w1 b1) w2 b2 (ix2 p k) = hidden2 M (hidden1 M 5 X A w1 b1) w2 b2 (ix2 r k) := fun k => by
    show (∑ j : Fin 128, hidden1 N 5 x a w1 b1 (ix2 p j) * w2 (ix2 j k)) + b2 (ix2 0 k)
      = (∑ j : Fin 128, hidden1 M 5 X A w1 b1 (ix2 r j) * w2 (ix2 j k)) + b2 (ix2 0 k)
    simp only [h1]
  unfold nodeUpd
  generalize hidden2 N (hidden1 N 5 x a w1 b1) w2 b2 = H at h2 ⊢
  generalize hidden2 M (hidden1 M 5 X A w1 b1) w2 b2 = H' at h2 ⊢
  have hm : rowMean N H p = rowMean M H' r := by unfold rowMean; simp only [h2]
  have hv : rowVar N H p = rowVar M H' r := by unfold rowVar; simp only [h2, hm]
  show max ((H (ix2 p q) - rowMean N H p) * Ideal.rsqrt (rowVar N H p + cEps) * g (ix2 0 q) + bt (ix2 0 q)) 0
    = max ((H' (ix2 r q) - rowMean M H' r) * Ideal.rsqrt (rowVar M H' r + cEps) * g (ix2 0 q) + bt (ix2 0 q)) 0
  rw [h2 q, hm, hv]

/-! ## The windows' blocks read off the arrays -/

theorem node1_hz : (![0, 0] : Fin 2 → Nat) = fun _ => 0 := funext fun a => by fin_cases a <;> rfl

/-- The printed index maps, decided over the 50 grid points: the node blocks (x, aggr, the output) move with the point
    along the rows, the six parameter windows stay at block (0, 0). -/
theorem node1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- The x window's block at point t is rows 4000 t … 4000 t + 3999 of the array. -/
theorem node1_xblk_apply (c : Dev nD) (t : Fin cfg1.N) (y : S4000x5.Idx) (i : S200000x5.Idx)
    (h0 : (i 0).val = t.val * 4000 + (y 0).val) (h1 : (i 1).val = (y 1).val) :
    (iblk1 V c 0 t : Vec Ideal S4000x5 .f32) y = (V c main_arg0 : S200000x5.Idx → EReal) i := by
  obtain ⟨e0, e1, -⟩ := node1_idx_facts t
  unfold iblk1
  rw [View.read_apply]
  show V c main_arg0 _ = V c main_arg0 _
  refine congrArg (V c main_arg0) ?_
  funext a
  apply Fin.ext
  match a with
  | ⟨0, _⟩ => show win1_0.index t (0 : Fin 2) * 4000 + 1 * (y 0).val = (i 0).val; rw [e0, h0]; omega
  | ⟨1, _⟩ => show win1_0.index t (1 : Fin 2) * 5 + 1 * (y 1).val = (i 1).val; rw [e1, h1]; omega

/-- The aggr window's block at point t is the same rows of its array. -/
theorem node1_ablk_apply (c : Dev nD) (t : Fin cfg1.N) (y : S4000x5.Idx) (i : S200000x5.Idx)
    (h0 : (i 0).val = t.val * 4000 + (y 0).val) (h1 : (i 1).val = (y 1).val) :
    (iblk1 V c 1 t : Vec Ideal S4000x5 .f32) y = (V c main_v15 : S200000x5.Idx → EReal) i := by
  obtain ⟨-, -, e0, e1, -⟩ := node1_idx_facts t
  unfold iblk1
  rw [View.read_apply]
  show V c main_v15 _ = V c main_v15 _
  refine congrArg (V c main_v15) ?_
  funext a
  apply Fin.ext
  match a with
  | ⟨0, _⟩ => show win1_1.index t (0 : Fin 2) * 4000 + 1 * (y 0).val = (i 0).val; rw [e0, h0]; omega
  | ⟨1, _⟩ => show win1_1.index t (1 : Fin 2) * 5 + 1 * (y 1).val = (i 1).val; rw [e1, h1]; omega

/-- Each parameter window's one block is its whole array, at every point. -/
theorem node1_w1blk_eq (c : Dev nD) (t : Fin cfg1.N) : (iblk1 V c 2 t : Vec Ideal S5x128 .f32) = (V c main_arg6 : S5x128.Idx → EReal) := by
  obtain ⟨-, -, -, -, e0, e1, -⟩ := node1_idx_facts t
  funext y
  unfold iblk1
  rw [View.read_apply]
  show V c main_arg6 _ = V c main_arg6 _
  refine congrArg (V c main_arg6) ?_
  funext a
  apply Fin.ext
  match a with
  | ⟨0, _⟩ => show win1_2.index t (0 : Fin 2) * 5 + 1 * (y 0).val = (y 0).val; rw [e0]; omega
  | ⟨1, _⟩ => show win1_2.index t (1 : Fin 2) * 128 + 1 * (y 1).val = (y 1).val; rw [e1]; omega

theorem node1_b1blk_eq (c : Dev nD) (t : Fin cfg1.N) : (iblk1 V c 3 t : Vec Ideal S1x128 .f32) = (V c main_v16 : S1x128.Idx → EReal) := by
  obtain ⟨-, -, -, -, -, -, e0, e1, -⟩ := node1_idx_facts t
  funext y
  unfold iblk1
  rw [View.read_apply]
  show V c main_v16 _ = V c main_v16 _
  refine congrArg (V c main_v16) ?_
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

theorem node1_w2blk_eq (c : Dev nD) (t : Fin cfg1.N) : (iblk1 V c 4 t : Vec Ideal S128x128 .f32) = (V c main_arg8 : S128x128.Idx → EReal) := by
  obtain ⟨-, -, -, -, -, -, -, -, e0, e1, -⟩ := node1_idx_facts t
  funext y
  unfold iblk1
  rw [View.read_apply]
  show V c main_arg8 _ = V c main_arg8 _
  refine congrArg (V c main_arg8) ?_
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

theorem node1_b2blk_eq (c : Dev nD) (t : Fin cfg1.N) : (iblk1 V c 5 t : Vec Ideal S1x128 .f32) = (V c main_v17 : S1x128.Idx → EReal) := by
  obtain ⟨-, -, -, -, -, -, -, -, -, -, e0, e1, -⟩ := node1_idx_facts t
  funext y
  unfold iblk1
  rw [View.read_apply]
  show V c main_v17 _ = V c main_v17 _
  refine congrArg (V c main_v17) ?_
  funext a
  apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

theorem node1_gblk_eq (c : Dev nD) (t : Fin cfg1.N) : (iblk1 V c 6 t : Vec Ideal S1x128 .f32) = (V c main_v18 : S1x128.Idx → EReal) := by
  obtain ⟨-, -, -, -, -, -, -, -, -, -, -, -, e0, e1, -⟩ := node1_idx_facts t
  funext y
  unfold iblk1
  rw [View.read_apply]
  show V c main_v18 _ = V c main_v18 _
  refine congrArg (V c main_v18) ?_
  funext a
  apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

theorem node1_btblk_eq (c : Dev nD) (t : Fin cfg1.N) : (iblk1 V c 7 t : Vec Ideal S1x128 .f32) = (V c main_v19 : S1x128.Idx → EReal) := by
  obtain ⟨-, -, -, -, -, -, -, -, -, -, -, -, -, -, e0, e1, -⟩ := node1_idx_facts t
  funext y
  unfold iblk1
  rw [View.read_apply]
  show V c main_v19 _ = V c main_v19 _
  refine congrArg (V c main_v19) ?_
  funext a
  apply Fin.ext
  match a with
  | ⟨0, _⟩ => show win1_7.index t (0 : Fin 2) * 1 + 1 * (y 0).val = (y 0).val; rw [e0]; omega
  | ⟨1, _⟩ => show win1_7.index t (1 : Fin 2) * 128 + 1 * (y 1).val = (y 1).val; rw [e1]; omega

/-! ## From the blocks to the array -/

/-- WHAT POINT t WRITES BACK is block t of the node update of the arrays as the region finds them. -/
theorem node1_flushed_eq (c : Dev nD) (t : Fin cfg1.N) :
    (dat1 V c).flushed 8 t = ((cfg1.win 8).blk t).view.read (Elt Ideal)
      (nodeUpd 200000 5 (V c main_arg0) (V c main_v15) (V c main_arg6) (V c main_v16) (V c main_arg8) (V c main_v17) (V c main_v18) (V c main_v19)) := by
  show (cfg1.win 8).cut (grid1.coords t) ((dat1 V c).after 8 t) = _
  rw [after1_8]
  unfold out1_8
  rw [View.canon_unit_zero node1_hz]
  simp only [View.ld_unit_zero (S := S4000x5) node1_hz, View.ld_unit_zero (S := S5x128) node1_hz, View.ld_unit_zero (S := S1x128) node1_hz, View.ld_unit_zero (S := S128x128) node1_hz]
  obtain ⟨-, -, -, -, -, -, -, -, -, -, -, -, -, -, -, -, e0, e1⟩ := node1_idx_facts t
  have ht : t.val < 50 := t.isLt
  funext j
  obtain ⟨p, q, rfl⟩ : ∃ (p : Fin 4000) (q : Fin 128), j = ix2 p q := ⟨j 0, j 1, eq_ix2 j⟩
  refine (congrFun (node1_payload_eq (iblk1 V c 0 t) (iblk1 V c 1 t) (iblk1 V c 2 t) (iblk1 V c 3 t) (iblk1 V c 4 t) (iblk1 V c 5 t) (iblk1 V c 6 t) (iblk1 V c 7 t)) (ix2 p q)).trans ?_
  rw [View.read_apply, node1_w1blk_eq V c t, node1_b1blk_eq V c t, node1_w2blk_eq V c t, node1_b2blk_eq V c t, node1_gblk_eq V c t, node1_btblk_eq V c t]
  have hemb : ((cfg1.win 8).blk t).view.emb (ix2 p q) = (ix2 (⟨t.val * 4000 + p.val, by omega⟩ : Fin 200000) q : S200000x128.Idx) := by
    funext a
    apply Fin.ext
    match a with
    | ⟨0, _⟩ => show win1_8.index t (0 : Fin 2) * 4000 + 1 * p.val = t.val * 4000 + p.val; rw [e0]; omega
    | ⟨1, _⟩ => show win1_8.index t (1 : Fin 2) * 128 + 1 * q.val = q.val; rw [e1]; omega
  rw [hemb]
  exact node1_rowlocal (iblk1 V c 0 t) (iblk1 V c 1 t) (V c main_arg0) (V c main_v15) (V c main_arg6) (V c main_v16) (V c main_arg8) (V c main_v17) (V c main_v18) (V c main_v19) p
    (⟨t.val * 4000 + p.val, by omega⟩ : Fin 200000)
    (fun k => node1_xblk_apply V c t (ix2 p k) (ix2 (⟨t.val * 4000 + p.val, by omega⟩ : Fin 200000) k) rfl rfl)
    (fun k => node1_ablk_apply V c t (ix2 p k) (ix2 (⟨t.val * 4000 + p.val, by omega⟩ : Fin 200000) k) rfl rfl) q

/-- An index of the node array is in point t's block iff each coordinate is in the block's range on its axis. -/
theorem node1_mem_blk (t : Fin cfg1.N) (i : S200000x128.Idx) :
    i ∈ ((cfg1.win 8).blk t).view.set ↔ ∀ a : Fin 2, win1_8.index t a * S4000x128.size a ≤ (i a).val ∧ (i a).val < win1_8.index t a * S4000x128.size a + S4000x128.size a := by
  show i ∈ ((View.whole main_v20).slice (win1_8.rect t)).set ↔ _
  rw [View.set_slice_whole, Rect.mem_set_unit]
  exact Iff.rfl

/-- The 50 blocks of 4000 rows tile the 200000 rows: row r is in the block of point r / 4000. -/
theorem node1_cover (i : S200000x128.Idx) :
    ∃ t : Fin cfg1.N, (cfg1.win 8).flush t = true ∧ i ∈ ((cfg1.win 8).blk t).view.set := by
  have hi0 : (i 0).val < 200000 := (i 0).isLt
  have hi1 : (i 1).val < 128 := (i 1).isLt
  have hN : cfg1.N = 50 := N_1
  let t : Fin cfg1.N := ⟨(i 0).val / 4000, by rw [hN]; omega⟩
  obtain ⟨-, -, -, -, -, -, -, -, -, -, -, -, -, -, -, -, e0, e1⟩ := node1_idx_facts t
  have ht : t.val = (i 0).val / 4000 := rfl
  refine ⟨t, flush1_8 t, ?_⟩
  rw [node1_mem_blk]
  intro a
  match a with
  | ⟨0, _⟩ => show win1_8.index t (0 : Fin 2) * 4000 ≤ (i 0).val ∧ (i 0).val < win1_8.index t (0 : Fin 2) * 4000 + 4000; rw [e0, ht]; omega
  | ⟨1, _⟩ => show win1_8.index t (1 : Fin 2) * 128 ≤ (i 1).val ∧ (i 1).val < win1_8.index t (1 : Fin 2) * 128 + 128; rw [e1]; omega

/-- After region 1 the node array holds the layer's node update of the entry arrays: every grid point writes its
    4000-node block of that one whole-array function (a row of the result depends on the same row of x and aggr only),
    and the 50 blocks tile the array. -/
theorem node1_value (c : Dev nD) :
    (dat1 V c).arrAt 8 cfg1.N
      = nodeUpd 200000 5 (V c main_arg0) (V c main_v15) (V c main_arg6) (V c main_v16) (V c main_arg8) (V c main_v17) (V c main_v18) (V c main_v19) :=
  (dat1 V c).arrAt_eq_of_cover 8
    (nodeUpd 200000 5 (V c main_arg0) (V c main_v15) (V c main_arg6) (V c main_v16) (V c main_arg8) (V c main_v17) (V c main_v18) (V c main_v19))
    (fun t _ => node1_flushed_eq V c t) node1_cover

end Cert.KernelIdeal.RegionValue

end
-- ==== Proof.KEdge2.lean ====
/-
  Region 2 (the second layer's edge messages, 128 features) read as a value.
-/
import proofs.«409793_j85925115724498_1_alg».proof.Proof.Gen.KernelIdeal.Frame
import proofs.«409793_j85925115724498_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-- An [a, 1] column broadcast to [a, b] reads, at (p, c), the column's entry in row p. -/
theorem edge2_broadcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at edge p of the block and feature q: the rectified sum of the source row's entry and the
    encoded attribute a[p] · w[q] + b[q]. -/
theorem edge2_pay_apply (x0 : Vec Ideal S8000x1 .f32) (x1 : Vec Ideal S8000x128 .f32) (x2 x3 : Vec Ideal S1x128 .f32)
    (p : Fin 8000) (q : Fin 128) :
    k2_pay1 x0 x1 x2 x3 (ix2 p q)
      = max (x1 (ix2 p q) + (x0 (ix2 p 0) * x2 (ix2 0 q) + x3 (ix2 0 q))) 0 := by
  unfold k2_pay1
  show max (shapeCast S8000x128 x1 shapeCasts_S8000x128_S8000x128 (ix2 p q)
        + (broadcastTo S8000x128 x0 broadcasts_S8000x1_S8000x128 (ix2 p q)
            * broadcastTo S8000x128 x2 broadcasts_S1x128_S8000x128 (ix2 p q)
           + broadcastTo S8000x128 (shapeCast S1x128 x3 shapeCasts_S1x128_S1x128) broadcasts_S1x128_S8000x128 (ix2 p q)))
      (Ideal.ofBits .f32 0#32) = _
  rw [shapeCast_self x1, shapeCast_self x3, edge2_broadcast_col x0, broadcastTo_1b_ab_apply x2,
    broadcastTo_1b_ab_apply x3, Ideal.ofBits_zero_f32]

/-- One point of one block: if the four loaded blocks read, at (p, q), what the four arrays hold at the array index i
    (the attribute at row i 0, the source row at i, the weight and bias rows at column i 1), the payload there is the
    edge message at i. -/
theorem edge2_point (a : S400000x1.Idx → EReal) (xs : S400000x128.Idx → EReal) (w b : S1x128.Idx → EReal)
    (x0 : Vec Ideal S8000x1 .f32) (x1 : Vec Ideal S8000x128 .f32) (x2 x3 : Vec Ideal S1x128 .f32)
    (p : Fin 8000) (q : Fin 128) (i : S400000x128.Idx)
    (h0 : x0 (ix2 p 0) = a (ix2 (i 0) 0)) (h1 : x1 (ix2 p q) = xs i)
    (h2 : x2 (ix2 0 q) = w (ix2 0 (i 1))) (h3 : x3 (ix2 0 q) = b (ix2 0 (i 1))) :
    k2_pay1 x0 x1 x2 x3 (ix2 p q) = edgeMsg 400000 128 a xs w b i := by
  rw [edge2_pay_apply, h0, h1, h2, h3]
  rfl

-- the TensorCore's buffer contents when the region is entered, at the extended reals
variable (V : (c : Dev nD) → (b : Ref sig .tc) → Buf (Elt Ideal) ((c : Thread nD τ).loc b))

/-- The zero offsets of a whole-block access, however spelt. -/
theorem edge2_hz : (![0, 0] : Fin 2 → Nat) = fun _ => 0 := funext fun a => by fin_cases a <;> rfl

/-- The printed index maps over the 50 grid points: the edge-attribute, source-row and output windows sit at block
    (t, 0); the weight and bias rows at block (0, 0). -/
theorem edge2_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What grid point t writes back is block t of the edge-message function of the four arrays as the region finds
    them: the one whole-block store leaves the payload, and each loaded block reads its array where the output block's
    rectangle says. -/
theorem edge2_flushed_eq (c : Dev nD) (t : Fin cfg2.N) :
    (dat2 V c).flushed 4 t = ((cfg2.win 4).blk t).view.read (Elt Ideal)
      (edgeMsg 400000 128 (V c main_arg2) (V c main_v27) (V c main_arg12) (V c main_v28)) := by
  show (cfg2.win 4).cut (grid2.coords t) ((dat2 V c).after 4 t) = _
  rw [after2_4]
  unfold out2_4
  rw [View.canon_unit_zero edge2_hz]
  simp only [View.ld_unit_zero (S := S8000x1) edge2_hz, View.ld_unit_zero (S := S8000x128) edge2_hz, View.ld_unit_zero (S := S1x128) edge2_hz]
  funext j
  obtain ⟨e00, e01, e10, e11, e20, e21, e30, e31, e40, e41⟩ := edge2_idx_facts t
  have hp : (j 0).val < 8000 := (j 0).isLt
  have hq : (j 1).val < 128 := (j 1).isLt
  show k2_pay1 (iblk2 V c 0 t) (iblk2 V c 1 t) (iblk2 V c 2 t) (iblk2 V c 3 t) j
    = edgeMsg 400000 128 (V c main_arg2) (V c main_v27) (V c main_arg12) (V c main_v28) (((cfg2.win 4).blk t).view.emb j)
  refine (congrArg (k2_pay1 (iblk2 V c 0 t) (iblk2 V c 1 t) (iblk2 V c 2 t) (iblk2 V c 3 t))
    (eq_ix2 (n0 := 8000) (n1 := 128) j)).trans ?_
  refine edge2_point (V c main_arg2) (V c main_v27) (V c main_arg12) (V c main_v28)
    (iblk2 V c 0 t) (iblk2 V c 1 t) (iblk2 V c 2 t) (iblk2 V c 3 t) (j 0) (j 1) (((cfg2.win 4).blk t).view.emb j) ?_ ?_ ?_ ?_
  · show V c main_arg2 (((cfg2.win 0).blk t).view.emb (ix2 (j 0) 0))
      = V c main_arg2 (ix2 ((((cfg2.win 4).blk t).view.emb j) 0) 0)
    refine congrArg (V c main_arg2) (funext fun a => Fin.ext ?_)
    match a with
    | ⟨0, _⟩ =>
      show win2_0.index t (0 : Fin 2) * 8000 + 1 * (j 0).val = win2_4.index t (0 : Fin 2) * 8000 + 1 * (j 0).val
      omega
    | ⟨1, _⟩ => show win2_0.index t (1 : Fin 2) * 1 + 1 * 0 = 0; omega
  · show V c main_v27 (((cfg2.win 1).blk t).view.emb (ix2 (j 0) (j 1)))
      = V c main_v27 (((cfg2.win 4).blk t).view.emb j)
    refine congrArg (V c main_v27) (funext fun a => Fin.ext ?_)
    match a with
    | ⟨0, _⟩ =>
      show win2_1.index t (0 : Fin 2) * 8000 + 1 * (j 0).val = win2_4.index t (0 : Fin 2) * 8000 + 1 * (j 0).val
      omega
    | ⟨1, _⟩ =>
      show win2_1.index t (1 : Fin 2) * 128 + 1 * (j 1).val = win2_4.index t (1 : Fin 2) * 128 + 1 * (j 1).val
      omega
  · show V c main_arg12 (((cfg2.win 2).blk t).view.emb (ix2 0 (j 1)))
      = V c main_arg12 (ix2 0 ((((cfg2.win 4).blk t).view.emb j) 1))
    refine congrArg (V c main_arg12) (funext fun a => Fin.ext ?_)
    match a with
    | ⟨0, _⟩ => show win2_2.index t (0 : Fin 2) * 1 + 1 * 0 = 0; omega
    | ⟨1, _⟩ =>
      show win2_2.index t (1 : Fin 2) * 128 + 1 * (j 1).val = win2_4.index t (1 : Fin 2) * 128 + 1 * (j 1).val
      omega
  · show V c main_v28 (((cfg2.win 3).blk t).view.emb (ix2 0 (j 1)))
      = V c main_v28 (ix2 0 ((((cfg2.win 4).blk t).view.emb j) 1))
    refine congrArg (V c main_v28) (funext fun a => Fin.ext ?_)
    match a with
    | ⟨0, _⟩ => show win2_3.index t (0 : Fin 2) * 1 + 1 * 0 = 0; omega
    | ⟨1, _⟩ =>
      show win2_3.index t (1 : Fin 2) * 128 + 1 * (j 1).val = win2_4.index t (1 : Fin 2) * 128 + 1 * (j 1).val
      omega

/-- An index of the message array is in point t's block iff each coordinate lies in the block's range on its axis. -/
theorem edge2_mem_blk (t : Fin cfg2.N) (i : S400000x128.Idx) :
    i ∈ ((cfg2.win 4).blk t).view.set ↔ ∀ a : Fin 2, win2_4.index t a * S8000x128.size a ≤ (i a).val
      ∧ (i a).val < win2_4.index t a * S8000x128.size a + S8000x128.size a := by
  show i ∈ ((View.whole main_v29).slice (win2_4.rect t)).set ↔ _
  rw [View.set_slice_whole, Rect.mem_set_unit]
  exact Iff.rfl

/-- The 50 blocks of 8000 edges tile the 400000 edges: edge r lies in the block of point r / 8000. -/
theorem edge2_cover (i : S400000x128.Idx) :
    ∃ t : Fin cfg2.N, (cfg2.win 4).flush t = true ∧ i ∈ ((cfg2.win 4).blk t).view.set := by
  have hi0 : (i 0).val < 400000 := (i 0).isLt
  have hi1 : (i 1).val < 128 := (i 1).isLt
  have hlt : (i 0).val / 8000 < cfg2.N := by
    have hN : cfg2.N = 50 := N_2
    omega
  obtain ⟨-, -, -, -, -, -, -, -, e40, e41⟩ := edge2_idx_facts ⟨(i 0).val / 8000, hlt⟩
  refine ⟨⟨(i 0).val / 8000, hlt⟩, flush2_4 _, ?_⟩
  rw [edge2_mem_blk]
  intro a
  match a with
  | ⟨0, _⟩ =>
    show win2_4.index ⟨(i 0).val / 8000, hlt⟩ (0 : Fin 2) * 8000 ≤ (i 0).val
      ∧ (i 0).val < win2_4.index ⟨(i 0).val / 8000, hlt⟩ (0 : Fin 2) * 8000 + 8000
    have e : win2_4.index ⟨(i 0).val / 8000, hlt⟩ (0 : Fin 2) = (i 0).val / 8000 := e40
    omega
  | ⟨1, _⟩ =>
    show win2_4.index ⟨(i 0).val / 8000, hlt⟩ (1 : Fin 2) * 128 ≤ (i 1).val
      ∧ (i 1).val < win2_4.index ⟨(i 0).val / 8000, hlt⟩ (1 : Fin 2) * 128 + 128
    omega

/-- After region 2 the message array holds, at edge e and feature d, the rectified sum of the gathered source row and
    the encoded edge attribute: every grid point writes its 8000-edge block of that one whole-array function, and the 50
    blocks tile the array. -/
theorem edge2_value (c : Dev nD) :
    (dat2 V c).arrAt 4 cfg2.N
      = edgeMsg 400000 128 (V c main_arg2) (V c main_v27) (V c main_arg12) (V c main_v28) :=
  (dat2 V c).arrAt_eq_of_cover 4 _ (fun t _ => edge2_flushed_eq V c t) edge2_cover

end Cert.KernelIdeal.RegionValue

end
-- ==== Proof.KNode3.lean ====
/-
  Region 3 (the second layer's node update) read as a value.
-/
import proofs.«409793_j85925115724498_1_alg».proof.Proof.Gen.KernelIdeal.Frame
import proofs.«409793_j85925115724498_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! ## The matrix-unit product at an index

The product contracts the left operand's axis 1 with the right operand's axis 0, so at output index (p, q) and
contraction position k the operands are read at (p, k) and (k, q). -/

/-- The left operand's row is the output's row. -/
theorem node3_lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column is the contraction position. -/
theorem node3_lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row is the contraction position. -/
theorem node3_rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column is the output's column. -/
theorem node3_rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000,128] by [128,128] product into the zero accumulator, at (p, q): the sum over k of a[p,k] · w[k,q]. -/
theorem node3_matmul_apply {φ₁ φ₂ : FTy} (a : FVec Ideal S4000x128 φ₁) (w : FVec Ideal S128x128 φ₂) (p : Fin 4000) (q : Fin 128) :
    matmul dot_S4000x128_S128x128_S4000x128_1_0_0_1_n_n none a w (constant (F := Ideal) S4000x128 .f32 0x00000000#32) (ix2 p q)
      = ∑ k : Fin 128, a (ix2 p k) * w (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun ax => Fin.ext (by
    match ax with
    | ⟨0, _⟩ => exact node3_lhs_0 _ _
    | ⟨1, _⟩ => exact (node3_lhs_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun ax => Fin.ext (by
    match ax with
    | ⟨0, _⟩ => exact (node3_rhs_0 _ _).trans hk
    | ⟨1, _⟩ => exact node3_rhs_1 _ _)
  rw [el, er]

/-! ## The column layouts and the lane sum at an index -/

/-- A length-4000 vector cast to the one column of a [4000,1] array reads, at (p, u), the vector at p. -/
theorem node3_col_apply {α : Type} (x : S4000.Idx → α) (h : S4000.ShapeCasts S4000x1) (p : Fin 4000) (u : Fin 1) :
    shapeCast S4000x1 x h (ix2 p u) = x (ix1 p) :=
  shapeCast_apply x h _ _ (by
    have hu : u.val = 0 := by omega
    rw [Shape.rowMajor_val_two, Shape.rowMajor_val_one]
    show p.val = p.val * 1 + u.val
    omega)

/-- A [4000,1] column broadcast over 128 lanes reads, at (p, q), the column at row p. -/
theorem node3_bcast_col_apply {α : Type} (v : S4000x1.Idx → α) (h : S4000x1.Broadcasts S4000x128) (p : Fin 4000) (q : Fin 128) :
    broadcastTo S4000x128 v h (ix2 p q) = v (ix2 p (0 : Fin 1)) := by
  refine broadcastTo_apply v h (ix2 p q) (ix2 p (0 : Fin 1)) fun ax => ?_
  match ax with
  | ⟨0, _⟩ =>
    show p.val = if (4000 : Nat) = 1 then 0 else p.val
    rw [if_neg (by decide)]
  | ⟨1, _⟩ => rfl

/-- The sum over the 128 lanes of a [4000,128] block, at row p. -/
theorem node3_rowsum_apply (src : FVec Ideal S4000x128 .f32) (p : Fin 4000) :
    multiReduction (F := Ideal) .add [1] S4000 src 0x00000000#32 reduces_S4000x128_S4000 (.inl rfl) rfl (ix1 p)
      = ∑ k : Fin 128, src (ix2 p k) := by
  refine (Ideal.multiReduction_add_single src 0x00000000#32 reduces_S4000x128_S4000 (.inl rfl) rfl (ix1 p)).trans ?_
  refine Finset.sum_congr rfl fun k _ => congrArg src ?_
  funext ax
  apply Fin.ext
  match ax with
  | ⟨0, _⟩ => rfl
  | ⟨1, _⟩ => rfl

/-! ## The body's payloads at an index, over variables of the literal vector types -/

/-- One affine map of the body (its operands narrowed first, which changes nothing at the extended reals): the product
    with the weights plus the bias row, at (p, q). -/
theorem node3_affine_apply (a : FVec Ideal S4000x128 .f32) (w : FVec Ideal S128x128 .f32) (b : FVec Ideal S1x128 .f32) (p : Fin 4000) (q : Fin 128) :
    addf (matmul dot_S4000x128_S128x128_S4000x128_1_0_0_1_n_n none (truncf .bf16 a bitsLt_bf16_f32) (truncf .bf16 w bitsLt_bf16_f32) (constant (F := Ideal) S4000x128 .f32 0x00000000#32))
         (broadcastTo S4000x128 (shapeCast S1x128 b shapeCasts_S1x128_S1x128) broadcasts_S1x128_S4000x128) (ix2 p q)
      = (∑ k : Fin 128, a (ix2 p k) * w (ix2 k q)) + b (ix2 (0 : Fin 1) q) := by
  rw [addf_apply, node3_matmul_apply, broadcastTo_1b_ab_apply, shapeCast_self]
  rfl

/-- The first affine map and its rectifier, on x + aggr, at (p, k): the first hidden layer of the block. -/
theorem node3_layer1_apply (v0 v2 : FVec Ideal S4000x128 .f32) (v5 : FVec Ideal S128x128 .f32) (v6 : FVec Ideal S1x128 .f32) (p : Fin 4000) (k : Fin 128) :
    maximumf
      (addf (matmul dot_S4000x128_S128x128_S4000x128_1_0_0_1_n_n none
          (truncf .bf16 (addf (shapeCast S4000x128 v0 shapeCasts_S4000x128_S4000x128) (shapeCast S4000x128 v2 shapeCasts_S4000x128_S4000x128)) bitsLt_bf16_f32)
          (truncf .bf16 v5 bitsLt_bf16_f32) (constant (F := Ideal) S4000x128 .f32 0x00000000#32))
        (broadcastTo S4000x128 (shapeCast S1x128 v6 shapeCasts_S1x128_S1x128) broadcasts_S1x128_S4000x128))
      (broadcast S4000x128 (FloatOps.ofBits (F := Ideal) .f32 0x00000000#32)) (ix2 p k)
      = hidden1 4000 128 v0 v2 v5 v6 (ix2 p k) := by
  rw [maximumf_apply, node3_affine_apply, shapeCast_self, shapeCast_self, broadcast_apply]
  show max _ (Ideal.ofBits .f32 0x00000000#32) = _
  rw [Ideal.ofBits_zero_f32]
  rfl

/-- The two affine maps of the body at (p, q): the second hidden layer of the block. -/
theorem node3_pay2_apply (v0 v2 : Vec Ideal S4000x128 .f32) (v5 : Vec Ideal S128x128 .f32) (v6 : Vec Ideal S1x128 .f32)
    (v15 : Vec Ideal S128x128 .f32) (v16 : Vec Ideal S1x128 .f32) (p : Fin 4000) (q : Fin 128) :
    k3_pay2 (F := Ideal) v0 v2 v5 v6 v15 v16 (ix2 p q)
      = hidden2 4000 (hidden1 4000 128 v0 v2 v5 v6) v15 v16 (ix2 p q) := by
  unfold k3_pay2
  refine (node3_affine_apply _ v15 v16 p q).trans ?_
  show _ = (∑ k : Fin 128, hidden1 4000 128 v0 v2 v5 v6 (ix2 p k) * v15 (ix2 k q)) + v16 (ix2 (0 : Fin 1) q)
  refine congrArg (· + v16 (ix2 (0 : Fin 1) q)) (Finset.sum_congr rfl fun k _ => congrArg (· * v15 (ix2 k q)) ?_)
  exact node3_layer1_apply v0 v2 v5 v6 p k

/-- … as an equation of blocks. -/
theorem node3_pay2_eq (v0 v2 : Vec Ideal S4000x128 .f32) (v5 : Vec Ideal S128x128 .f32) (v6 : Vec Ideal S1x128 .f32)
    (v15 : Vec Ideal S128x128 .f32) (v16 : Vec Ideal S1x128 .f32) :
    k3_pay2 (F := Ideal) v0 v2 v5 v6 v15 v16 = hidden2 4000 (hidden1 4000 128 v0 v2 v5 v6) v15 v16 := by
  funext j
  obtain ⟨p, q, rfl⟩ : ∃ (p : Fin 4000) (q : Fin 128), j = ix2 p q := ⟨j 0, j 1, eq_ix2 j⟩
  exact node3_pay2_apply v0 v2 v5 v6 v15 v16 p q

/-- The lane sum of a block divided by the splat of 128, kept as a column: the row mean. -/
theorem node3_mean_apply (h : FVec Ideal S4000x128 .f32) (p : Fin 4000) (u : Fin 1) :
    divf (shapeCast S4000x1 (multiReduction (F := Ideal) .add [1] S4000 h 0x00000000#32 reduces_S4000x128_S4000 (.inl rfl) rfl) shapeCasts_S4000_S4000x1)
         (broadcast S4000x1 (FloatOps.ofBits (F := Ideal) .f32 0x43000000#32)) (ix2 p u)
      = rowMean 4000 h p := by
  rw [divf_apply, node3_col_apply, node3_rowsum_apply, broadcast_apply]
  rfl

/-- The body's mean column is the row mean of its second hidden layer. -/
theorem node3_pay5_apply (v0 v2 : Vec Ideal S4000x128 .f32) (v5 : Vec Ideal S128x128 .f32) (v6 : Vec Ideal S1x128 .f32)
    (v15 : Vec Ideal S128x128 .f32) (v16 : Vec Ideal S1x128 .f32) (p : Fin 4000) (u : Fin 1) :
    k3_pay5 (F := Ideal) v0 v2 v5 v6 v15 v16 (ix2 p u) = rowMean 4000 (k3_pay2 (F := Ideal) v0 v2 v5 v6 v15 v16) p := by
  unfold k3_pay5
  exact node3_mean_apply _ p u

/-- The lane sum of the squares of a block centred by a column, kept as a column. -/
theorem node3_sqdev_apply (h : FVec Ideal S4000x128 .f32) (m : FVec Ideal S4000x1 .f32) (p : Fin 4000) (u : Fin 1) :
    shapeCast S4000x1 (multiReduction (F := Ideal) .add [1] S4000
        (mulf (subf h (broadcastTo S4000x128 m broadcasts_S4000x1_S4000x128)) (subf h (broadcastTo S4000x128 m broadcasts_S4000x1_S4000x128)))
        0x00000000#32 reduces_S4000x128_S4000 (.inl rfl) rfl) shapeCasts_S4000_S4000x1 (ix2 p u)
      = ∑ k : Fin 128, (h (ix2 p k) - m (ix2 p (0 : Fin 1))) * (h (ix2 p k) - m (ix2 p (0 : Fin 1))) := by
  rw [node3_col_apply, node3_rowsum_apply]
  refine Finset.sum_congr rfl fun k _ => ?_
  rw [mulf_apply, subf_apply, node3_bcast_col_apply]

/-- The body's column of summed squared deviations, of its second hidden layer about its row mean. -/
theorem node3_pay6_apply (v0 v2 : Vec Ideal S4000x128 .f32) (v5 : Vec Ideal S128x128 .f32) (v6 : Vec Ideal S1x128 .f32)
    (v15 : Vec Ideal S128x128 .f32) (v16 : Vec Ideal S1x128 .f32) (p : Fin 4000) (u : Fin 1) :
    k3_pay6 (F := Ideal) v0 v2 v5 v6 v15 v16 (ix2 p u)
      = ∑ k : Fin 128, (k3_pay2 (F := Ideal) v0 v2 v5 v6 v15 v16 (ix2 p k) - rowMean 4000 (k3_pay2 (F := Ideal) v0 v2 v5 v6 v15 v16) p)
          * (k3_pay2 (F := Ideal) v0 v2 v5 v6 v15 v16 (ix2 p k) - rowMean 4000 (k3_pay2 (F := Ideal) v0 v2 v5 v6 v15 v16) p) := by
  unfold k3_pay6
  refine (node3_sqdev_apply _ _ p u).trans ?_
  rw [node3_pay5_apply]

/-- The normalization at (p, q), from the layer, the scale and shift rows, the mean column, the column of summed squared
    deviations and the feature count. -/
theorem node3_pay1_apply (v22 : FVec Ideal S4000x128 .f32) (v24 v26 : FVec Ideal S1x128 .f32) (v30 v35 : FVec Ideal S4000x1 .f32) (n : Ideal .f32)
    (p : Fin 4000) (q : Fin 128) :
    k3_pay1 (F := Ideal) v22 v24 v26 v30 v35 n (ix2 p q)
      = max ((v22 (ix2 p q) - v30 (ix2 p (0 : Fin 1))) * Ideal.rsqrt (Ideal.div (v35 (ix2 p (0 : Fin 1))) n + cEps) * v24 (ix2 (0 : Fin 1) q)
              + v26 (ix2 (0 : Fin 1) q)) 0 := by
  unfold k3_pay1
  show max ((v22 (ix2 p q) - broadcastTo S4000x128 v30 broadcasts_S4000x1_S4000x128 (ix2 p q))
        * broadcastTo S4000x128 (rsqrt (addf (divf v35 (broadcast S4000x1 n)) (broadcast S4000x1 (FloatOps.ofBits (F := Ideal) .f32 0x3727C5AC#32)))) broadcasts_S4000x1_S4000x128 (ix2 p q)
        * broadcastTo S4000x128 v24 broadcasts_S1x128_S4000x128 (ix2 p q)
        + broadcastTo S4000x128 v26 broadcasts_S1x128_S4000x128 (ix2 p q)) (Ideal.ofBits .f32 0x00000000#32) = _
  rw [node3_bcast_col_apply, node3_bcast_col_apply, broadcastTo_1b_ab_apply, broadcastTo_1b_ab_apply, Ideal.ofBits_zero_f32]
  rfl

/-! ## A row of the node update depends on the same row of x and aggr only

So the update of a 4000-row block, at its row p, is the update of the whole array at the row the block's row p sits on. -/

theorem node3_hidden1_row {N N' : Nat} (x aggr : I2 N 128 → EReal) (x' aggr' : I2 N' 128 → EReal) (w1 : I2 128 128 → EReal) (b1 : I2 1 128 → EReal)
    (r : Fin N) (r' : Fin N') (hx : ∀ k : Fin 128, x (ix2 r k) = x' (ix2 r' k)) (ha : ∀ k : Fin 128, aggr (ix2 r k) = aggr' (ix2 r' k)) (q : Fin 128) :
    hidden1 N 128 x aggr w1 b1 (ix2 r q) = hidden1 N' 128 x' aggr' w1 b1 (ix2 r' q) := by
  show max ((∑ k : Fin 128, (x (ix2 r k) + aggr (ix2 r k)) * w1 (ix2 k q)) + b1 (ix2 0 q)) 0
     = max ((∑ k : Fin 128, (x' (ix2 r' k) + aggr' (ix2 r' k)) * w1 (ix2 k q)) + b1 (ix2 0 q)) 0
  simp only [hx, ha]

theorem node3_hidden2_row {N N' : Nat} (h : I2 N 128 → EReal) (h' : I2 N' 128 → EReal) (w2 : I2 128 128 → EReal) (b2 : I2 1 128 → EReal)
    (r : Fin N) (r' : Fin N') (hh : ∀ k : Fin 128, h (ix2 r k) = h' (ix2 r' k)) (q : Fin 128) :
    hidden2 N h w2 b2 (ix2 r q) = hidden2 N' h' w2 b2 (ix2 r' q) := by
  show (∑ k : Fin 128, h (ix2 r k) * w2 (ix2 k q)) + b2 (ix2 0 q) = (∑ k : Fin 128, h' (ix2 r' k) * w2 (ix2 k q)) + b2 (ix2 0 q)
  simp only [hh]

theorem node3_rowMean_row {N N' : Nat} (h : I2 N 128 → EReal) (h' : I2 N' 128 → EReal)
    (r : Fin N) (r' : Fin N') (hh : ∀ k : Fin 128, h (ix2 r k) = h' (ix2 r' k)) : rowMean N h r = rowMean N' h' r' := by
  unfold rowMean
  simp only [hh]

theorem node3_rowVar_row {N N' : Nat} (h : I2 N 128 → EReal) (h' : I2 N' 128 → EReal)
    (r : Fin N) (r' : Fin N') (hh : ∀ k : Fin 128, h (ix2 r k) = h' (ix2 r' k)) : rowVar N h r = rowVar N' h' r' := by
  unfold rowVar
  rw [node3_rowMean_row h h' r r' hh]
  simp only [hh]

theorem node3_normRelu_row {N N' : Nat} (h : I2 N 128 → EReal) (h' : I2 N' 128 → EReal) (g bt : I2 1 128 → EReal)
    (r : Fin N) (r' : Fin N') (hh : ∀ k : Fin 128, h (ix2 r k) = h' (ix2 r' k)) (q : Fin 128) :
    normRelu N h g bt (ix2 r q) = normRelu N' h' g bt (ix2 r' q) := by
  show max ((h (ix2 r q) - rowMean N h r) * Ideal.rsqrt (rowVar N h r + cEps) * g (ix2 0 q) + bt (ix2 0 q)) 0
     = max ((h' (ix2 r' q) - rowMean N' h' r') * Ideal.rsqrt (rowVar N' h' r' + cEps) * g (ix2 0 q) + bt (ix2 0 q)) 0
  rw [hh q, node3_rowMean_row h h' r r' hh, node3_rowVar_row h h' r r' hh]

theorem node3_nodeUpd_row {N N' : Nat} (x aggr : I2 N 128 → EReal) (x' aggr' : I2 N' 128 → EReal) (w1 : I2 128 128 → EReal) (b1 : I2 1 128 → EReal)
    (w2 : I2 128 128 → EReal) (b2 g bt : I2 1 128 → EReal)
    (r : Fin N) (r' : Fin N') (hx : ∀ k : Fin 128, x (ix2 r k) = x' (ix2 r' k)) (ha : ∀ k : Fin 128, aggr (ix2 r k) = aggr' (ix2 r' k)) (q : Fin 128) :
    nodeUpd N 128 x aggr w1 b1 w2 b2 g bt (ix2 r q) = nodeUpd N' 128 x' aggr' w1 b1 w2 b2 g bt (ix2 r' q) := by
  unfold nodeUpd
  exact node3_normRelu_row _ _ g bt r r'
    (fun k => node3_hidden2_row _ _ w2 b2 r r' (fun k' => node3_hidden1_row x aggr x' aggr' w1 b1 r r' hx ha k') k) q

/-! ## The body's stored payload is the node update of its blocks -/

/-- The whole payload the body stores, at (p, q): the node update of the eight loaded blocks. -/
theorem node3_body_apply (x0 x1 : Vec Ideal S4000x128 .f32) (x2 : Vec Ideal S128x128 .f32) (x3 : Vec Ideal S1x128 .f32)
    (x4 : Vec Ideal S128x128 .f32) (x5 x6 x7 : Vec Ideal S1x128 .f32) (p : Fin 4000) (q : Fin 128) :
    k3_pay1 (F := Ideal) (k3_pay2 x0 x1 x2 x3 x4 x5) (k3_pay3 x6) (k3_pay4 x7) (k3_pay5 x0 x1 x2 x3 x4 x5) (k3_pay6 x0 x1 x2 x3 x4 x5)
        (Scalar.ofBits .f32 0x43000000#32) (ix2 p q)
      = nodeUpd 4000 128 x0 x1 x2 x3 x4 x5 x6 x7 (ix2 p q) := by
  rw [node3_pay1_apply, node3_pay5_apply, node3_pay6_apply, node3_pay2_eq]
  unfold k3_pay3 k3_pay4
  rw [shapeCast_self, shapeCast_self]
  rfl

/-- The same with the blocks named as parts of the whole arrays: the two node blocks row by row (the block's row p is
    the array's row r), the six parameter blocks whole. -/
theorem node3_block_apply
    (X A : I2 200000 128 → EReal) (W1 : I2 128 128 → EReal) (B1 : I2 1 128 → EReal) (W2 : I2 128 128 → EReal) (B2 G BT : I2 1 128 → EReal)
    (x0 x1 : Vec Ideal S4000x128 .f32) (x2 : Vec Ideal S128x128 .f32) (x3 : Vec Ideal S1x128 .f32)
    (x4 : Vec Ideal S128x128 .f32) (x5 x6 x7 : Vec Ideal S1x128 .f32) (p : Fin 4000) (q : Fin 128) (r : Fin 200000)
    (h0 : ∀ k : Fin 128, x0 (ix2 p k) = X (ix2 r k)) (h1 : ∀ k : Fin 128, x1 (ix2 p k) = A (ix2 r k))
    (h2 : x2 = W1) (h3 : x3 = B1) (h4 : x4 = W2) (h5 : x5 = B2) (h6 : x6 = G) (h7 : x7 = BT) :
    k3_pay1 (F := Ideal) (k3_pay2 x0 x1 x2 x3 x4 x5) (k3_pay3 x6) (k3_pay4 x7) (k3_pay5 x0 x1 x2 x3 x4 x5) (k3_pay6 x0 x1 x2 x3 x4 x5)
        (Scalar.ofBits .f32 0x43000000#32) (ix2 p q)
      = nodeUpd 200000 128 X A W1 B1 W2 B2 G BT (ix2 r q) := by
  subst h2 h3 h4 h5 h6 h7
  exact (node3_body_apply x0 x1 x2 x3 x4 x5 x6 x7 p q).trans (node3_nodeUpd_row x0 x1 X A x2 x3 x4 x5 x6 x7 p r h0 h1 q)

-- the TensorCore's buffer contents when the region is entered, at the extended reals
variable (V : (c : Dev nD) → (b : Ref sig .tc) → Buf (Elt Ideal) ((c : Thread nD τ).loc b))

/-! ## From blocks to the array -/

theorem node3_hz : (![0, 0] : Fin 2 → Nat) = fun _ => 0 := funext fun a => by fin_cases a <;> rfl

/-- The printed index maps, decided over the 50 grid points: the two node windows and the output window are at block
    (t, 0), the six parameter windows at block (0, 0). -/
theorem node3_idx_facts : ∀ t : Fin cfg3.N,
      win3_0.index t (0 : Fin 2) = t.val ∧ win3_0.index t (1 : Fin 2) = 0
    ∧ win3_1.index t (0 : Fin 2) = t.val ∧ win3_1.index t (1 : Fin 2) = 0
    ∧ win3_8.index t (0 : Fin 2) = t.val ∧ win3_8.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-! A parameter window's block is its whole array at every point. -/

theorem node3_blk2 (c : Dev nD) (t : Fin cfg3.N) : (iblk3 V c 2 t : S128x128.Idx → EReal) = V c main_arg14 := by
  have e := node3_idx_facts t
  have e0 : win3_2.index t (0 : Fin 2) = 0 := by tauto
  have e1 : win3_2.index t (1 : Fin 2) = 0 := by tauto
  funext j
  show V c main_arg14 (((cfg3.win 2).blk t).view.emb j) = V c main_arg14 j
  refine congrArg _ (funext fun a => Fin.ext ?_)
  match a with
  | ⟨0, _⟩ => show win3_2.index t (0 : Fin 2) * 128 + 1 * (j 0).val = (j 0).val; omega
  | ⟨1, _⟩ => show win3_2.index t (1 : Fin 2) * 128 + 1 * (j 1).val = (j 1).val; omega

theorem node3_blk3 (c : Dev nD) (t : Fin cfg3.N) : (iblk3 V c 3 t : S1x128.Idx → EReal) = V c main_v33 := by
  have e := node3_idx_facts t
  have e0 : win3_3.index t (0 : Fin 2) = 0 := by tauto
  have e1 : win3_3.index t (1 : Fin 2) = 0 := by tauto
  funext j
  show V c main_v33 (((cfg3.win 3).blk t).view.emb j) = V c main_v33 j
  refine congrArg _ (funext fun a => Fin.ext ?_)
  match a with
  | ⟨0, _⟩ => show win3_3.index t (0 : Fin 2) * 1 + 1 * (j 0).val = (j 0).val; omega
  | ⟨1, _⟩ => show win3_3.index t (1 : Fin 2) * 128 + 1 * (j 1).val = (j 1).val; omega

theorem node3_blk4 (c : Dev nD) (t : Fin cfg3.N) : (iblk3 V c 4 t : S128x128.Idx → EReal) = V c main_arg16 := by
  have e := node3_idx_facts t
  have e0 : win3_4.index t (0 : Fin 2) = 0 := by tauto
  have e1 : win3_4.index t (1 : Fin 2) = 0 := by tauto
  funext j
  show V c main_arg16 (((cfg3.win 4).blk t).view.emb j) = V c main_arg16 j
  refine congrArg _ (funext fun a => Fin.ext ?_)
  match a with
  | ⟨0, _⟩ => show win3_4.index t (0 : Fin 2) * 128 + 1 * (j 0).val = (j 0).val; omega
  | ⟨1, _⟩ => show win3_4.index t (1 : Fin 2) * 128 + 1 * (j 1).val = (j 1).val; omega

theorem node3_blk5 (c : Dev nD) (t : Fin cfg3.N) : (iblk3 V c 5 t : S1x128.Idx → EReal) = V c main_v34 := by
  have e := node3_idx_facts t
  have e0 : win3_5.index t (0 : Fin 2) = 0 := by tauto
  have e1 : win3_5.index t (1 : Fin 2) = 0 := by tauto
  funext j
  show V c main_v34 (((cfg3.win 5).blk t).view.emb j) = V c main_v34 j
  refine congrArg _ (funext fun a => Fin.ext ?_)
  match a with
  | ⟨0, _⟩ => show win3_5.index t (0 : Fin 2) * 1 + 1 * (j 0).val = (j 0).val; omega
  | ⟨1, _⟩ => show win3_5.index t (1 : Fin 2) * 128 + 1 * (j 1).val = (j 1).val; omega

theorem node3_blk6 (c : Dev nD) (t : Fin cfg3.N) : (iblk3 V c 6 t : S1x128.Idx → EReal) = V c main_v35 := by
  have e := node3_idx_facts t
  have e0 : win3_6.index t (0 : Fin 2) = 0 := by tauto
  have e1 : win3_6.index t (1 : Fin 2) = 0 := by tauto
  funext j
  show V c main_v35 (((cfg3.win 6).blk t).view.emb j) = V c main_v35 j
  refine congrArg _ (funext fun a => Fin.ext ?_)
  match a with
  | ⟨0, _⟩ => show win3_6.index t (0 : Fin 2) * 1 + 1 * (j 0).val = (j 0).val; omega
  | ⟨1, _⟩ => show win3_6.index t (1 : Fin 2) * 128 + 1 * (j 1).val = (j 1).val; omega

theorem node3_blk7 (c : Dev nD) (t : Fin cfg3.N) : (iblk3 V c 7 t : S1x128.Idx → EReal) = V c main_v36 := by
  have e := node3_idx_facts t
  have e0 : win3_7.index t (0 : Fin 2) = 0 := by tauto
  have e1 : win3_7.index t (1 : Fin 2) = 0 := by tauto
  funext j
  show V c main_v36 (((cfg3.win 7).blk t).view.emb j) = V c main_v36 j
  refine congrArg _ (funext fun a => Fin.ext ?_)
  match a with
  | ⟨0, _⟩ => show win3_7.index t (0 : Fin 2) * 1 + 1 * (j 0).val = (j 0).val; omega
  | ⟨1, _⟩ => show win3_7.index t (1 : Fin 2) * 128 + 1 * (j 1).val = (j 1).val; omega

/-- What point t writes back is block t of the node update of the entry arrays: the block's row p is the arrays' row
    4000 t + p. -/
theorem node3_flushed_eq (c : Dev nD) (t : Fin cfg3.N) :
    (dat3 V c).flushed 8 t = ((cfg3.win 8).blk t).view.read (Elt Ideal)
      (nodeUpd 200000 128 (V c main_v20) (V c main_v32) (V c main_arg14) (V c main_v33) (V c main_arg16) (V c main_v34) (V c main_v35) (V c main_v36)) := by
  show (cfg3.win 8).cut (grid3.coords t) ((dat3 V c).after 8 t) = _
  rw [after3_8]
  unfold out3_8
  rw [View.canon_unit_zero node3_hz]
  simp only [View.ld_unit_zero (S := S4000x128) node3_hz, View.ld_unit_zero (S := S128x128) node3_hz, View.ld_unit_zero (S := S1x128) node3_hz]
  obtain ⟨e00, e01, e10, e11, e80, e81, -⟩ := node3_idx_facts t
  have ht : t.val < 50 := lt_of_lt_of_eq t.isLt N_3
  funext j
  obtain ⟨p, q, rfl⟩ : ∃ (p : Fin 4000) (q : Fin 128), j = ix2 p q := ⟨j 0, j 1, eq_ix2 j⟩
  have hp : p.val < 4000 := p.isLt
  refine (node3_block_apply (V c main_v20) (V c main_v32) (V c main_arg14) (V c main_v33) (V c main_arg16) (V c main_v34) (V c main_v35) (V c main_v36)
      (iblk3 V c 0 t) (iblk3 V c 1 t) (iblk3 V c 2 t) (iblk3 V c 3 t) (iblk3 V c 4 t) (iblk3 V c 5 t) (iblk3 V c 6 t) (iblk3 V c 7 t)
      p q ⟨t.val * 4000 + p.val, by omega⟩ ?_ ?_ (node3_blk2 V c t) (node3_blk3 V c t) (node3_blk4 V c t) (node3_blk5 V c t) (node3_blk6 V c t) (node3_blk7 V c t)).trans ?_
  · intro k
    show V c main_v20 (((cfg3.win 0).blk t).view.emb (ix2 p k)) = V c main_v20 (ix2 ⟨t.val * 4000 + p.val, _⟩ k)
    refine congrArg _ (funext fun a => Fin.ext ?_)
    match a with
    | ⟨0, _⟩ => show win3_0.index t (0 : Fin 2) * 4000 + 1 * p.val = t.val * 4000 + p.val; omega
    | ⟨1, _⟩ => show win3_0.index t (1 : Fin 2) * 128 + 1 * k.val = k.val; omega
  · intro k
    show V c main_v32 (((cfg3.win 1).blk t).view.emb (ix2 p k)) = V c main_v32 (ix2 ⟨t.val * 4000 + p.val, _⟩ k)
    refine congrArg _ (funext fun a => Fin.ext ?_)
    match a with
    | ⟨0, _⟩ => show win3_1.index t (0 : Fin 2) * 4000 + 1 * p.val = t.val * 4000 + p.val; omega
    | ⟨1, _⟩ => show win3_1.index t (1 : Fin 2) * 128 + 1 * k.val = k.val; omega
  · show _ = (nodeUpd 200000 128 (V c main_v20) (V c main_v32) (V c main_arg14) (V c main_v33) (V c main_arg16) (V c main_v34) (V c main_v35) (V c main_v36)) (((cfg3.win 8).blk t).view.emb (ix2 p q))
    refine congrArg _ (funext fun a => Fin.ext ?_)
    match a with
    | ⟨0, _⟩ => show t.val * 4000 + p.val = win3_8.index t (0 : Fin 2) * 4000 + 1 * p.val; omega
    | ⟨1, _⟩ => show q.val = win3_8.index t (1 : Fin 2) * 128 + 1 * q.val; omega

/-- An index of the array is in point t's block iff each coordinate is in the block's range on its axis. -/
theorem node3_mem_blk (t : Fin cfg3.N) (i : S200000x128.Idx) :
    i ∈ ((cfg3.win 8).blk t).view.set ↔ ∀ a : Fin 2, win3_8.index t a * S4000x128.size a ≤ (i a).val ∧ (i a).val < win3_8.index t a * S4000x128.size a + S4000x128.size a := by
  show i ∈ ((View.whole main_v37).slice (win3_8.rect t)).set ↔ _
  rw [View.set_slice_whole, Rect.mem_set_unit]
  exact Iff.rfl

/-- The 50 blocks tile the array: row r is in the block of point r / 4000. -/
theorem node3_cover (i : S200000x128.Idx) :
    ∃ t : Fin cfg3.N, (cfg3.win 8).flush t = true ∧ i ∈ ((cfg3.win 8).blk t).view.set := by
  have hi0 : (i 0).val < 200000 := (i 0).isLt
  have hi1 : (i 1).val < 128 := (i 1).isLt
  have hlt : (i 0).val / 4000 < cfg3.N := lt_of_lt_of_eq (show (i 0).val / 4000 < 50 by omega) N_3.symm
  obtain ⟨-, -, -, -, e80, e81, -⟩ := node3_idx_facts ⟨(i 0).val / 4000, hlt⟩
  have e80' : win3_8.index ⟨(i 0).val / 4000, hlt⟩ (0 : Fin 2) = (i 0).val / 4000 := e80
  refine ⟨⟨(i 0).val / 4000, hlt⟩, flush3_8 _, ?_⟩
  rw [node3_mem_blk]
  intro a
  match a with
  | ⟨0, _⟩ =>
    show win3_8.index ⟨(i 0).val / 4000, hlt⟩ (0 : Fin 2) * 4000 ≤ (i 0).val ∧ (i 0).val < win3_8.index ⟨(i 0).val / 4000, hlt⟩ (0 : Fin 2) * 4000 + 4000
    omega
  | ⟨1, _⟩ =>
    show win3_8.index ⟨(i 0).val / 4000, hlt⟩ (1 : Fin 2) * 128 ≤ (i 1).val ∧ (i 1).val < win3_8.index ⟨(i 0).val / 4000, hlt⟩ (1 : Fin 2) * 128 + 128
    omega

/-- After region 3 the node array holds the layer's node update of the entry arrays: every grid point writes its
    4000-node block of that one whole-array function (a row of the result depends on the same row of x and aggr only),
    and the 50 blocks tile the array. -/
theorem node3_value (c : Dev nD) :
    (dat3 V c).arrAt 8 cfg3.N
      = nodeUpd 200000 128 (V c main_v20) (V c main_v32) (V c main_arg14) (V c main_v33) (V c main_arg16) (V c main_v34) (V c main_v35) (V c main_v36) :=
  (dat3 V c).arrAt_eq_of_cover 8
    (nodeUpd 200000 128 (V c main_v20) (V c main_v32) (V c main_arg14) (V c main_v33) (V c main_arg16) (V c main_v34) (V c main_v35) (V c main_v36))
    (fun t _ => node3_flushed_eq V c t) node3_cover

end Cert.KernelIdeal.RegionValue

end
-- ==== Proof.KEdge4.lean ====
/-
  Region 4 (the third layer's edge messages, 128 features) read as a value.
-/
import proofs.«409793_j85925115724498_1_alg».proof.Proof.Gen.KernelIdeal.Frame
import proofs.«409793_j85925115724498_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-- An [a, 1] column broadcast to [a, b] reads, at (p, c), the column's entry in row p. -/
theorem edge4_broadcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at edge p of the block and feature q: the rectified sum of the source row's entry and the
    encoded attribute a[p] · w[q] + b[q]. -/
theorem edge4_pay_apply (x0 : Vec Ideal S8000x1 .f32) (x1 : Vec Ideal S8000x128 .f32) (x2 x3 : Vec Ideal S1x128 .f32)
    (p : Fin 8000) (q : Fin 128) :
    k4_pay1 x0 x1 x2 x3 (ix2 p q)
      = max (x1 (ix2 p q) + (x0 (ix2 p 0) * x2 (ix2 0 q) + x3 (ix2 0 q))) 0 := by
  unfold k4_pay1
  show max (shapeCast S8000x128 x1 shapeCasts_S8000x128_S8000x128 (ix2 p q)
        + (broadcastTo S8000x128 x0 broadcasts_S8000x1_S8000x128 (ix2 p q)
            * broadcastTo S8000x128 x2 broadcasts_S1x128_S8000x128 (ix2 p q)
           + broadcastTo S8000x128 (shapeCast S1x128 x3 shapeCasts_S1x128_S1x128) broadcasts_S1x128_S8000x128 (ix2 p q)))
      (Ideal.ofBits .f32 0#32) = _
  rw [shapeCast_self x1, shapeCast_self x3, edge4_broadcast_col x0, broadcastTo_1b_ab_apply x2,
    broadcastTo_1b_ab_apply x3, Ideal.ofBits_zero_f32]

/-- One point of one block: if the four loaded blocks read, at (p, q), what the four arrays hold at the array index i
    (the attribute at row i 0, the source row at i, the weight and bias rows at column i 1), the payload there is the
    edge message at i. -/
theorem edge4_point (a : S400000x1.Idx → EReal) (xs : S400000x128.Idx → EReal) (w b : S1x128.Idx → EReal)
    (x0 : Vec Ideal S8000x1 .f32) (x1 : Vec Ideal S8000x128 .f32) (x2 x3 : Vec Ideal S1x128 .f32)
    (p : Fin 8000) (q : Fin 128) (i : S400000x128.Idx)
    (h0 : x0 (ix2 p 0) = a (ix2 (i 0) 0)) (h1 : x1 (ix2 p q) = xs i)
    (h2 : x2 (ix2 0 q) = w (ix2 0 (i 1))) (h3 : x3 (ix2 0 q) = b (ix2 0 (i 1))) :
    k4_pay1 x0 x1 x2 x3 (ix2 p q) = edgeMsg 400000 128 a xs w b i := by
  rw [edge4_pay_apply, h0, h1, h2, h3]
  rfl

-- the TensorCore's buffer contents when the region is entered, at the extended reals
variable (V : (c : Dev nD) → (b : Ref sig .tc) → Buf (Elt Ideal) ((c : Thread nD τ).loc b))

/-- The zero offsets of a whole-block access, however spelt. -/
theorem edge4_hz : (![0, 0] : Fin 2 → Nat) = fun _ => 0 := funext fun a => by fin_cases a <;> rfl

/-- The printed index maps over the 50 grid points: the edge-attribute, source-row and output windows sit at block
    (t, 0); the weight and bias rows at block (0, 0). -/
theorem edge4_idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What grid point t writes back is block t of the edge-message function of the four arrays as the region finds
    them: the one whole-block store leaves the payload, and each loaded block reads its array where the output block's
    rectangle says. -/
theorem edge4_flushed_eq (c : Dev nD) (t : Fin cfg4.N) :
    (dat4 V c).flushed 4 t = ((cfg4.win 4).blk t).view.read (Elt Ideal)
      (edgeMsg 400000 128 (V c main_arg2) (V c main_v44) (V c main_arg20) (V c main_v45)) := by
  show (cfg4.win 4).cut (grid4.coords t) ((dat4 V c).after 4 t) = _
  rw [after4_4]
  unfold out4_4
  rw [View.canon_unit_zero edge4_hz]
  simp only [View.ld_unit_zero (S := S8000x1) edge4_hz, View.ld_unit_zero (S := S8000x128) edge4_hz, View.ld_unit_zero (S := S1x128) edge4_hz]
  funext j
  obtain ⟨e00, e01, e10, e11, e20, e21, e30, e31, e40, e41⟩ := edge4_idx_facts t
  have hp : (j 0).val < 8000 := (j 0).isLt
  have hq : (j 1).val < 128 := (j 1).isLt
  show k4_pay1 (iblk4 V c 0 t) (iblk4 V c 1 t) (iblk4 V c 2 t) (iblk4 V c 3 t) j
    = edgeMsg 400000 128 (V c main_arg2) (V c main_v44) (V c main_arg20) (V c main_v45) (((cfg4.win 4).blk t).view.emb j)
  refine (congrArg (k4_pay1 (iblk4 V c 0 t) (iblk4 V c 1 t) (iblk4 V c 2 t) (iblk4 V c 3 t))
    (eq_ix2 (n0 := 8000) (n1 := 128) j)).trans ?_
  refine edge4_point (V c main_arg2) (V c main_v44) (V c main_arg20) (V c main_v45)
    (iblk4 V c 0 t) (iblk4 V c 1 t) (iblk4 V c 2 t) (iblk4 V c 3 t) (j 0) (j 1) (((cfg4.win 4).blk t).view.emb j) ?_ ?_ ?_ ?_
  · show V c main_arg2 (((cfg4.win 0).blk t).view.emb (ix2 (j 0) 0))
      = V c main_arg2 (ix2 ((((cfg4.win 4).blk t).view.emb j) 0) 0)
    refine congrArg (V c main_arg2) (funext fun a => Fin.ext ?_)
    match a with
    | ⟨0, _⟩ =>
      show win4_0.index t (0 : Fin 2) * 8000 + 1 * (j 0).val = win4_4.index t (0 : Fin 2) * 8000 + 1 * (j 0).val
      omega
    | ⟨1, _⟩ => show win4_0.index t (1 : Fin 2) * 1 + 1 * 0 = 0; omega
  · show V c main_v44 (((cfg4.win 1).blk t).view.emb (ix2 (j 0) (j 1)))
      = V c main_v44 (((cfg4.win 4).blk t).view.emb j)
    refine congrArg (V c main_v44) (funext fun a => Fin.ext ?_)
    match a with
    | ⟨0, _⟩ =>
      show win4_1.index t (0 : Fin 2) * 8000 + 1 * (j 0).val = win4_4.index t (0 : Fin 2) * 8000 + 1 * (j 0).val
      omega
    | ⟨1, _⟩ =>
      show win4_1.index t (1 : Fin 2) * 128 + 1 * (j 1).val = win4_4.index t (1 : Fin 2) * 128 + 1 * (j 1).val
      omega
  · show V c main_arg20 (((cfg4.win 2).blk t).view.emb (ix2 0 (j 1)))
      = V c main_arg20 (ix2 0 ((((cfg4.win 4).blk t).view.emb j) 1))
    refine congrArg (V c main_arg20) (funext fun a => Fin.ext ?_)
    match a with
    | ⟨0, _⟩ => show win4_2.index t (0 : Fin 2) * 1 + 1 * 0 = 0; omega
    | ⟨1, _⟩ =>
      show win4_2.index t (1 : Fin 2) * 128 + 1 * (j 1).val = win4_4.index t (1 : Fin 2) * 128 + 1 * (j 1).val
      omega
  · show V c main_v45 (((cfg4.win 3).blk t).view.emb (ix2 0 (j 1)))
      = V c main_v45 (ix2 0 ((((cfg4.win 4).blk t).view.emb j) 1))
    refine congrArg (V c main_v45) (funext fun a => Fin.ext ?_)
    match a with
    | ⟨0, _⟩ => show win4_3.index t (0 : Fin 2) * 1 + 1 * 0 = 0; omega
    | ⟨1, _⟩ =>
      show win4_3.index t (1 : Fin 2) * 128 + 1 * (j 1).val = win4_4.index t (1 : Fin 2) * 128 + 1 * (j 1).val
      omega

/-- An index of the message array is in point t's block iff each coordinate lies in the block's range on its axis. -/
theorem edge4_mem_blk (t : Fin cfg4.N) (i : S400000x128.Idx) :
    i ∈ ((cfg4.win 4).blk t).view.set ↔ ∀ a : Fin 2, win4_4.index t a * S8000x128.size a ≤ (i a).val
      ∧ (i a).val < win4_4.index t a * S8000x128.size a + S8000x128.size a := by
  show i ∈ ((View.whole main_v46).slice (win4_4.rect t)).set ↔ _
  rw [View.set_slice_whole, Rect.mem_set_unit]
  exact Iff.rfl

/-- The 50 blocks of 8000 edges tile the 400000 edges: edge r lies in the block of point r / 8000. -/
theorem edge4_cover (i : S400000x128.Idx) :
    ∃ t : Fin cfg4.N, (cfg4.win 4).flush t = true ∧ i ∈ ((cfg4.win 4).blk t).view.set := by
  have hi0 : (i 0).val < 400000 := (i 0).isLt
  have hi1 : (i 1).val < 128 := (i 1).isLt
  have hlt : (i 0).val / 8000 < cfg4.N := by
    have hN : cfg4.N = 50 := N_4
    omega
  obtain ⟨-, -, -, -, -, -, -, -, e40, e41⟩ := edge4_idx_facts ⟨(i 0).val / 8000, hlt⟩
  refine ⟨⟨(i 0).val / 8000, hlt⟩, flush4_4 _, ?_⟩
  rw [edge4_mem_blk]
  intro a
  match a with
  | ⟨0, _⟩ =>
    show win4_4.index ⟨(i 0).val / 8000, hlt⟩ (0 : Fin 2) * 8000 ≤ (i 0).val
      ∧ (i 0).val < win4_4.index ⟨(i 0).val / 8000, hlt⟩ (0 : Fin 2) * 8000 + 8000
    have e : win4_4.index ⟨(i 0).val / 8000, hlt⟩ (0 : Fin 2) = (i 0).val / 8000 := e40
    omega
  | ⟨1, _⟩ =>
    show win4_4.index ⟨(i 0).val / 8000, hlt⟩ (1 : Fin 2) * 128 ≤ (i 1).val
      ∧ (i 1).val < win4_4.index ⟨(i 0).val / 8000, hlt⟩ (1 : Fin 2) * 128 + 128
    omega

/-- After region 4 the message array holds, at edge e and feature d, the rectified sum of the gathered source row and
    the encoded edge attribute: every grid point writes its 8000-edge block of that one whole-array function, and the 50
    blocks tile the array. -/
theorem edge4_value (c : Dev nD) :
    (dat4 V c).arrAt 4 cfg4.N
      = edgeMsg 400000 128 (V c main_arg2) (V c main_v44) (V c main_arg20) (V c main_v45) :=
  (dat4 V c).arrAt_eq_of_cover 4 _ (fun t _ => edge4_flushed_eq V c t) edge4_cover

end Cert.KernelIdeal.RegionValue

end
-- ==== Proof.KNode5.lean ====
/-
  Region 5 (the third layer's node update) read as a value.
-/
import proofs.«409793_j85925115724498_1_alg».proof.Proof.Gen.KernelIdeal.Frame
import proofs.«409793_j85925115724498_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! ## The matrix-unit product at an index

The product contracts the left operand's axis 1 with the right operand's axis 0, so at output index (p, q) and
contraction position k the operands are read at (p, k) and (k, q). -/

/-- The left operand's row is the output's row. -/
theorem node5_lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column is the contraction position. -/
theorem node5_lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row is the contraction position. -/
theorem node5_rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column is the output's column. -/
theorem node5_rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000,128] by [128,128] product into the zero accumulator, at (p, q): the sum over k of a[p,k] · w[k,q]. -/
theorem node5_matmul_apply {φ₁ φ₂ : FTy} (a : FVec Ideal S4000x128 φ₁) (w : FVec Ideal S128x128 φ₂) (p : Fin 4000) (q : Fin 128) :
    matmul dot_S4000x128_S128x128_S4000x128_1_0_0_1_n_n none a w (constant (F := Ideal) S4000x128 .f32 0x00000000#32) (ix2 p q)
      = ∑ k : Fin 128, a (ix2 p k) * w (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun ax => Fin.ext (by
    match ax with
    | ⟨0, _⟩ => exact node5_lhs_0 _ _
    | ⟨1, _⟩ => exact (node5_lhs_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun ax => Fin.ext (by
    match ax with
    | ⟨0, _⟩ => exact (node5_rhs_0 _ _).trans hk
    | ⟨1, _⟩ => exact node5_rhs_1 _ _)
  rw [el, er]

/-! ## The column layouts and the lane sum at an index -/

/-- A length-4000 vector cast to the one column of a [4000,1] array reads, at (p, u), the vector at p. -/
theorem node5_col_apply {α : Type} (x : S4000.Idx → α) (h : S4000.ShapeCasts S4000x1) (p : Fin 4000) (u : Fin 1) :
    shapeCast S4000x1 x h (ix2 p u) = x (ix1 p) :=
  shapeCast_apply x h _ _ (by
    have hu : u.val = 0 := by omega
    rw [Shape.rowMajor_val_two, Shape.rowMajor_val_one]
    show p.val = p.val * 1 + u.val
    omega)

/-- A [4000,1] column broadcast over 128 lanes reads, at (p, q), the column at row p. -/
theorem node5_bcast_col_apply {α : Type} (v : S4000x1.Idx → α) (h : S4000x1.Broadcasts S4000x128) (p : Fin 4000) (q : Fin 128) :
    broadcastTo S4000x128 v h (ix2 p q) = v (ix2 p (0 : Fin 1)) := by
  refine broadcastTo_apply v h (ix2 p q) (ix2 p (0 : Fin 1)) fun ax => ?_
  match ax with
  | ⟨0, _⟩ =>
    show p.val = if (4000 : Nat) = 1 then 0 else p.val
    rw [if_neg (by decide)]
  | ⟨1, _⟩ => rfl

/-- The sum over the 128 lanes of a [4000,128] block, at row p. -/
theorem node5_rowsum_apply (src : FVec Ideal S4000x128 .f32) (p : Fin 4000) :
    multiReduction (F := Ideal) .add [1] S4000 src 0x00000000#32 reduces_S4000x128_S4000 (.inl rfl) rfl (ix1 p)
      = ∑ k : Fin 128, src (ix2 p k) := by
  refine (Ideal.multiReduction_add_single src 0x00000000#32 reduces_S4000x128_S4000 (.inl rfl) rfl (ix1 p)).trans ?_
  refine Finset.sum_congr rfl fun k _ => congrArg src ?_
  funext ax
  apply Fin.ext
  match ax with
  | ⟨0, _⟩ => rfl
  | ⟨1, _⟩ => rfl

/-! ## The body's payloads at an index, over variables of the literal vector types -/

/-- One affine map of the body (its operands narrowed first, which changes nothing at the extended reals): the product
    with the weights plus the bias row, at (p, q). -/
theorem node5_affine_apply (a : FVec Ideal S4000x128 .f32) (w : FVec Ideal S128x128 .f32) (b : FVec Ideal S1x128 .f32) (p : Fin 4000) (q : Fin 128) :
    addf (matmul dot_S4000x128_S128x128_S4000x128_1_0_0_1_n_n none (truncf .bf16 a bitsLt_bf16_f32) (truncf .bf16 w bitsLt_bf16_f32) (constant (F := Ideal) S4000x128 .f32 0x00000000#32))
         (broadcastTo S4000x128 (shapeCast S1x128 b shapeCasts_S1x128_S1x128) broadcasts_S1x128_S4000x128) (ix2 p q)
      = (∑ k : Fin 128, a (ix2 p k) * w (ix2 k q)) + b (ix2 (0 : Fin 1) q) := by
  rw [addf_apply, node5_matmul_apply, broadcastTo_1b_ab_apply, shapeCast_self]
  rfl

/-- The first affine map and its rectifier, on x + aggr, at (p, k): the first hidden layer of the block. -/
theorem node5_layer1_apply (v0 v2 : FVec Ideal S4000x128 .f32) (v5 : FVec Ideal S128x128 .f32) (v6 : FVec Ideal S1x128 .f32) (p : Fin 4000) (k : Fin 128) :
    maximumf
      (addf (matmul dot_S4000x128_S128x128_S4000x128_1_0_0_1_n_n none
          (truncf .bf16 (addf (shapeCast S4000x128 v0 shapeCasts_S4000x128_S4000x128) (shapeCast S4000x128 v2 shapeCasts_S4000x128_S4000x128)) bitsLt_bf16_f32)
          (truncf .bf16 v5 bitsLt_bf16_f32) (constant (F := Ideal) S4000x128 .f32 0x00000000#32))
        (broadcastTo S4000x128 (shapeCast S1x128 v6 shapeCasts_S1x128_S1x128) broadcasts_S1x128_S4000x128))
      (broadcast S4000x128 (FloatOps.ofBits (F := Ideal) .f32 0x00000000#32)) (ix2 p k)
      = hidden1 4000 128 v0 v2 v5 v6 (ix2 p k) := by
  rw [maximumf_apply, node5_affine_apply, shapeCast_self, shapeCast_self, broadcast_apply]
  show max _ (Ideal.ofBits .f32 0x00000000#32) = _
  rw [Ideal.ofBits_zero_f32]
  rfl

/-- The two affine maps of the body at (p, q): the second hidden layer of the block. -/
theorem node5_pay2_apply (v0 v2 : Vec Ideal S4000x128 .f32) (v5 : Vec Ideal S128x128 .f32) (v6 : Vec Ideal S1x128 .f32)
    (v15 : Vec Ideal S128x128 .f32) (v16 : Vec Ideal S1x128 .f32) (p : Fin 4000) (q : Fin 128) :
    k5_pay2 (F := Ideal) v0 v2 v5 v6 v15 v16 (ix2 p q)
      = hidden2 4000 (hidden1 4000 128 v0 v2 v5 v6) v15 v16 (ix2 p q) := by
  unfold k5_pay2
  refine (node5_affine_apply _ v15 v16 p q).trans ?_
  show _ = (∑ k : Fin 128, hidden1 4000 128 v0 v2 v5 v6 (ix2 p k) * v15 (ix2 k q)) + v16 (ix2 (0 : Fin 1) q)
  refine congrArg (· + v16 (ix2 (0 : Fin 1) q)) (Finset.sum_congr rfl fun k _ => congrArg (· * v15 (ix2 k q)) ?_)
  exact node5_layer1_apply v0 v2 v5 v6 p k

/-- … as an equation of blocks. -/
theorem node5_pay2_eq (v0 v2 : Vec Ideal S4000x128 .f32) (v5 : Vec Ideal S128x128 .f32) (v6 : Vec Ideal S1x128 .f32)
    (v15 : Vec Ideal S128x128 .f32) (v16 : Vec Ideal S1x128 .f32) :
    k5_pay2 (F := Ideal) v0 v2 v5 v6 v15 v16 = hidden2 4000 (hidden1 4000 128 v0 v2 v5 v6) v15 v16 := by
  funext j
  obtain ⟨p, q, rfl⟩ : ∃ (p : Fin 4000) (q : Fin 128), j = ix2 p q := ⟨j 0, j 1, eq_ix2 j⟩
  exact node5_pay2_apply v0 v2 v5 v6 v15 v16 p q

/-- The lane sum of a block divided by the splat of 128, kept as a column: the row mean. -/
theorem node5_mean_apply (h : FVec Ideal S4000x128 .f32) (p : Fin 4000) (u : Fin 1) :
    divf (shapeCast S4000x1 (multiReduction (F := Ideal) .add [1] S4000 h 0x00000000#32 reduces_S4000x128_S4000 (.inl rfl) rfl) shapeCasts_S4000_S4000x1)
         (broadcast S4000x1 (FloatOps.ofBits (F := Ideal) .f32 0x43000000#32)) (ix2 p u)
      = rowMean 4000 h p := by
  rw [divf_apply, node5_col_apply, node5_rowsum_apply, broadcast_apply]
  rfl

/-- The body's mean column is the row mean of its second hidden layer. -/
theorem node5_pay5_apply (v0 v2 : Vec Ideal S4000x128 .f32) (v5 : Vec Ideal S128x128 .f32) (v6 : Vec Ideal S1x128 .f32)
    (v15 : Vec Ideal S128x128 .f32) (v16 : Vec Ideal S1x128 .f32) (p : Fin 4000) (u : Fin 1) :
    k5_pay5 (F := Ideal) v0 v2 v5 v6 v15 v16 (ix2 p u) = rowMean 4000 (k5_pay2 (F := Ideal) v0 v2 v5 v6 v15 v16) p := by
  unfold k5_pay5
  exact node5_mean_apply _ p u

/-- The lane sum of the squares of a block centred by a column, kept as a column. -/
theorem node5_sqdev_apply (h : FVec Ideal S4000x128 .f32) (m : FVec Ideal S4000x1 .f32) (p : Fin 4000) (u : Fin 1) :
    shapeCast S4000x1 (multiReduction (F := Ideal) .add [1] S4000
        (mulf (subf h (broadcastTo S4000x128 m broadcasts_S4000x1_S4000x128)) (subf h (broadcastTo S4000x128 m broadcasts_S4000x1_S4000x128)))
        0x00000000#32 reduces_S4000x128_S4000 (.inl rfl) rfl) shapeCasts_S4000_S4000x1 (ix2 p u)
      = ∑ k : Fin 128, (h (ix2 p k) - m (ix2 p (0 : Fin 1))) * (h (ix2 p k) - m (ix2 p (0 : Fin 1))) := by
  rw [node5_col_apply, node5_rowsum_apply]
  refine Finset.sum_congr rfl fun k _ => ?_
  rw [mulf_apply, subf_apply, node5_bcast_col_apply]

/-- The body's column of summed squared deviations, of its second hidden layer about its row mean. -/
theorem node5_pay6_apply (v0 v2 : Vec Ideal S4000x128 .f32) (v5 : Vec Ideal S128x128 .f32) (v6 : Vec Ideal S1x128 .f32)
    (v15 : Vec Ideal S128x128 .f32) (v16 : Vec Ideal S1x128 .f32) (p : Fin 4000) (u : Fin 1) :
    k5_pay6 (F := Ideal) v0 v2 v5 v6 v15 v16 (ix2 p u)
      = ∑ k : Fin 128, (k5_pay2 (F := Ideal) v0 v2 v5 v6 v15 v16 (ix2 p k) - rowMean 4000 (k5_pay2 (F := Ideal) v0 v2 v5 v6 v15 v16) p)
          * (k5_pay2 (F := Ideal) v0 v2 v5 v6 v15 v16 (ix2 p k) - rowMean 4000 (k5_pay2 (F := Ideal) v0 v2 v5 v6 v15 v16) p) := by
  unfold k5_pay6
  refine (node5_sqdev_apply _ _ p u).trans ?_
  rw [node5_pay5_apply]

/-- The normalization at (p, q), from the layer, the scale and shift rows, the mean column, the column of summed squared
    deviations and the feature count. -/
theorem node5_pay1_apply (v22 : FVec Ideal S4000x128 .f32) (v24 v26 : FVec Ideal S1x128 .f32) (v30 v35 : FVec Ideal S4000x1 .f32) (n : Ideal .f32)
    (p : Fin 4000) (q : Fin 128) :
    k5_pay1 (F := Ideal) v22 v24 v26 v30 v35 n (ix2 p q)
      = max ((v22 (ix2 p q) - v30 (ix2 p (0 : Fin 1))) * Ideal.rsqrt (Ideal.div (v35 (ix2 p (0 : Fin 1))) n + cEps) * v24 (ix2 (0 : Fin 1) q)
              + v26 (ix2 (0 : Fin 1) q)) 0 := by
  unfold k5_pay1
  show max ((v22 (ix2 p q) - broadcastTo S4000x128 v30 broadcasts_S4000x1_S4000x128 (ix2 p q))
        * broadcastTo S4000x128 (rsqrt (addf (divf v35 (broadcast S4000x1 n)) (broadcast S4000x1 (FloatOps.ofBits (F := Ideal) .f32 0x3727C5AC#32)))) broadcasts_S4000x1_S4000x128 (ix2 p q)
        * broadcastTo S4000x128 v24 broadcasts_S1x128_S4000x128 (ix2 p q)
        + broadcastTo S4000x128 v26 broadcasts_S1x128_S4000x128 (ix2 p q)) (Ideal.ofBits .f32 0x00000000#32) = _
  rw [node5_bcast_col_apply, node5_bcast_col_apply, broadcastTo_1b_ab_apply, broadcastTo_1b_ab_apply, Ideal.ofBits_zero_f32]
  rfl

/-! ## A row of the node update depends on the same row of x and aggr only

So the update of a 4000-row block, at its row p, is the update of the whole array at the row the block's row p sits on. -/

theorem node5_hidden1_row {N N' : Nat} (x aggr : I2 N 128 → EReal) (x' aggr' : I2 N' 128 → EReal) (w1 : I2 128 128 → EReal) (b1 : I2 1 128 → EReal)
    (r : Fin N) (r' : Fin N') (hx : ∀ k : Fin 128, x (ix2 r k) = x' (ix2 r' k)) (ha : ∀ k : Fin 128, aggr (ix2 r k) = aggr' (ix2 r' k)) (q : Fin 128) :
    hidden1 N 128 x aggr w1 b1 (ix2 r q) = hidden1 N' 128 x' aggr' w1 b1 (ix2 r' q) := by
  show max ((∑ k : Fin 128, (x (ix2 r k) + aggr (ix2 r k)) * w1 (ix2 k q)) + b1 (ix2 0 q)) 0
     = max ((∑ k : Fin 128, (x' (ix2 r' k) + aggr' (ix2 r' k)) * w1 (ix2 k q)) + b1 (ix2 0 q)) 0
  simp only [hx, ha]

theorem node5_hidden2_row {N N' : Nat} (h : I2 N 128 → EReal) (h' : I2 N' 128 → EReal) (w2 : I2 128 128 → EReal) (b2 : I2 1 128 → EReal)
    (r : Fin N) (r' : Fin N') (hh : ∀ k : Fin 128, h (ix2 r k) = h' (ix2 r' k)) (q : Fin 128) :
    hidden2 N h w2 b2 (ix2 r q) = hidden2 N' h' w2 b2 (ix2 r' q) := by
  show (∑ k : Fin 128, h (ix2 r k) * w2 (ix2 k q)) + b2 (ix2 0 q) = (∑ k : Fin 128, h' (ix2 r' k) * w2 (ix2 k q)) + b2 (ix2 0 q)
  simp only [hh]

theorem node5_rowMean_row {N N' : Nat} (h : I2 N 128 → EReal) (h' : I2 N' 128 → EReal)
    (r : Fin N) (r' : Fin N') (hh : ∀ k : Fin 128, h (ix2 r k) = h' (ix2 r' k)) : rowMean N h r = rowMean N' h' r' := by
  unfold rowMean
  simp only [hh]

theorem node5_rowVar_row {N N' : Nat} (h : I2 N 128 → EReal) (h' : I2 N' 128 → EReal)
    (r : Fin N) (r' : Fin N') (hh : ∀ k : Fin 128, h (ix2 r k) = h' (ix2 r' k)) : rowVar N h r = rowVar N' h' r' := by
  unfold rowVar
  rw [node5_rowMean_row h h' r r' hh]
  simp only [hh]

theorem node5_normRelu_row {N N' : Nat} (h : I2 N 128 → EReal) (h' : I2 N' 128 → EReal) (g bt : I2 1 128 → EReal)
    (r : Fin N) (r' : Fin N') (hh : ∀ k : Fin 128, h (ix2 r k) = h' (ix2 r' k)) (q : Fin 128) :
    normRelu N h g bt (ix2 r q) = normRelu N' h' g bt (ix2 r' q) := by
  show max ((h (ix2 r q) - rowMean N h r) * Ideal.rsqrt (rowVar N h r + cEps) * g (ix2 0 q) + bt (ix2 0 q)) 0
     = max ((h' (ix2 r' q) - rowMean N' h' r') * Ideal.rsqrt (rowVar N' h' r' + cEps) * g (ix2 0 q) + bt (ix2 0 q)) 0
  rw [hh q, node5_rowMean_row h h' r r' hh, node5_rowVar_row h h' r r' hh]

theorem node5_nodeUpd_row {N N' : Nat} (x aggr : I2 N 128 → EReal) (x' aggr' : I2 N' 128 → EReal) (w1 : I2 128 128 → EReal) (b1 : I2 1 128 → EReal)
    (w2 : I2 128 128 → EReal) (b2 g bt : I2 1 128 → EReal)
    (r : Fin N) (r' : Fin N') (hx : ∀ k : Fin 128, x (ix2 r k) = x' (ix2 r' k)) (ha : ∀ k : Fin 128, aggr (ix2 r k) = aggr' (ix2 r' k)) (q : Fin 128) :
    nodeUpd N 128 x aggr w1 b1 w2 b2 g bt (ix2 r q) = nodeUpd N' 128 x' aggr' w1 b1 w2 b2 g bt (ix2 r' q) := by
  unfold nodeUpd
  exact node5_normRelu_row _ _ g bt r r'
    (fun k => node5_hidden2_row _ _ w2 b2 r r' (fun k' => node5_hidden1_row x aggr x' aggr' w1 b1 r r' hx ha k') k) q

/-! ## The body's stored payload is the node update of its blocks -/

/-- The whole payload the body stores, at (p, q): the node update of the eight loaded blocks. -/
theorem node5_body_apply (x0 x1 : Vec Ideal S4000x128 .f32) (x2 : Vec Ideal S128x128 .f32) (x3 : Vec Ideal S1x128 .f32)
    (x4 : Vec Ideal S128x128 .f32) (x5 x6 x7 : Vec Ideal S1x128 .f32) (p : Fin 4000) (q : Fin 128) :
    k5_pay1 (F := Ideal) (k5_pay2 x0 x1 x2 x3 x4 x5) (k5_pay3 x6) (k5_pay4 x7) (k5_pay5 x0 x1 x2 x3 x4 x5) (k5_pay6 x0 x1 x2 x3 x4 x5)
        (Scalar.ofBits .f32 0x43000000#32) (ix2 p q)
      = nodeUpd 4000 128 x0 x1 x2 x3 x4 x5 x6 x7 (ix2 p q) := by
  rw [node5_pay1_apply, node5_pay5_apply, node5_pay6_apply, node5_pay2_eq]
  unfold k5_pay3 k5_pay4
  rw [shapeCast_self, shapeCast_self]
  rfl

/-- The same with the blocks named as parts of the whole arrays: the two node blocks row by row (the block's row p is
    the array's row r), the six parameter blocks whole. -/
theorem node5_block_apply
    (X A : I2 200000 128 → EReal) (W1 : I2 128 128 → EReal) (B1 : I2 1 128 → EReal) (W2 : I2 128 128 → EReal) (B2 G BT : I2 1 128 → EReal)
    (x0 x1 : Vec Ideal S4000x128 .f32) (x2 : Vec Ideal S128x128 .f32) (x3 : Vec Ideal S1x128 .f32)
    (x4 : Vec Ideal S128x128 .f32) (x5 x6 x7 : Vec Ideal S1x128 .f32) (p : Fin 4000) (q : Fin 128) (r : Fin 200000)
    (h0 : ∀ k : Fin 128, x0 (ix2 p k) = X (ix2 r k)) (h1 : ∀ k : Fin 128, x1 (ix2 p k) = A (ix2 r k))
    (h2 : x2 = W1) (h3 : x3 = B1) (h4 : x4 = W2) (h5 : x5 = B2) (h6 : x6 = G) (h7 : x7 = BT) :
    k5_pay1 (F := Ideal) (k5_pay2 x0 x1 x2 x3 x4 x5) (k5_pay3 x6) (k5_pay4 x7) (k5_pay5 x0 x1 x2 x3 x4 x5) (k5_pay6 x0 x1 x2 x3 x4 x5)
        (Scalar.ofBits .f32 0x43000000#32) (ix2 p q)
      = nodeUpd 200000 128 X A W1 B1 W2 B2 G BT (ix2 r q) := by
  subst h2 h3 h4 h5 h6 h7
  exact (node5_body_apply x0 x1 x2 x3 x4 x5 x6 x7 p q).trans (node5_nodeUpd_row x0 x1 X A x2 x3 x4 x5 x6 x7 p r h0 h1 q)

-- the TensorCore's buffer contents when the region is entered, at the extended reals
variable (V : (c : Dev nD) → (b : Ref sig .tc) → Buf (Elt Ideal) ((c : Thread nD τ).loc b))

/-! ## From blocks to the array -/

theorem node5_hz : (![0, 0] : Fin 2 → Nat) = fun _ => 0 := funext fun a => by fin_cases a <;> rfl

/-- The printed index maps, decided over the 50 grid points: the two node windows and the output window are at block
    (t, 0), the six parameter windows at block (0, 0). -/
theorem node5_idx_facts : ∀ t : Fin cfg5.N,
      win5_0.index t (0 : Fin 2) = t.val ∧ win5_0.index t (1 : Fin 2) = 0
    ∧ win5_1.index t (0 : Fin 2) = t.val ∧ win5_1.index t (1 : Fin 2) = 0
    ∧ win5_8.index t (0 : Fin 2) = t.val ∧ win5_8.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0 :=
  (by decide +kernel : ∀ t : Fin grid5.N, _)

/-! A parameter window's block is its whole array at every point. -/

theorem node5_blk2 (c : Dev nD) (t : Fin cfg5.N) : (iblk5 V c 2 t : S128x128.Idx → EReal) = V c main_arg22 := by
  have e := node5_idx_facts t
  have e0 : win5_2.index t (0 : Fin 2) = 0 := by tauto
  have e1 : win5_2.index t (1 : Fin 2) = 0 := by tauto
  funext j
  show V c main_arg22 (((cfg5.win 2).blk t).view.emb j) = V c main_arg22 j
  refine congrArg _ (funext fun a => Fin.ext ?_)
  match a with
  | ⟨0, _⟩ => show win5_2.index t (0 : Fin 2) * 128 + 1 * (j 0).val = (j 0).val; omega
  | ⟨1, _⟩ => show win5_2.index t (1 : Fin 2) * 128 + 1 * (j 1).val = (j 1).val; omega

theorem node5_blk3 (c : Dev nD) (t : Fin cfg5.N) : (iblk5 V c 3 t : S1x128.Idx → EReal) = V c main_v50 := by
  have e := node5_idx_facts t
  have e0 : win5_3.index t (0 : Fin 2) = 0 := by tauto
  have e1 : win5_3.index t (1 : Fin 2) = 0 := by tauto
  funext j
  show V c main_v50 (((cfg5.win 3).blk t).view.emb j) = V c main_v50 j
  refine congrArg _ (funext fun a => Fin.ext ?_)
  match a with
  | ⟨0, _⟩ => show win5_3.index t (0 : Fin 2) * 1 + 1 * (j 0).val = (j 0).val; omega
  | ⟨1, _⟩ => show win5_3.index t (1 : Fin 2) * 128 + 1 * (j 1).val = (j 1).val; omega

theorem node5_blk4 (c : Dev nD) (t : Fin cfg5.N) : (iblk5 V c 4 t : S128x128.Idx → EReal) = V c main_arg24 := by
  have e := node5_idx_facts t
  have e0 : win5_4.index t (0 : Fin 2) = 0 := by tauto
  have e1 : win5_4.index t (1 : Fin 2) = 0 := by tauto
  funext j
  show V c main_arg24 (((cfg5.win 4).blk t).view.emb j) = V c main_arg24 j
  refine congrArg _ (funext fun a => Fin.ext ?_)
  match a with
  | ⟨0, _⟩ => show win5_4.index t (0 : Fin 2) * 128 + 1 * (j 0).val = (j 0).val; omega
  | ⟨1, _⟩ => show win5_4.index t (1 : Fin 2) * 128 + 1 * (j 1).val = (j 1).val; omega

theorem node5_blk5 (c : Dev nD) (t : Fin cfg5.N) : (iblk5 V c 5 t : S1x128.Idx → EReal) = V c main_v51 := by
  have e := node5_idx_facts t
  have e0 : win5_5.index t (0 : Fin 2) = 0 := by tauto
  have e1 : win5_5.index t (1 : Fin 2) = 0 := by tauto
  funext j
  show V c main_v51 (((cfg5.win 5).blk t).view.emb j) = V c main_v51 j
  refine congrArg _ (funext fun a => Fin.ext ?_)
  match a with
  | ⟨0, _⟩ => show win5_5.index t (0 : Fin 2) * 1 + 1 * (j 0).val = (j 0).val; omega
  | ⟨1, _⟩ => show win5_5.index t (1 : Fin 2) * 128 + 1 * (j 1).val = (j 1).val; omega

theorem node5_blk6 (c : Dev nD) (t : Fin cfg5.N) : (iblk5 V c 6 t : S1x128.Idx → EReal) = V c main_v52 := by
  have e := node5_idx_facts t
  have e0 : win5_6.index t (0 : Fin 2) = 0 := by tauto
  have e1 : win5_6.index t (1 : Fin 2) = 0 := by tauto
  funext j
  show V c main_v52 (((cfg5.win 6).blk t).view.emb j) = V c main_v52 j
  refine congrArg _ (funext fun a => Fin.ext ?_)
  match a with
  | ⟨0, _⟩ => show win5_6.index t (0 : Fin 2) * 1 + 1 * (j 0).val = (j 0).val; omega
  | ⟨1, _⟩ => show win5_6.index t (1 : Fin 2) * 128 + 1 * (j 1).val = (j 1).val; omega

theorem node5_blk7 (c : Dev nD) (t : Fin cfg5.N) : (iblk5 V c 7 t : S1x128.Idx → EReal) = V c main_v53 := by
  have e := node5_idx_facts t
  have e0 : win5_7.index t (0 : Fin 2) = 0 := by tauto
  have e1 : win5_7.index t (1 : Fin 2) = 0 := by tauto
  funext j
  show V c main_v53 (((cfg5.win 7).blk t).view.emb j) = V c main_v53 j
  refine congrArg _ (funext fun a => Fin.ext ?_)
  match a with
  | ⟨0, _⟩ => show win5_7.index t (0 : Fin 2) * 1 + 1 * (j 0).val = (j 0).val; omega
  | ⟨1, _⟩ => show win5_7.index t (1 : Fin 2) * 128 + 1 * (j 1).val = (j 1).val; omega

/-- What point t writes back is block t of the node update of the entry arrays: the block's row p is the arrays' row
    4000 t + p. -/
theorem node5_flushed_eq (c : Dev nD) (t : Fin cfg5.N) :
    (dat5 V c).flushed 8 t = ((cfg5.win 8).blk t).view.read (Elt Ideal)
      (nodeUpd 200000 128 (V c main_v37) (V c main_v49) (V c main_arg22) (V c main_v50) (V c main_arg24) (V c main_v51) (V c main_v52) (V c main_v53)) := by
  show (cfg5.win 8).cut (grid5.coords t) ((dat5 V c).after 8 t) = _
  rw [after5_8]
  unfold out5_8
  rw [View.canon_unit_zero node5_hz]
  simp only [View.ld_unit_zero (S := S4000x128) node5_hz, View.ld_unit_zero (S := S128x128) node5_hz, View.ld_unit_zero (S := S1x128) node5_hz]
  obtain ⟨e00, e01, e10, e11, e80, e81, -⟩ := node5_idx_facts t
  have ht : t.val < 50 := lt_of_lt_of_eq t.isLt N_5
  funext j
  obtain ⟨p, q, rfl⟩ : ∃ (p : Fin 4000) (q : Fin 128), j = ix2 p q := ⟨j 0, j 1, eq_ix2 j⟩
  have hp : p.val < 4000 := p.isLt
  refine (node5_block_apply (V c main_v37) (V c main_v49) (V c main_arg22) (V c main_v50) (V c main_arg24) (V c main_v51) (V c main_v52) (V c main_v53)
      (iblk5 V c 0 t) (iblk5 V c 1 t) (iblk5 V c 2 t) (iblk5 V c 3 t) (iblk5 V c 4 t) (iblk5 V c 5 t) (iblk5 V c 6 t) (iblk5 V c 7 t)
      p q ⟨t.val * 4000 + p.val, by omega⟩ ?_ ?_ (node5_blk2 V c t) (node5_blk3 V c t) (node5_blk4 V c t) (node5_blk5 V c t) (node5_blk6 V c t) (node5_blk7 V c t)).trans ?_
  · intro k
    show V c main_v37 (((cfg5.win 0).blk t).view.emb (ix2 p k)) = V c main_v37 (ix2 ⟨t.val * 4000 + p.val, _⟩ k)
    refine congrArg _ (funext fun a => Fin.ext ?_)
    match a with
    | ⟨0, _⟩ => show win5_0.index t (0 : Fin 2) * 4000 + 1 * p.val = t.val * 4000 + p.val; omega
    | ⟨1, _⟩ => show win5_0.index t (1 : Fin 2) * 128 + 1 * k.val = k.val; omega
  · intro k
    show V c main_v49 (((cfg5.win 1).blk t).view.emb (ix2 p k)) = V c main_v49 (ix2 ⟨t.val * 4000 + p.val, _⟩ k)
    refine congrArg _ (funext fun a => Fin.ext ?_)
    match a with
    | ⟨0, _⟩ => show win5_1.index t (0 : Fin 2) * 4000 + 1 * p.val = t.val * 4000 + p.val; omega
    | ⟨1, _⟩ => show win5_1.index t (1 : Fin 2) * 128 + 1 * k.val = k.val; omega
  · show _ = (nodeUpd 200000 128 (V c main_v37) (V c main_v49) (V c main_arg22) (V c main_v50) (V c main_arg24) (V c main_v51) (V c main_v52) (V c main_v53)) (((cfg5.win 8).blk t).view.emb (ix2 p q))
    refine congrArg _ (funext fun a => Fin.ext ?_)
    match a with
    | ⟨0, _⟩ => show t.val * 4000 + p.val = win5_8.index t (0 : Fin 2) * 4000 + 1 * p.val; omega
    | ⟨1, _⟩ => show q.val = win5_8.index t (1 : Fin 2) * 128 + 1 * q.val; omega

/-- An index of the array is in point t's block iff each coordinate is in the block's range on its axis. -/
theorem node5_mem_blk (t : Fin cfg5.N) (i : S200000x128.Idx) :
    i ∈ ((cfg5.win 8).blk t).view.set ↔ ∀ a : Fin 2, win5_8.index t a * S4000x128.size a ≤ (i a).val ∧ (i a).val < win5_8.index t a * S4000x128.size a + S4000x128.size a := by
  show i ∈ ((View.whole main_v54).slice (win5_8.rect t)).set ↔ _
  rw [View.set_slice_whole, Rect.mem_set_unit]
  exact Iff.rfl

/-- The 50 blocks tile the array: row r is in the block of point r / 4000. -/
theorem node5_cover (i : S200000x128.Idx) :
    ∃ t : Fin cfg5.N, (cfg5.win 8).flush t = true ∧ i ∈ ((cfg5.win 8).blk t).view.set := by
  have hi0 : (i 0).val < 200000 := (i 0).isLt
  have hi1 : (i 1).val < 128 := (i 1).isLt
  have hlt : (i 0).val / 4000 < cfg5.N := lt_of_lt_of_eq (show (i 0).val / 4000 < 50 by omega) N_5.symm
  obtain ⟨-, -, -, -, e80, e81, -⟩ := node5_idx_facts ⟨(i 0).val / 4000, hlt⟩
  have e80' : win5_8.index ⟨(i 0).val / 4000, hlt⟩ (0 : Fin 2) = (i 0).val / 4000 := e80
  refine ⟨⟨(i 0).val / 4000, hlt⟩, flush5_8 _, ?_⟩
  rw [node5_mem_blk]
  intro a
  match a with
  | ⟨0, _⟩ =>
    show win5_8.index ⟨(i 0).val / 4000, hlt⟩ (0 : Fin 2) * 4000 ≤ (i 0).val ∧ (i 0).val < win5_8.index ⟨(i 0).val / 4000, hlt⟩ (0 : Fin 2) * 4000 + 4000
    omega
  | ⟨1, _⟩ =>
    show win5_8.index ⟨(i 0).val / 4000, hlt⟩ (1 : Fin 2) * 128 ≤ (i 1).val ∧ (i 1).val < win5_8.index ⟨(i 0).val / 4000, hlt⟩ (1 : Fin 2) * 128 + 128
    omega

/-- After region 5 the node array holds the layer's node update of the entry arrays: every grid point writes its
    4000-node block of that one whole-array function (a row of the result depends on the same row of x and aggr only),
    and the 50 blocks tile the array. -/
theorem node5_value (c : Dev nD) :
    (dat5 V c).arrAt 8 cfg5.N
      = nodeUpd 200000 128 (V c main_v37) (V c main_v49) (V c main_arg22) (V c main_v50) (V c main_arg24) (V c main_v51) (V c main_v52) (V c main_v53) :=
  (dat5 V c).arrAt_eq_of_cover 8
    (nodeUpd 200000 128 (V c main_v37) (V c main_v49) (V c main_arg22) (V c main_v50) (V c main_arg24) (V c main_v51) (V c main_v52) (V c main_v53))
    (fun t _ => node5_flushed_eq V c t) node5_cover

end Cert.KernelIdeal.RegionValue

end
-- ==== Proof.KPool6.lean ====
/-
  Region 6 (the pooling by graph) read as a value.

  The region's grid has 50 points; point t stages rows 4000 t … 4000 t + 3999 of the node array and of the graph
  words, and every point works on the ONE block (64 × 128, block index (0, 0)) of the pooled array, which stays in
  its buffer from point to point and is written back after the last point only. The body multiplies the transposed
  one-hot block (entry (p, g) is 1 where node p's word is g, else 0) with the node rows and adds the product to the
  block, which the first point clears beforehand. Read at graph g and feature h, a point adds
  Σ_p (if word p = g then x(p, h) else 0) over its 4000 nodes; so after point t the block holds that sum over the
  first 4000 (t + 1) nodes (induction on the point), after point 49 over all 200000 of them, which is the pooling;
  and the one write-back puts that block, which is the whole array, in place.
-/
import proofs.«409793_j85925115724498_1_alg».proof.Proof.Gen.KernelIdeal.Frame
import proofs.«409793_j85925115724498_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.Spec
open Idealize.ShloMosaic Idealize.ShloMosaic.TcCoe Idealize.ShloMosaic.ValueIdx Idealize.SL.Sem Idealize.ShloMosaic.Tactic
open Idealize.ShloMosaic.Pipeline (Dat Cfg Window)

-- the TensorCore's buffer contents when the region is entered, at the extended reals
variable (V : (c : Dev nD) → (b : Ref sig .tc) → Buf (Elt Ideal) ((c : Thread nD τ).loc b))

/-! ## What each control case leaves in the pooled block's buffer -/

section Pieces
variable {F : FTy → Type} [FloatOps F]

theorem pool6_hz : (![0, 0] : Fin 2 → Nat) = fun _ => 0 := funext fun a => by fin_cases a <;> rfl

/-- A point that is not the first leaves, over what the buffer held, the one covering store's payload. -/
theorem pool6_out_B (c : Dev nD) (i : grid6.Coords) (a1 : Memref sig .tc .vmem S4000x128 .f32) (h1 : a1.IsWhole)
    (a2 : Memref sig .tc .vmem S4000x1 .i32) (h2 : a2.IsWhole) (a3 : Memref sig .tc .vmem S64x128 .f32) (h3 : a3.IsWhole)
    (hc : ¬cond6_0 i) (x0 : Vec F S4000x128 .f32) (x1 : Vec F S4000x1 .i32) (xo : Vec F S64x128 .f32) :
    out6_B_2 c i a1 h1 a2 h2 a3 h3 hc x0 x1 xo = k6_pay2 x0 x1 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero pool6_hz]
  simp only [View.readAt_eq_ld, h1.read_unread, h2.read_unread, h3.read_unread,
    View.ld_unit_zero (S := S4000x128) pool6_hz, View.ld_unit_zero (S := S4000x1) pool6_hz,
    View.ld_unit_zero (S := S64x128) pool6_hz]

/-- The first point clears the buffer, reads the cleared block back and stores the same payload over it. -/
theorem pool6_out_A (c : Dev nD) (i : grid6.Coords) (a1 : Memref sig .tc .vmem S4000x128 .f32) (h1 : a1.IsWhole)
    (a2 : Memref sig .tc .vmem S4000x1 .i32) (h2 : a2.IsWhole) (a3 : Memref sig .tc .vmem S64x128 .f32) (h3 : a3.IsWhole)
    (hc : cond6_0 i) (x0 : Vec F S4000x128 .f32) (x1 : Vec F S4000x1 .i32) :
    out6_A_2 c i a1 h1 a2 h2 a3 h3 hc x0 x1 = k6_pay2 x0 x1 (k6_pay1 (F := F)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S64x128) pool6_hz]
  simp only [View.readAt_eq_ld, h1.read_unread, h2.read_unread,
    View.ld_unit_zero (S := S4000x128) pool6_hz, View.ld_unit_zero (S := S4000x1) pool6_hz,
    View.readCov_unit_zero (S := S64x128) _ pool6_hz]

end Pieces

/-! ## The payload read at an index -/

section PayloadIdx

/-- Axis 0 of the one-hot operand is the contracted one: it reads the contraction coordinate. -/
theorem pool6_lhs_0 (j : S64x128.Idx) (q : dot_S4000x64_S4000x128_S64x128_0_0_1_1_n_n.contr.Idx) :
    (dot_S4000x64_S4000x128_S64x128_0_0_1_1_n_n.lhsIdx j q 0).val = (q ⟨0, by decide⟩).val :=
  dot_S4000x64_S4000x128_S64x128_0_0_1_1_n_n.lhsIdx_val_of_single rfl j q
/-- Axis 1 of the one-hot operand is the graph axis: it reads the result's row. -/
theorem pool6_lhs_1 (j : S64x128.Idx) (q : dot_S4000x64_S4000x128_S64x128_0_0_1_1_n_n.contr.Idx) :
    (dot_S4000x64_S4000x128_S64x128_0_0_1_1_n_n.lhsIdx j q 1).val = (j 0).val := by
  unfold DotDims.lhsIdx
  rw [dif_neg (show ¬(1 : Fin S4000x64.rank) ∈ dot_S4000x64_S4000x128_S64x128_0_0_1_1_n_n.lhsBatch by decide), dif_pos (show (1 : Fin S4000x64.rank) ∈ dot_S4000x64_S4000x128_S64x128_0_0_1_1_n_n.lhsNonContracting by decide)]
  rfl
/-- Axis 0 of the node rows is the contracted one. -/
theorem pool6_rhs_0 (j : S64x128.Idx) (q : dot_S4000x64_S4000x128_S64x128_0_0_1_1_n_n.contr.Idx) :
    (dot_S4000x64_S4000x128_S64x128_0_0_1_1_n_n.rhsIdx j q 0).val = (q ⟨0, by decide⟩).val :=
  dot_S4000x64_S4000x128_S64x128_0_0_1_1_n_n.rhsIdx_val_of_single rfl j q
/-- Axis 1 of the node rows is the feature axis: it reads the result's column. -/
theorem pool6_rhs_1 (j : S64x128.Idx) (q : dot_S4000x64_S4000x128_S64x128_0_0_1_1_n_n.contr.Idx) :
    (dot_S4000x64_S4000x128_S64x128_0_0_1_1_n_n.rhsIdx j q 1).val = (j 1).val := by
  unfold DotDims.rhsIdx
  rw [dif_neg (show ¬(1 : Fin S4000x128.rank) ∈ dot_S4000x64_S4000x128_S64x128_0_0_1_1_n_n.rhsBatch by decide), dif_pos (show (1 : Fin S4000x128.rank) ∈ dot_S4000x64_S4000x128_S64x128_0_0_1_1_n_n.rhsNonContracting by decide)]
  rfl

/-- The product of the transposed one-hot block with the node rows, into a zero accumulator, at graph g and
    feature h: the sum over the block's 4000 nodes of the one-hot entry times the node's feature. -/
theorem pool6_matmul_apply (L : FVec Ideal S4000x64 .f32) (R : FVec Ideal S4000x128 .f32) (g : Fin 64) (h : Fin 128) :
    matmul dot_S4000x64_S4000x128_S64x128_0_0_1_1_n_n (some .fp32) L R (constant S64x128 .f32 0x00000000#32) (ix2 g h)
      = ∑ p : Fin 4000, L (ix2 p g) * R (ix2 p h) := by
  simp only [matmul]
  rw [Ideal.matmul_constant_zero_apply, ← Equiv.sum_comp (contrEquiv1 dot_S4000x64_S4000x128_S64x128_0_0_1_1_n_n 4000 rfl rfl).symm]
  refine Finset.sum_congr rfl fun p _ => ?_
  have hk := contrEquiv1_symm_val dot_S4000x64_S4000x128_S64x128_0_0_1_1_n_n 4000 rfl rfl p
  have el : dot_S4000x64_S4000x128_S64x128_0_0_1_1_n_n.lhsIdx (ix2 g h) ((contrEquiv1 dot_S4000x64_S4000x128_S64x128_0_0_1_1_n_n 4000 rfl rfl).symm p) = ix2 p g := funext fun a => Fin.ext (by
    match a with
    | ⟨0, _⟩ => exact (pool6_lhs_0 _ _).trans hk
    | ⟨1, _⟩ => exact pool6_lhs_1 _ _)
  have er : dot_S4000x64_S4000x128_S64x128_0_0_1_1_n_n.rhsIdx (ix2 g h) ((contrEquiv1 dot_S4000x64_S4000x128_S64x128_0_0_1_1_n_n 4000 rfl rfl).symm p) = ix2 p h := funext fun a => Fin.ext (by
    match a with
    | ⟨0, _⟩ => exact (pool6_rhs_0 _ _).trans hk
    | ⟨1, _⟩ => exact pool6_rhs_1 _ _)
  rw [el, er]

/-- The one-hot entry at node p and graph g: the node's word, broadcast along the graph axis, compared with the
    graph's number (the iota along that axis), widened and converted: 1 where they agree, else 0. -/
theorem pool6_hot_eq (a : BitVec 32) :
    FloatOps.sitofp (F := Ideal) .f32 ((IntOp.cmpi .eq a a).setWidth 32) = 1 := by
  have h1 : IntOp.cmpi .eq a a = 1#1 := by simp [IntOp.cmpi]
  rw [h1]
  show (((BitVec.setWidth 32 1#1).toInt : ℝ) : EReal) = 1
  rw [show (BitVec.setWidth 32 1#1).toInt = 1 by decide]
  simp
theorem pool6_hot_ne (a b : BitVec 32) (h : ¬a = b) :
    FloatOps.sitofp (F := Ideal) .f32 ((IntOp.cmpi .eq a b).setWidth 32) = 0 := by
  have h0 : IntOp.cmpi .eq a b = 0#1 := by
    have hb : (a == b) = false := beq_eq_false_iff_ne.mpr h
    show BitVec.ofBool (a == b) = 0#1
    rw [hb]; rfl
  rw [h0]
  show (((BitVec.setWidth 32 0#1).toInt : ℝ) : EReal) = 0
  rw [show (BitVec.setWidth 32 0#1).toInt = 0 by decide]
  simp

theorem pool6_onehot_apply (w : IVec S4000x1 32) (p : Fin 4000) (g : Fin 64) :
    (sitofp .f32 (extui 32 (cmpi .eq (broadcastTo S4000x64 w broadcasts_S4000x1_S4000x64)
        (iota .tc S4000x64 32 [1] iota_S4000x64_d1_w32)) natLt_1_32) : FVec Ideal S4000x64 .f32) (ix2 p g)
      = if w (ix2 p 0) = BitVec.ofNat 32 g.val then 1 else 0 := by
  show FloatOps.sitofp (F := Ideal) .f32 ((IntOp.cmpi .eq (broadcastTo S4000x64 w broadcasts_S4000x1_S4000x64 (ix2 p g))
      (iota .tc S4000x64 32 [1] iota_S4000x64_d1_w32 (ix2 p g))).setWidth 32) = _
  rw [iota_single_apply, broadcastTo_apply w broadcasts_S4000x1_S4000x64 (ix2 p g) (ix2 p 0) (fun a => by
    match a with
    | ⟨0, _⟩ => rfl
    | ⟨1, _⟩ => rfl)]
  show FloatOps.sitofp (F := Ideal) .f32 ((IntOp.cmpi .eq (w (ix2 p 0)) (BitVec.ofNat 32 g.val)).setWidth 32) = _
  by_cases e : w (ix2 p 0) = BitVec.ofNat 32 g.val
  · rw [if_pos e, e]
    exact pool6_hot_eq _
  · rw [if_neg e]
    exact pool6_hot_ne _ _ e

end PayloadIdx

section PayloadAt

/-- The block the first point stores before adding: all zeros. -/
theorem pool6_pay1_apply (j : S64x128.Idx) : k6_pay1 (F := Ideal) j = 0 := by
  unfold k6_pay1
  exact Ideal.ofBits_zero_f32

/-- What a point leaves in the pooled block at graph g and feature h: what was there, plus the sum over the point's
    4000 nodes of the node's feature h where the node's graph word is g. -/
theorem pool6_pay2_apply (x : Vec Ideal S4000x128 .f32) (w : Vec Ideal S4000x1 .i32) (old : Vec Ideal S64x128 .f32)
    (g : Fin 64) (h : Fin 128) :
    k6_pay2 (F := Ideal) x w old (ix2 g h)
      = old (ix2 g h) + ∑ p : Fin 4000, (if w (ix2 p 0) = BitVec.ofNat 32 g.val then x (ix2 p h) else 0) := by
  unfold k6_pay2
  dsimp only
  rw [shapeCast_self x, shapeCast_self w, shapeCast_self old]
  refine (congrArg (old (ix2 g h) + ·) (pool6_matmul_apply _ x g h)).trans ?_
  refine congrArg (old (ix2 g h) + ·) (Finset.sum_congr rfl fun p _ => ?_)
  rw [pool6_onehot_apply w p g]
  simp only [ite_mul, one_mul, zero_mul]

end PayloadAt

/-! ## The blocks of the two input arrays, and the running sum over the points -/

section Blocks

/-- The node rows and the graph words as the region finds them, and their blocks at a point, at their literal types. -/
abbrev pool6_x (c : Dev nD) : Vec Ideal S200000x128 .f32 := V c main_v54
abbrev pool6_w (c : Dev nD) : Vec Ideal S200000x1 .i32 := V c main_v55
abbrev pool6_xblk (c : Dev nD) (t : Fin cfg6.N) : Vec Ideal S4000x128 .f32 := iblk6 V c 0 t
abbrev pool6_wblk (c : Dev nD) (t : Fin cfg6.N) : Vec Ideal S4000x1 .i32 := iblk6 V c 1 t

/-- The printed index maps, decided over the grid: point t reads block t of the nodes (rows 4000 t … 4000 t + 3999)
    and always the one block (0, 0) of the pooled array. -/
theorem pool6_idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

/-- Row p of point t's block of node rows is row 4000 t + p of the array. -/
theorem pool6_xblk_apply (c : Dev nD) (t : Fin cfg6.N) (p : Fin 4000) (h : Fin 128) (hn : 4000 * t.val + p.val < 200000) :
    pool6_xblk V c t (ix2 p h) = pool6_x V c (ix2 ⟨4000 * t.val + p.val, hn⟩ h) := by
  obtain ⟨e0, e1, -, -, -, -⟩ := pool6_idx_facts t
  show V c main_v54 (((cfg6.win 0).blk t).view.emb (ix2 p h)) = V c main_v54 (ix2 ⟨4000 * t.val + p.val, hn⟩ h)
  refine congrArg (V c main_v54) (funext fun a => Fin.ext ?_)
  match a with
  | ⟨0, _⟩ => show win6_0.index t (0 : Fin 2) * 4000 + 1 * p.val = 4000 * t.val + p.val; omega
  | ⟨1, _⟩ => show win6_0.index t (1 : Fin 2) * 128 + 1 * h.val = h.val; omega

/-- Word p of point t's block of graph words is word 4000 t + p of the array. -/
theorem pool6_wblk_apply (c : Dev nD) (t : Fin cfg6.N) (p : Fin 4000) (hn : 4000 * t.val + p.val < 200000) :
    pool6_wblk V c t (ix2 p 0) = pool6_w V c (ix2 ⟨4000 * t.val + p.val, hn⟩ 0) := by
  obtain ⟨-, -, e0, e1, -, -⟩ := pool6_idx_facts t
  show V c main_v55 (((cfg6.win 1).blk t).view.emb (ix2 p 0)) = V c main_v55 (ix2 ⟨4000 * t.val + p.val, hn⟩ 0)
  refine congrArg (V c main_v55) (funext fun a => Fin.ext ?_)
  match a with
  | ⟨0, _⟩ => show win6_1.index t (0 : Fin 2) * 4000 + 1 * p.val = 4000 * t.val + p.val; omega
  | ⟨1, _⟩ => show win6_1.index t (1 : Fin 2) * 1 + 1 * 0 = 0; omega

/-- Node n's contribution to the pooled entry at graph g and feature h (nothing past the last node). -/
def pool6_term (c : Dev nD) (g : Fin 64) (h : Fin 128) (n : ℕ) : EReal :=
  if hn : n < 200000 then
    (if pool6_w V c (ix2 ⟨n, hn⟩ 0) = BitVec.ofNat 32 g.val then pool6_x V c (ix2 ⟨n, hn⟩ h) else 0)
  else 0

/-- What point t adds at (g, h): the contributions of nodes 4000 t … 4000 t + 3999. -/
theorem pool6_point_sum (c : Dev nD) (t : Fin cfg6.N) (g : Fin 64) (h : Fin 128) :
    (∑ p : Fin 4000, (if pool6_wblk V c t (ix2 p 0) = BitVec.ofNat 32 g.val then pool6_xblk V c t (ix2 p h) else 0))
      = ∑ p ∈ Finset.range 4000, pool6_term V c g h (4000 * t.val + p) := by
  rw [Finset.sum_range]
  refine Finset.sum_congr rfl fun p _ => ?_
  have hN : t.val < 50 := lt_of_lt_of_eq t.isLt (show cfg6.N = 50 from N_6)
  have hn : 4000 * t.val + p.val < 200000 := by have := p.isLt; omega
  unfold pool6_term
  rw [dif_pos hn, pool6_xblk_apply V c t p h hn, pool6_wblk_apply V c t p hn]

/-- THE RUNNING SUM. After point n the pooled block holds, at (g, h), the contributions of the first 4000 (n + 1)
    nodes: the first point clears the block and adds its own 4000, each later point adds its 4000 to what the
    point before left. By induction on the point. -/
theorem pool6_outsAt (c : Dev nD) : ∀ (n : ℕ) (hn : n < cfg6.N) (g : Fin 64) (h : Fin 128),
    outsAt6 V c n hn (ix2 g h) = ∑ k ∈ Finset.range (4000 * (n + 1)), pool6_term V c g h k
  | 0, hn, g, h => by
    have h0 : (⟨0, hn⟩ : Fin cfg6.N).val % 50 = 0 := Nat.zero_mod 50
    rw [outsAt6_A V c ⟨0, hn⟩ h0]
    refine (congrFun (pool6_out_A (F := Ideal) c (grid6.coords ⟨0, hn⟩) (ms6_0 ⟨0, hn⟩) (hs6_0 ⟨0, hn⟩) (ms6_1 ⟨0, hn⟩) (hs6_1 ⟨0, hn⟩)
      (ms6_2 ⟨0, hn⟩) (hs6_2 ⟨0, hn⟩) ((hcond6_0 ⟨0, hn⟩).mpr h0) (pool6_xblk V c ⟨0, hn⟩) (pool6_wblk V c ⟨0, hn⟩)) (ix2 g h)).trans ?_
    refine (pool6_pay2_apply (pool6_xblk V c ⟨0, hn⟩) (pool6_wblk V c ⟨0, hn⟩) (k6_pay1 (F := Ideal)) g h).trans ?_
    rw [pool6_pay1_apply, zero_add, pool6_point_sum V c ⟨0, hn⟩ g h]
    refine Finset.sum_congr rfl fun p _ => ?_
    show pool6_term V c g h (4000 * 0 + p) = _
    rw [Nat.mul_zero, Nat.zero_add]
  | n + 1, hn, g, h => by
    have hN : cfg6.N = 50 := N_6
    have hB : ¬(⟨n + 1, hn⟩ : Fin cfg6.N).val % 50 = 0 := by dsimp only; omega
    rw [outsAt6_B V c ⟨n + 1, hn⟩ hB]
    refine (congrFun (pool6_out_B (F := Ideal) c (grid6.coords ⟨n + 1, hn⟩) (ms6_0 ⟨n + 1, hn⟩) (hs6_0 ⟨n + 1, hn⟩) (ms6_1 ⟨n + 1, hn⟩) (hs6_1 ⟨n + 1, hn⟩)
      (ms6_2 ⟨n + 1, hn⟩) (hs6_2 ⟨n + 1, hn⟩) (fun hh => hB ((hcond6_0 ⟨n + 1, hn⟩).mp hh)) (pool6_xblk V c ⟨n + 1, hn⟩) (pool6_wblk V c ⟨n + 1, hn⟩)
      (outsAt6 V c n (Nat.lt_of_succ_lt hn))) (ix2 g h)).trans ?_
    refine (pool6_pay2_apply (pool6_xblk V c ⟨n + 1, hn⟩) (pool6_wblk V c ⟨n + 1, hn⟩) (outsAt6 V c n (Nat.lt_of_succ_lt hn)) g h).trans ?_
    rw [pool6_outsAt c n (Nat.lt_of_succ_lt hn) g h, pool6_point_sum V c ⟨n + 1, hn⟩ g h]
    show _ + ∑ p ∈ Finset.range 4000, pool6_term V c g h (4000 * (n + 1) + p) = _
    rw [show 4000 * (n + 1 + 1) = 4000 * (n + 1) + 4000 by ring, Finset.sum_range_add]

end Blocks

/-! ## From the one block to the array -/

section Final

/-- Over all 200000 nodes the contributions at (g, h) sum to the pooling there. -/
theorem pool6_total (c : Dev nD) (g : Fin 64) (h : Fin 128) :
    ∑ k ∈ Finset.range 200000, pool6_term V c g h k = poolSum 200000 64 (pool6_x V c) (pool6_w V c) (ix2 g h) := by
  rw [Finset.sum_range]
  unfold poolSum
  refine Finset.sum_congr rfl fun n _ => ?_
  unfold pool6_term
  rw [dif_pos n.isLt]

/-- The pooled array's one block sits at block index (0, 0) and is the whole array: what a write-back moves of a
    block's contents is those contents, read where the array holds them. -/
theorem pool6_blk_read (t : Fin cfg6.N) (G : S64x128.Idx → EReal) :
    (cfg6.win 2).cut (grid6.coords t) G = ((cfg6.win 2).blk t).view.read (Elt Ideal) G := by
  obtain ⟨-, -, -, -, e0, e1⟩ := pool6_idx_facts t
  refine funext fun j => ?_
  rw [View.read_apply]
  refine congrArg G (funext fun a => Fin.ext ?_)
  match a with
  | ⟨0, _⟩ => show (j 0).val = win6_2.index t (0 : Fin 2) * 64 + 1 * (j 0).val; omega
  | ⟨1, _⟩ => show (j 1).val = win6_2.index t (1 : Fin 2) * 128 + 1 * (j 1).val; omega

/-- After the last point the block holds the pooling: the running sum there runs over all the nodes. -/
theorem pool6_last (c : Dev nD) (t : Fin cfg6.N) (h49 : t.val = 49) :
    outsAt6 V c t.val t.isLt = poolSum 200000 64 (pool6_x V c) (pool6_w V c) := by
  refine funext fun j => ?_
  obtain ⟨g, h, rfl⟩ : ∃ (g : Fin 64) (h : Fin 128), j = ix2 g h := ⟨j 0, j 1, eq_ix2 j⟩
  rw [pool6_outsAt V c t.val t.isLt g h, ← pool6_total V c g h, h49]

/-- The one write-back, after the last point, writes the pooling. -/
theorem pool6_flushed_eq (c : Dev nD) (t : Fin cfg6.N) (hf : (cfg6.win 2).flush t = true) :
    (dat6 V c).flushed 2 t
      = ((cfg6.win 2).blk t).view.read (Elt Ideal) (poolSum 200000 64 (V c main_v54) (V c main_v55)) := by
  have hN : cfg6.N = 50 := N_6
  have h49 : t.val = 49 := by have := (flush6_2 t).mp hf; have := t.isLt; omega
  show (cfg6.win 2).cut (grid6.coords t) ((dat6 V c).after 2 t) = _
  rw [after6_2, pool6_last V c t h49]
  exact pool6_blk_read t _

/-- An index of the pooled array is in point t's block iff each coordinate is in the block's range on its axis. -/
theorem pool6_mem_blk (t : Fin cfg6.N) (i : S64x128.Idx) :
    i ∈ ((cfg6.win 2).blk t).view.set ↔ ∀ a : Fin 2, win6_2.index t a * S64x128.size a ≤ (i a).val ∧ (i a).val < win6_2.index t a * S64x128.size a + S64x128.size a := by
  show i ∈ ((View.whole main_v56).slice (win6_2.rect t)).set ↔ _
  rw [View.set_slice_whole, Rect.mem_set_unit]
  exact Iff.rfl

end Final

/-- After region 6 the pooled array holds, at graph g and feature h, the sum of the node rows whose graph word is g: the
    first grid point clears the one output block, every point adds its 4000 nodes' contribution, and the block is
    carried from point to point. -/
theorem pool6_value (c : Dev nD) :
    (dat6 V c).arrAt 2 cfg6.N = poolSum 200000 64 (V c main_v54) (V c main_v55) := by
  have hN : cfg6.N = 50 := N_6
  refine (dat6 V c).arrAt_eq_of_cover 2 (poolSum 200000 64 (V c main_v54) (V c main_v55)) (pool6_flushed_eq V c) fun i => ?_
  refine ⟨⟨49, by rw [hN]; decide⟩, (flush6_2 _).mpr rfl, ?_⟩
  rw [pool6_mem_blk]
  obtain ⟨-, -, -, -, e0, e1⟩ := pool6_idx_facts ⟨49, by rw [hN]; decide⟩
  intro a
  match a with
  | ⟨0, _⟩ =>
    show win6_2.index ⟨49, _⟩ (0 : Fin 2) * 64 ≤ (i 0).val ∧ (i 0).val < win6_2.index ⟨49, _⟩ (0 : Fin 2) * 64 + 64
    have hi : (i 0).val < 64 := (i 0).isLt
    omega
  | ⟨1, _⟩ =>
    show win6_2.index ⟨49, _⟩ (1 : Fin 2) * 128 ≤ (i 1).val ∧ (i 1).val < win6_2.index ⟨49, _⟩ (1 : Fin 2) * 128 + 128
    have hi : (i 1).val < 128 := (i 1).isLt
    omega

end Cert.KernelIdeal.RegionValue

end
-- ==== Proof.KChain.lean ====
/-
  The idealized kernel program's result as the network of its arguments.

  @main is fifteen segments: host stretches and the seven kernel regions alternate. The buffer contents at each boundary
  are a fold from the launch memory. Walking the fold forward, each live buffer is named at each boundary: a host stretch's
  results are its operations applied to what the boundary before holds; a region's output array is its value lemma at the
  region's entry contents; everything else is carried. The last stretch forms the closing arithmetic of the pooled array.
-/
import proofs.«409793_j85925115724498_1_alg».proof.Proof.Model
import proofs.«409793_j85925115724498_1_alg».proof.Proof.KCarry
import proofs.«409793_j85925115724498_1_alg».proof.Proof.KEdge0
import proofs.«409793_j85925115724498_1_alg».proof.Proof.KNode1
import proofs.«409793_j85925115724498_1_alg».proof.Proof.KEdge2
import proofs.«409793_j85925115724498_1_alg».proof.Proof.KNode3
import proofs.«409793_j85925115724498_1_alg».proof.Proof.KEdge4
import proofs.«409793_j85925115724498_1_alg».proof.Proof.KNode5
import proofs.«409793_j85925115724498_1_alg».proof.Proof.KPool6
import Idealize.ShloMosaic.Lib.StableHlo.Run

set_option maxRecDepth 16384

noncomputable section

namespace Cert.KernelIdeal.Chain

open Cert.KernelIdeal Cert.KernelIdeal.Gen Cert.KernelIdeal.Carry Cert.KernelIdeal.RegionValue Cert.Spec Cert.Model
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- An argument's launch contents on core c. -/
abbrev A (c : Dev nD) (b : Ref sig .tc) : Buf (Elt Ideal) ((c : Thread nD τ).loc b) := m ((c : Thread nD τ).loc b)

/-! ## Boundary 1: after the first host stretch -/

theorem v1_at1 (c : Dev nD) : W1 m ρ c (Proc.devRef .tc main_v1) = srcOf (A m c main_arg1) := by
  show StableHlo.after hostOps0 (W0 m ρ c) (Proc.devRef .tc main_v1) = _
  after_results
  rfl
theorem v3_at1 (c : Dev nD) : W1 m ρ c (Proc.devRef .tc main_v3) = dstOf (A m c main_arg1) := by
  show StableHlo.after hostOps0 (W0 m ρ c) (Proc.devRef .tc main_v3) = _
  after_results
  rfl
theorem v10_at1 (c : Dev nD) : W1 m ρ c (Proc.devRef .tc main_v10) = gather5 (A m c main_arg0) (A m c main_arg1) := by
  show StableHlo.after hostOps0 (W0 m ρ c) (Proc.devRef .tc main_v10) = _
  after_results
  rfl
theorem v11_at1 (c : Dev nD) : W1 m ρ c (Proc.devRef .tc main_v11) = rowOf (A m c main_arg5) := by
  show StableHlo.after hostOps0 (W0 m ρ c) (Proc.devRef .tc main_v11) = _
  after_results
  exact reshape_row5 (A m c main_arg5)

/-! ## Boundary 2: after region 0 -/

theorem v12_at2 (c : Dev nD) : W2 m ρ c (Proc.devRef .tc main_v12)
    = edgeMsg 400000 5 (A m c main_arg2) (gather5 (A m c main_arg0) (A m c main_arg1)) (A m c main_arg4) (rowOf (A m c main_arg5)) := by
  refine (W2_arr m ρ c 4).trans ((edge0_value (V1 m ρ) c).trans ?_)
  show edgeMsg 400000 5 (W1 m ρ c (Proc.devRef .tc main_arg2)) (W1 m ρ c (Proc.devRef .tc main_v10)) (W1 m ρ c (Proc.devRef .tc main_arg4)) (W1 m ρ c (Proc.devRef .tc main_v11)) = _
  rw [main_arg2_at1 m ρ c, v10_at1 m ρ c, main_arg4_at1 m ρ c, v11_at1 m ρ c]

/-- The three layers' outputs as functions of the arguments. -/
abbrev X1 (c : Dev nD) : FVec Ideal S200000x128 .f32 := layer5 (A m c main_arg0) (A m c main_arg1) (A m c main_arg2) (A m c main_arg4) (A m c main_arg5) (A m c main_arg6) (A m c main_arg7) (A m c main_arg8) (A m c main_arg9) (A m c main_arg10) (A m c main_arg11)
abbrev X2 (c : Dev nD) : FVec Ideal S200000x128 .f32 :=
  layer128 (X1 m c) (A m c main_arg1) (A m c main_arg2) (A m c main_arg12) (A m c main_arg13) (A m c main_arg14) (A m c main_arg15) (A m c main_arg16) (A m c main_arg17) (A m c main_arg18) (A m c main_arg19)
abbrev X3 (c : Dev nD) : FVec Ideal S200000x128 .f32 :=
  layer128 (X2 m c) (A m c main_arg1) (A m c main_arg2) (A m c main_arg20) (A m c main_arg21) (A m c main_arg22) (A m c main_arg23) (A m c main_arg24) (A m c main_arg25) (A m c main_arg26) (A m c main_arg27)

/-! ## Boundary 3: after the second host stretch (the first layer's segment sum, the bias rows) -/

theorem v15_at3 (c : Dev nD) : W3 m ρ c (Proc.devRef .tc main_v15) = segsum5 (A m c main_arg1) (edgeMsg 400000 5 (A m c main_arg2) (gather5 (A m c main_arg0) (A m c main_arg1)) (A m c main_arg4) (rowOf (A m c main_arg5))) := by
  show StableHlo.after hostOps1 (W2 m ρ c) (Proc.devRef .tc main_v15) = _
  after_results
  rw [main_v3_at2 m ρ c, v3_at1 m ρ c, v12_at2 m ρ c]
  rfl

theorem v16_at3 (c : Dev nD) : W3 m ρ c (Proc.devRef .tc main_v16) = rowOf (A m c main_arg7) := by
  show StableHlo.after hostOps1 (W2 m ρ c) (Proc.devRef .tc main_v16) = _
  after_results
  rw [main_arg7_at2 m ρ c]
  exact reshape_row128 (A m c main_arg7)

theorem v17_at3 (c : Dev nD) : W3 m ρ c (Proc.devRef .tc main_v17) = rowOf (A m c main_arg9) := by
  show StableHlo.after hostOps1 (W2 m ρ c) (Proc.devRef .tc main_v17) = _
  after_results
  rw [main_arg9_at2 m ρ c]
  exact reshape_row128 (A m c main_arg9)

theorem v18_at3 (c : Dev nD) : W3 m ρ c (Proc.devRef .tc main_v18) = rowOf (A m c main_arg10) := by
  show StableHlo.after hostOps1 (W2 m ρ c) (Proc.devRef .tc main_v18) = _
  after_results
  rw [main_arg10_at2 m ρ c]
  exact reshape_row128 (A m c main_arg10)

theorem v19_at3 (c : Dev nD) : W3 m ρ c (Proc.devRef .tc main_v19) = rowOf (A m c main_arg11) := by
  show StableHlo.after hostOps1 (W2 m ρ c) (Proc.devRef .tc main_v19) = _
  after_results
  rw [main_arg11_at2 m ρ c]
  exact reshape_row128 (A m c main_arg11)

/-! ## Boundary 4: after region 1 -/

theorem v20_at4 (c : Dev nD) : W4 m ρ c (Proc.devRef .tc main_v20) = X1 m c := by
  refine (W4_arr m ρ c 8).trans ((node1_value (V3 m ρ) c).trans ?_)
  show nodeUpd 200000 5 (W3 m ρ c (Proc.devRef .tc main_arg0)) (W3 m ρ c (Proc.devRef .tc main_v15)) (W3 m ρ c (Proc.devRef .tc main_arg6)) (W3 m ρ c (Proc.devRef .tc main_v16)) (W3 m ρ c (Proc.devRef .tc main_arg8)) (W3 m ρ c (Proc.devRef .tc main_v17)) (W3 m ρ c (Proc.devRef .tc main_v18)) (W3 m ρ c (Proc.devRef .tc main_v19)) = _
  rw [main_arg0_at3 m ρ c, v15_at3 m ρ c, main_arg6_at3 m ρ c, v16_at3 m ρ c, main_arg8_at3 m ρ c, v17_at3 m ρ c, v18_at3 m ρ c, v19_at3 m ρ c]
  rfl

/-! ## Boundaries 5 to 8: the second layer -/

theorem v27_at5 (c : Dev nD) : W5 m ρ c (Proc.devRef .tc main_v27) = gather128 (X1 m c) (A m c main_arg1) := by
  show StableHlo.after hostOps2 (W4 m ρ c) (Proc.devRef .tc main_v27) = _
  after_results
  rw [main_v1_at4 m ρ c, v1_at1 m ρ c, v20_at4 m ρ c]
  rfl

theorem v28_at5 (c : Dev nD) : W5 m ρ c (Proc.devRef .tc main_v28) = rowOf (A m c main_arg13) := by
  show StableHlo.after hostOps2 (W4 m ρ c) (Proc.devRef .tc main_v28) = _
  after_results
  rw [main_arg13_at4 m ρ c]
  exact reshape_row128 (A m c main_arg13)

theorem v29_at6 (c : Dev nD) : W6 m ρ c (Proc.devRef .tc main_v29)
    = edgeMsg 400000 128 (A m c main_arg2) (gather128 (X1 m c) (A m c main_arg1)) (A m c main_arg12) (rowOf (A m c main_arg13)) := by
  refine (W6_arr m ρ c 4).trans ((edge2_value (V5 m ρ) c).trans ?_)
  show edgeMsg 400000 128 (W5 m ρ c (Proc.devRef .tc main_arg2)) (W5 m ρ c (Proc.devRef .tc main_v27)) (W5 m ρ c (Proc.devRef .tc main_arg12)) (W5 m ρ c (Proc.devRef .tc main_v28)) = _
  rw [main_arg2_at5 m ρ c, v27_at5 m ρ c, main_arg12_at5 m ρ c, v28_at5 m ρ c]

theorem v32_at7 (c : Dev nD) : W7 m ρ c (Proc.devRef .tc main_v32) = segsum128 (A m c main_arg1) (edgeMsg 400000 128 (A m c main_arg2) (gather128 (X1 m c) (A m c main_arg1)) (A m c main_arg12) (rowOf (A m c main_arg13))) := by
  show StableHlo.after hostOps3 (W6 m ρ c) (Proc.devRef .tc main_v32) = _
  after_results
  rw [main_v3_at6 m ρ c, v3_at1 m ρ c, v29_at6 m ρ c]
  rfl

theorem v33_at7 (c : Dev nD) : W7 m ρ c (Proc.devRef .tc main_v33) = rowOf (A m c main_arg15) := by
  show StableHlo.after hostOps3 (W6 m ρ c) (Proc.devRef .tc main_v33) = _
  after_results
  rw [main_arg15_at6 m ρ c]
  exact reshape_row128 (A m c main_arg15)

theorem v34_at7 (c : Dev nD) : W7 m ρ c (Proc.devRef .tc main_v34) = rowOf (A m c main_arg17) := by
  show StableHlo.after hostOps3 (W6 m ρ c) (Proc.devRef .tc main_v34) = _
  after_results
  rw [main_arg17_at6 m ρ c]
  exact reshape_row128 (A m c main_arg17)

theorem v35_at7 (c : Dev nD) : W7 m ρ c (Proc.devRef .tc main_v35) = rowOf (A m c main_arg18) := by
  show StableHlo.after hostOps3 (W6 m ρ c) (Proc.devRef .tc main_v35) = _
  after_results
  rw [main_arg18_at6 m ρ c]
  exact reshape_row128 (A m c main_arg18)

theorem v36_at7 (c : Dev nD) : W7 m ρ c (Proc.devRef .tc main_v36) = rowOf (A m c main_arg19) := by
  show StableHlo.after hostOps3 (W6 m ρ c) (Proc.devRef .tc main_v36) = _
  after_results
  rw [main_arg19_at6 m ρ c]
  exact reshape_row128 (A m c main_arg19)

theorem v37_at8 (c : Dev nD) : W8 m ρ c (Proc.devRef .tc main_v37) = X2 m c := by
  refine (W8_arr m ρ c 8).trans ((node3_value (V7 m ρ) c).trans ?_)
  show nodeUpd 200000 128 (W7 m ρ c (Proc.devRef .tc main_v20)) (W7 m ρ c (Proc.devRef .tc main_v32)) (W7 m ρ c (Proc.devRef .tc main_arg14)) (W7 m ρ c (Proc.devRef .tc main_v33)) (W7 m ρ c (Proc.devRef .tc main_arg16)) (W7 m ρ c (Proc.devRef .tc main_v34)) (W7 m ρ c (Proc.devRef .tc main_v35)) (W7 m ρ c (Proc.devRef .tc main_v36)) = _
  rw [main_v20_at7 m ρ c, v20_at4 m ρ c, v32_at7 m ρ c, main_arg14_at7 m ρ c, v33_at7 m ρ c, main_arg16_at7 m ρ c, v34_at7 m ρ c, v35_at7 m ρ c, v36_at7 m ρ c]
  rfl

/-! ## Boundaries 9 to 12: the third layer -/

theorem v44_at9 (c : Dev nD) : W9 m ρ c (Proc.devRef .tc main_v44) = gather128 (X2 m c) (A m c main_arg1) := by
  show StableHlo.after hostOps4 (W8 m ρ c) (Proc.devRef .tc main_v44) = _
  after_results
  rw [main_v1_at8 m ρ c, v1_at1 m ρ c, v37_at8 m ρ c]
  rfl

theorem v45_at9 (c : Dev nD) : W9 m ρ c (Proc.devRef .tc main_v45) = rowOf (A m c main_arg21) := by
  show StableHlo.after hostOps4 (W8 m ρ c) (Proc.devRef .tc main_v45) = _
  after_results
  rw [main_arg21_at8 m ρ c]
  exact reshape_row128 (A m c main_arg21)

theorem v46_at10 (c : Dev nD) : W10 m ρ c (Proc.devRef .tc main_v46)
    = edgeMsg 400000 128 (A m c main_arg2) (gather128 (X2 m c) (A m c main_arg1)) (A m c main_arg20) (rowOf (A m c main_arg21)) := by
  refine (W10_arr m ρ c 4).trans ((edge4_value (V9 m ρ) c).trans ?_)
  show edgeMsg 400000 128 (W9 m ρ c (Proc.devRef .tc main_arg2)) (W9 m ρ c (Proc.devRef .tc main_v44)) (W9 m ρ c (Proc.devRef .tc main_arg20)) (W9 m ρ c (Proc.devRef .tc main_v45)) = _
  rw [main_arg2_at9 m ρ c, v44_at9 m ρ c, main_arg20_at9 m ρ c, v45_at9 m ρ c]

theorem v49_at11 (c : Dev nD) : W11 m ρ c (Proc.devRef .tc main_v49) = segsum128 (A m c main_arg1) (edgeMsg 400000 128 (A m c main_arg2) (gather128 (X2 m c) (A m c main_arg1)) (A m c main_arg20) (rowOf (A m c main_arg21))) := by
  show StableHlo.after hostOps5 (W10 m ρ c) (Proc.devRef .tc main_v49) = _
  after_results
  rw [main_v3_at10 m ρ c, v3_at1 m ρ c, v46_at10 m ρ c]
  rfl

theorem v50_at11 (c : Dev nD) : W11 m ρ c (Proc.devRef .tc main_v50) = rowOf (A m c main_arg23) := by
  show StableHlo.after hostOps5 (W10 m ρ c) (Proc.devRef .tc main_v50) = _
  after_results
  rw [main_arg23_at10 m ρ c]
  exact reshape_row128 (A m c main_arg23)

theorem v51_at11 (c : Dev nD) : W11 m ρ c (Proc.devRef .tc main_v51) = rowOf (A m c main_arg25) := by
  show StableHlo.after hostOps5 (W10 m ρ c) (Proc.devRef .tc main_v51) = _
  after_results
  rw [main_arg25_at10 m ρ c]
  exact reshape_row128 (A m c main_arg25)

theorem v52_at11 (c : Dev nD) : W11 m ρ c (Proc.devRef .tc main_v52) = rowOf (A m c main_arg26) := by
  show StableHlo.after hostOps5 (W10 m ρ c) (Proc.devRef .tc main_v52) = _
  after_results
  rw [main_arg26_at10 m ρ c]
  exact reshape_row128 (A m c main_arg26)

theorem v53_at11 (c : Dev nD) : W11 m ρ c (Proc.devRef .tc main_v53) = rowOf (A m c main_arg27) := by
  show StableHlo.after hostOps5 (W10 m ρ c) (Proc.devRef .tc main_v53) = _
  after_results
  rw [main_arg27_at10 m ρ c]
  exact reshape_row128 (A m c main_arg27)

theorem v54_at12 (c : Dev nD) : W12 m ρ c (Proc.devRef .tc main_v54) = X3 m c := by
  refine (W12_arr m ρ c 8).trans ((node5_value (V11 m ρ) c).trans ?_)
  show nodeUpd 200000 128 (W11 m ρ c (Proc.devRef .tc main_v37)) (W11 m ρ c (Proc.devRef .tc main_v49)) (W11 m ρ c (Proc.devRef .tc main_arg22)) (W11 m ρ c (Proc.devRef .tc main_v50)) (W11 m ρ c (Proc.devRef .tc main_arg24)) (W11 m ρ c (Proc.devRef .tc main_v51)) (W11 m ρ c (Proc.devRef .tc main_v52)) (W11 m ρ c (Proc.devRef .tc main_v53)) = _
  rw [main_v37_at11 m ρ c, v37_at8 m ρ c, v49_at11 m ρ c, main_arg22_at11 m ρ c, v50_at11 m ρ c, main_arg24_at11 m ρ c, v51_at11 m ρ c, v52_at11 m ρ c, v53_at11 m ρ c]
  rfl

/-! ## Boundaries 13 to 15: the pooling and the closing arithmetic -/

theorem v55_at13 (c : Dev nD) : W13 m ρ c (Proc.devRef .tc main_v55) = colOf (A m c main_arg3) := by
  show StableHlo.after hostOps6 (W12 m ρ c) (Proc.devRef .tc main_v55) = _
  after_results
  rw [main_arg3_at12 m ρ c]
  exact reshape_col (A m c main_arg3)

theorem v56_at14 (c : Dev nD) : W14 m ρ c (Proc.devRef .tc main_v56) = poolSum 200000 64 (X3 m c) (colOf (A m c main_arg3)) := by
  refine (W14_arr m ρ c 2).trans ((pool6_value (V13 m ρ) c).trans ?_)
  show poolSum 200000 64 (W13 m ρ c (Proc.devRef .tc main_v54)) (W13 m ρ c (Proc.devRef .tc main_v55)) = _
  rw [main_v54_at13 m ρ c, v54_at12 m ρ c, v55_at13 m ρ c]

set_option maxHeartbeats 4000000 in
/-- The last host stretch, from any contents R: the result buffer ends at the closing arithmetic of the pooled array and
    the graph words R holds. -/
theorem closing_after (R : Valuation τ sig (Elt Ideal)) :
    StableHlo.after (hostOps7 (F := Ideal)) R (Proc.devRef .tc main_v66)
      = closing (R (Proc.devRef .tc main_v56)) (R (Proc.devRef .tc main_arg3)) := by
  after_results_simp
  repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))
  rfl

/-- THE KERNEL PROGRAM'S RESULT: what the last boundary holds in the result buffer is the network of the arguments. -/
theorem kernel_value (c : Dev nD) : W15 m ρ c (Proc.devRef .tc main_v66)
    = net (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg22) (A m c main_arg23) (A m c main_arg24) (A m c main_arg25) (A m c main_arg26) (A m c main_arg27) := by
  refine (closing_after (W14 m ρ c)).trans ?_
  rw [main_arg3_at14 m ρ c, v56_at14 m ρ c]
  rfl

end Cert.KernelIdeal.Chain

end
-- ==== Proof.RCarry.lean ====
import proofs.«409793_j85925115724498_1_alg».proof.Proof.RRun

set_option maxRecDepth 16384

noncomputable section

namespace Cert.ReferenceIdeal.Stages

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- A stretch of host operations leaves a buffer that none of them writes: the buffer differs from every result buffer. -/
local macro "stretch_keeps " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable (R0 : Valuation τ sig (Elt F))

/-- The buffers after the first layer's operations, after the second's, after the third's. -/
def R1 : Valuation τ sig (Elt F) := after opsL1 R0
def R2 : Valuation τ sig (Elt F) := after opsL2 (R1 R0)
def R3 : Valuation τ sig (Elt F) := after opsL3 (R2 R0)

theorem r1_keep_main_arg2 : R1 R0 (Proc.devRef .tc main_arg2) = R0 (Proc.devRef .tc main_arg2) := by unfold R1; stretch_keeps opsL1
theorem r1_keep_main_arg3 : R1 R0 (Proc.devRef .tc main_arg3) = R0 (Proc.devRef .tc main_arg3) := by unfold R1; stretch_keeps opsL1
theorem r1_keep_main_arg12 : R1 R0 (Proc.devRef .tc main_arg12) = R0 (Proc.devRef .tc main_arg12) := by unfold R1; stretch_keeps opsL1
theorem r1_keep_main_arg13 : R1 R0 (Proc.devRef .tc main_arg13) = R0 (Proc.devRef .tc main_arg13) := by unfold R1; stretch_keeps opsL1
theorem r1_keep_main_arg14 : R1 R0 (Proc.devRef .tc main_arg14) = R0 (Proc.devRef .tc main_arg14) := by unfold R1; stretch_keeps opsL1
theorem r1_keep_main_arg15 : R1 R0 (Proc.devRef .tc main_arg15) = R0 (Proc.devRef .tc main_arg15) := by unfold R1; stretch_keeps opsL1
theorem r1_keep_main_arg16 : R1 R0 (Proc.devRef .tc main_arg16) = R0 (Proc.devRef .tc main_arg16) := by unfold R1; stretch_keeps opsL1
theorem r1_keep_main_arg17 : R1 R0 (Proc.devRef .tc main_arg17) = R0 (Proc.devRef .tc main_arg17) := by unfold R1; stretch_keeps opsL1
theorem r1_keep_main_arg18 : R1 R0 (Proc.devRef .tc main_arg18) = R0 (Proc.devRef .tc main_arg18) := by unfold R1; stretch_keeps opsL1
theorem r1_keep_main_arg19 : R1 R0 (Proc.devRef .tc main_arg19) = R0 (Proc.devRef .tc main_arg19) := by unfold R1; stretch_keeps opsL1
theorem r1_keep_main_arg20 : R1 R0 (Proc.devRef .tc main_arg20) = R0 (Proc.devRef .tc main_arg20) := by unfold R1; stretch_keeps opsL1
theorem r1_keep_main_arg21 : R1 R0 (Proc.devRef .tc main_arg21) = R0 (Proc.devRef .tc main_arg21) := by unfold R1; stretch_keeps opsL1
theorem r1_keep_main_arg22 : R1 R0 (Proc.devRef .tc main_arg22) = R0 (Proc.devRef .tc main_arg22) := by unfold R1; stretch_keeps opsL1
theorem r1_keep_main_arg23 : R1 R0 (Proc.devRef .tc main_arg23) = R0 (Proc.devRef .tc main_arg23) := by unfold R1; stretch_keeps opsL1
theorem r1_keep_main_arg24 : R1 R0 (Proc.devRef .tc main_arg24) = R0 (Proc.devRef .tc main_arg24) := by unfold R1; stretch_keeps opsL1
theorem r1_keep_main_arg25 : R1 R0 (Proc.devRef .tc main_arg25) = R0 (Proc.devRef .tc main_arg25) := by unfold R1; stretch_keeps opsL1
theorem r1_keep_main_arg26 : R1 R0 (Proc.devRef .tc main_arg26) = R0 (Proc.devRef .tc main_arg26) := by unfold R1; stretch_keeps opsL1
theorem r1_keep_main_arg27 : R1 R0 (Proc.devRef .tc main_arg27) = R0 (Proc.devRef .tc main_arg27) := by unfold R1; stretch_keeps opsL1

theorem r2_keep_main_v1 : R2 R0 (Proc.devRef .tc main_v1) = R1 R0 (Proc.devRef .tc main_v1) := by unfold R2; stretch_keeps opsL2
theorem r2_keep_main_v3 : R2 R0 (Proc.devRef .tc main_v3) = R1 R0 (Proc.devRef .tc main_v3) := by unfold R2; stretch_keeps opsL2
theorem r2_keep_main_arg2 : R2 R0 (Proc.devRef .tc main_arg2) = R1 R0 (Proc.devRef .tc main_arg2) := by unfold R2; stretch_keeps opsL2
theorem r2_keep_main_arg3 : R2 R0 (Proc.devRef .tc main_arg3) = R1 R0 (Proc.devRef .tc main_arg3) := by unfold R2; stretch_keeps opsL2
theorem r2_keep_main_arg20 : R2 R0 (Proc.devRef .tc main_arg20) = R1 R0 (Proc.devRef .tc main_arg20) := by unfold R2; stretch_keeps opsL2
theorem r2_keep_main_arg21 : R2 R0 (Proc.devRef .tc main_arg21) = R1 R0 (Proc.devRef .tc main_arg21) := by unfold R2; stretch_keeps opsL2
theorem r2_keep_main_arg22 : R2 R0 (Proc.devRef .tc main_arg22) = R1 R0 (Proc.devRef .tc main_arg22) := by unfold R2; stretch_keeps opsL2
theorem r2_keep_main_arg23 : R2 R0 (Proc.devRef .tc main_arg23) = R1 R0 (Proc.devRef .tc main_arg23) := by unfold R2; stretch_keeps opsL2
theorem r2_keep_main_arg24 : R2 R0 (Proc.devRef .tc main_arg24) = R1 R0 (Proc.devRef .tc main_arg24) := by unfold R2; stretch_keeps opsL2
theorem r2_keep_main_arg25 : R2 R0 (Proc.devRef .tc main_arg25) = R1 R0 (Proc.devRef .tc main_arg25) := by unfold R2; stretch_keeps opsL2
theorem r2_keep_main_arg26 : R2 R0 (Proc.devRef .tc main_arg26) = R1 R0 (Proc.devRef .tc main_arg26) := by unfold R2; stretch_keeps opsL2
theorem r2_keep_main_arg27 : R2 R0 (Proc.devRef .tc main_arg27) = R1 R0 (Proc.devRef .tc main_arg27) := by unfold R2; stretch_keeps opsL2

theorem r3_keep_main_arg3 : R3 R0 (Proc.devRef .tc main_arg3) = R2 R0 (Proc.devRef .tc main_arg3) := by unfold R3; stretch_keeps opsL3

/-! ## Each argument still read after a cut is as launched -/

theorem r1_arg2 : R1 R0 (Proc.devRef .tc main_arg2) = R0 (Proc.devRef .tc main_arg2) := r1_keep_main_arg2 R0
theorem r1_arg3 : R1 R0 (Proc.devRef .tc main_arg3) = R0 (Proc.devRef .tc main_arg3) := r1_keep_main_arg3 R0
theorem r1_arg12 : R1 R0 (Proc.devRef .tc main_arg12) = R0 (Proc.devRef .tc main_arg12) := r1_keep_main_arg12 R0
theorem r1_arg13 : R1 R0 (Proc.devRef .tc main_arg13) = R0 (Proc.devRef .tc main_arg13) := r1_keep_main_arg13 R0
theorem r1_arg14 : R1 R0 (Proc.devRef .tc main_arg14) = R0 (Proc.devRef .tc main_arg14) := r1_keep_main_arg14 R0
theorem r1_arg15 : R1 R0 (Proc.devRef .tc main_arg15) = R0 (Proc.devRef .tc main_arg15) := r1_keep_main_arg15 R0
theorem r1_arg16 : R1 R0 (Proc.devRef .tc main_arg16) = R0 (Proc.devRef .tc main_arg16) := r1_keep_main_arg16 R0
theorem r1_arg17 : R1 R0 (Proc.devRef .tc main_arg17) = R0 (Proc.devRef .tc main_arg17) := r1_keep_main_arg17 R0
theorem r1_arg18 : R1 R0 (Proc.devRef .tc main_arg18) = R0 (Proc.devRef .tc main_arg18) := r1_keep_main_arg18 R0
theorem r1_arg19 : R1 R0 (Proc.devRef .tc main_arg19) = R0 (Proc.devRef .tc main_arg19) := r1_keep_main_arg19 R0
theorem r1_arg20 : R1 R0 (Proc.devRef .tc main_arg20) = R0 (Proc.devRef .tc main_arg20) := r1_keep_main_arg20 R0
theorem r1_arg21 : R1 R0 (Proc.devRef .tc main_arg21) = R0 (Proc.devRef .tc main_arg21) := r1_keep_main_arg21 R0
theorem r1_arg22 : R1 R0 (Proc.devRef .tc main_arg22) = R0 (Proc.devRef .tc main_arg22) := r1_keep_main_arg22 R0
theorem r1_arg23 : R1 R0 (Proc.devRef .tc main_arg23) = R0 (Proc.devRef .tc main_arg23) := r1_keep_main_arg23 R0
theorem r1_arg24 : R1 R0 (Proc.devRef .tc main_arg24) = R0 (Proc.devRef .tc main_arg24) := r1_keep_main_arg24 R0
theorem r1_arg25 : R1 R0 (Proc.devRef .tc main_arg25) = R0 (Proc.devRef .tc main_arg25) := r1_keep_main_arg25 R0
theorem r1_arg26 : R1 R0 (Proc.devRef .tc main_arg26) = R0 (Proc.devRef .tc main_arg26) := r1_keep_main_arg26 R0
theorem r1_arg27 : R1 R0 (Proc.devRef .tc main_arg27) = R0 (Proc.devRef .tc main_arg27) := r1_keep_main_arg27 R0
theorem r2_arg2 : R2 R0 (Proc.devRef .tc main_arg2) = R0 (Proc.devRef .tc main_arg2) := (r2_keep_main_arg2 R0).trans (r1_arg2 R0)
theorem r2_arg3 : R2 R0 (Proc.devRef .tc main_arg3) = R0 (Proc.devRef .tc main_arg3) := (r2_keep_main_arg3 R0).trans (r1_arg3 R0)
theorem r2_arg20 : R2 R0 (Proc.devRef .tc main_arg20) = R0 (Proc.devRef .tc main_arg20) := (r2_keep_main_arg20 R0).trans (r1_arg20 R0)
theorem r2_arg21 : R2 R0 (Proc.devRef .tc main_arg21) = R0 (Proc.devRef .tc main_arg21) := (r2_keep_main_arg21 R0).trans (r1_arg21 R0)
theorem r2_arg22 : R2 R0 (Proc.devRef .tc main_arg22) = R0 (Proc.devRef .tc main_arg22) := (r2_keep_main_arg22 R0).trans (r1_arg22 R0)
theorem r2_arg23 : R2 R0 (Proc.devRef .tc main_arg23) = R0 (Proc.devRef .tc main_arg23) := (r2_keep_main_arg23 R0).trans (r1_arg23 R0)
theorem r2_arg24 : R2 R0 (Proc.devRef .tc main_arg24) = R0 (Proc.devRef .tc main_arg24) := (r2_keep_main_arg24 R0).trans (r1_arg24 R0)
theorem r2_arg25 : R2 R0 (Proc.devRef .tc main_arg25) = R0 (Proc.devRef .tc main_arg25) := (r2_keep_main_arg25 R0).trans (r1_arg25 R0)
theorem r2_arg26 : R2 R0 (Proc.devRef .tc main_arg26) = R0 (Proc.devRef .tc main_arg26) := (r2_keep_main_arg26 R0).trans (r1_arg26 R0)
theorem r2_arg27 : R2 R0 (Proc.devRef .tc main_arg27) = R0 (Proc.devRef .tc main_arg27) := (r2_keep_main_arg27 R0).trans (r1_arg27 R0)
theorem r3_arg3 : R3 R0 (Proc.devRef .tc main_arg3) = R0 (Proc.devRef .tc main_arg3) := (r3_keep_main_arg3 R0).trans (r2_arg3 R0)

/-! ## After the whole line every argument is as launched -/

theorem arg0_after : after ops R0 (Proc.devRef .tc main_arg0) = R0 (Proc.devRef .tc main_arg0) := by stretch_keeps ops
theorem arg1_after : after ops R0 (Proc.devRef .tc main_arg1) = R0 (Proc.devRef .tc main_arg1) := by stretch_keeps ops
theorem arg2_after : after ops R0 (Proc.devRef .tc main_arg2) = R0 (Proc.devRef .tc main_arg2) := by stretch_keeps ops
theorem arg3_after : after ops R0 (Proc.devRef .tc main_arg3) = R0 (Proc.devRef .tc main_arg3) := by stretch_keeps ops
theorem arg4_after : after ops R0 (Proc.devRef .tc main_arg4) = R0 (Proc.devRef .tc main_arg4) := by stretch_keeps ops
theorem arg5_after : after ops R0 (Proc.devRef .tc main_arg5) = R0 (Proc.devRef .tc main_arg5) := by stretch_keeps ops
theorem arg6_after : after ops R0 (Proc.devRef .tc main_arg6) = R0 (Proc.devRef .tc main_arg6) := by stretch_keeps ops
theorem arg7_after : after ops R0 (Proc.devRef .tc main_arg7) = R0 (Proc.devRef .tc main_arg7) := by stretch_keeps ops
theorem arg8_after : after ops R0 (Proc.devRef .tc main_arg8) = R0 (Proc.devRef .tc main_arg8) := by stretch_keeps ops
theorem arg9_after : after ops R0 (Proc.devRef .tc main_arg9) = R0 (Proc.devRef .tc main_arg9) := by stretch_keeps ops
theorem arg10_after : after ops R0 (Proc.devRef .tc main_arg10) = R0 (Proc.devRef .tc main_arg10) := by stretch_keeps ops
theorem arg11_after : after ops R0 (Proc.devRef .tc main_arg11) = R0 (Proc.devRef .tc main_arg11) := by stretch_keeps ops
theorem arg12_after : after ops R0 (Proc.devRef .tc main_arg12) = R0 (Proc.devRef .tc main_arg12) := by stretch_keeps ops
theorem arg13_after : after ops R0 (Proc.devRef .tc main_arg13) = R0 (Proc.devRef .tc main_arg13) := by stretch_keeps ops
theorem arg14_after : after ops R0 (Proc.devRef .tc main_arg14) = R0 (Proc.devRef .tc main_arg14) := by stretch_keeps ops
theorem arg15_after : after ops R0 (Proc.devRef .tc main_arg15) = R0 (Proc.devRef .tc main_arg15) := by stretch_keeps ops
theorem arg16_after : after ops R0 (Proc.devRef .tc main_arg16) = R0 (Proc.devRef .tc main_arg16) := by stretch_keeps ops
theorem arg17_after : after ops R0 (Proc.devRef .tc main_arg17) = R0 (Proc.devRef .tc main_arg17) := by stretch_keeps ops
theorem arg18_after : after ops R0 (Proc.devRef .tc main_arg18) = R0 (Proc.devRef .tc main_arg18) := by stretch_keeps ops
theorem arg19_after : after ops R0 (Proc.devRef .tc main_arg19) = R0 (Proc.devRef .tc main_arg19) := by stretch_keeps ops
theorem arg20_after : after ops R0 (Proc.devRef .tc main_arg20) = R0 (Proc.devRef .tc main_arg20) := by stretch_keeps ops
theorem arg21_after : after ops R0 (Proc.devRef .tc main_arg21) = R0 (Proc.devRef .tc main_arg21) := by stretch_keeps ops
theorem arg22_after : after ops R0 (Proc.devRef .tc main_arg22) = R0 (Proc.devRef .tc main_arg22) := by stretch_keeps ops
theorem arg23_after : after ops R0 (Proc.devRef .tc main_arg23) = R0 (Proc.devRef .tc main_arg23) := by stretch_keeps ops
theorem arg24_after : after ops R0 (Proc.devRef .tc main_arg24) = R0 (Proc.devRef .tc main_arg24) := by stretch_keeps ops
theorem arg25_after : after ops R0 (Proc.devRef .tc main_arg25) = R0 (Proc.devRef .tc main_arg25) := by stretch_keeps ops
theorem arg26_after : after ops R0 (Proc.devRef .tc main_arg26) = R0 (Proc.devRef .tc main_arg26) := by stretch_keeps ops
theorem arg27_after : after ops R0 (Proc.devRef .tc main_arg27) = R0 (Proc.devRef .tc main_arg27) := by stretch_keeps ops

end Cert.ReferenceIdeal.Stages

end
-- ==== Proof.RStages.lean ====
/-
  The reference's run, read stage by stage.

  @main of the reference is one line of 216 host operations: three layers and the closing part. Its buffers after the run
  are the fold of the operations' results over the launch contents. The fold is cut at the three layer ends; after each cut
  only a few buffers are still read later — the layer's output, the two index vectors, and the arguments — and each is
  named: the layer's output is the stage function of the arguments, the index vectors are the first two stages of the edge
  index, the arguments are unchanged. So the result buffer ends at the last stage of the arguments.
-/
import proofs.«409793_j85925115724498_1_alg».proof.Proof.RCarry
import proofs.«409793_j85925115724498_1_alg».proof.Proof.RRead
import Idealize.ShloMosaic.Lib.Pipeline.Frame

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (R0 : Valuation τ sig (Elt F))

/-! ## After the first layer -/

set_option maxHeartbeats 4000000 in
/-- The source words: the first row of the edge index, as a vector. -/
theorem r1_v1 : R1 R0 (Proc.devRef .tc main_v1) = val_main_v1 (F := F) (R0 (Proc.devRef .tc main_arg1)) := by
  unfold R1; after_results_simp <;> rfl
set_option maxHeartbeats 4000000 in
/-- The destination words: the second row of the edge index. -/
theorem r1_v3 : R1 R0 (Proc.devRef .tc main_v3) = val_main_v3 (F := F) (R0 (Proc.devRef .tc main_arg1)) := by
  unfold R1; after_results_simp <;> rfl
set_option maxHeartbeats 4000000 in
/-- The first layer's output is its stage function of the arguments. -/
theorem r1_v54 : R1 R0 (Proc.devRef .tc main_v54) = val_main_v54 (F := F) (R0 (Proc.devRef .tc main_arg0)) (R0 (Proc.devRef .tc main_arg1)) (R0 (Proc.devRef .tc main_arg2)) (R0 (Proc.devRef .tc main_arg4)) (R0 (Proc.devRef .tc main_arg5)) (R0 (Proc.devRef .tc main_arg6)) (R0 (Proc.devRef .tc main_arg7)) (R0 (Proc.devRef .tc main_arg8)) (R0 (Proc.devRef .tc main_arg9)) (R0 (Proc.devRef .tc main_arg10)) (R0 (Proc.devRef .tc main_arg11)) := by
  unfold R1; after_results_simp <;> rfl

/-! ## After the second layer -/

theorem r2_v1 : R2 R0 (Proc.devRef .tc main_v1) = val_main_v1 (F := F) (R0 (Proc.devRef .tc main_arg1)) :=
  (r2_keep_main_v1 R0).trans (r1_v1 R0)
theorem r2_v3 : R2 R0 (Proc.devRef .tc main_v3) = val_main_v3 (F := F) (R0 (Proc.devRef .tc main_arg1)) :=
  (r2_keep_main_v3 R0).trans (r1_v3 R0)
set_option maxHeartbeats 4000000 in
/-- The second layer's output: its operations read the first layer's output, the index vectors and their own arguments,
    each already named. -/
theorem r2_v105 : R2 R0 (Proc.devRef .tc main_v105) = val_main_v105 (F := F) (R0 (Proc.devRef .tc main_arg0)) (R0 (Proc.devRef .tc main_arg1)) (R0 (Proc.devRef .tc main_arg2)) (R0 (Proc.devRef .tc main_arg4)) (R0 (Proc.devRef .tc main_arg5)) (R0 (Proc.devRef .tc main_arg6)) (R0 (Proc.devRef .tc main_arg7)) (R0 (Proc.devRef .tc main_arg8)) (R0 (Proc.devRef .tc main_arg9)) (R0 (Proc.devRef .tc main_arg10)) (R0 (Proc.devRef .tc main_arg11)) (R0 (Proc.devRef .tc main_arg12)) (R0 (Proc.devRef .tc main_arg13)) (R0 (Proc.devRef .tc main_arg14)) (R0 (Proc.devRef .tc main_arg15)) (R0 (Proc.devRef .tc main_arg16)) (R0 (Proc.devRef .tc main_arg17)) (R0 (Proc.devRef .tc main_arg18)) (R0 (Proc.devRef .tc main_arg19)) := by
  unfold R2
  after_results_simp
  rw [r1_v54 R0, r1_v1 R0, r1_v3 R0, r1_arg2 R0, r1_arg12 R0, r1_arg13 R0, r1_arg14 R0, r1_arg15 R0, r1_arg16 R0, r1_arg17 R0, r1_arg18 R0, r1_arg19 R0]
  rfl

/-! ## After the third layer -/

set_option maxHeartbeats 4000000 in
theorem r3_v156 : R3 R0 (Proc.devRef .tc main_v156) = val_main_v156 (F := F) (R0 (Proc.devRef .tc main_arg0)) (R0 (Proc.devRef .tc main_arg1)) (R0 (Proc.devRef .tc main_arg2)) (R0 (Proc.devRef .tc main_arg4)) (R0 (Proc.devRef .tc main_arg5)) (R0 (Proc.devRef .tc main_arg6)) (R0 (Proc.devRef .tc main_arg7)) (R0 (Proc.devRef .tc main_arg8)) (R0 (Proc.devRef .tc main_arg9)) (R0 (Proc.devRef .tc main_arg10)) (R0 (Proc.devRef .tc main_arg11)) (R0 (Proc.devRef .tc main_arg12)) (R0 (Proc.devRef .tc main_arg13)) (R0 (Proc.devRef .tc main_arg14)) (R0 (Proc.devRef .tc main_arg15)) (R0 (Proc.devRef .tc main_arg16)) (R0 (Proc.devRef .tc main_arg17)) (R0 (Proc.devRef .tc main_arg18)) (R0 (Proc.devRef .tc main_arg19)) (R0 (Proc.devRef .tc main_arg20)) (R0 (Proc.devRef .tc main_arg21)) (R0 (Proc.devRef .tc main_arg22)) (R0 (Proc.devRef .tc main_arg23)) (R0 (Proc.devRef .tc main_arg24)) (R0 (Proc.devRef .tc main_arg25)) (R0 (Proc.devRef .tc main_arg26)) (R0 (Proc.devRef .tc main_arg27)) := by
  unfold R3
  after_results_simp
  rw [r2_v105 R0, r2_v1 R0, r2_v3 R0, r2_arg2 R0, r2_arg20 R0, r2_arg21 R0, r2_arg22 R0, r2_arg23 R0, r2_arg24 R0, r2_arg25 R0, r2_arg26 R0, r2_arg27 R0]
  rfl

/-! ## The closing part, and the whole line -/

set_option maxHeartbeats 4000000 in
/-- The closing part from any contents R: the result buffer ends at the concatenation the last stage states, over what R
    holds in the third layer's output and in the graph words. -/
theorem closing_after (R : Valuation τ sig (Elt F)) :
    after opsT R (Proc.devRef .tc main_v169)
      = concatenate S64x256 1
          [⟨S64x128, Host.divf
              (Host.scatterAdd scatter_S64x128_S200000x1_S200000x128_1_0_0_1 (val_main_v157 (F := F)) (val_main_v158 (F := F) (R (Proc.devRef .tc main_arg3))) (R (Proc.devRef .tc main_v156)))
              (val_main_v167 (F := F) (R (Proc.devRef .tc main_arg3)))⟩,
           ⟨S64x128, Host.scatterAdd scatter_S64x128_S200000x1_S200000x128_1_0_0_1 (val_main_v157 (F := F)) (val_main_v158 (F := F) (R (Proc.devRef .tc main_arg3))) (R (Proc.devRef .tc main_v156))⟩]
          Facts₀.concatenates_S64x128_S64x128_S64x256_d1 := by
  after_results_simp
  repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))
  rfl

/-- THE REFERENCE'S RESULT: after all 216 operations the result buffer holds the last stage of the launch contents of the
    arguments. -/
theorem result_after : after ops R0 (Proc.devRef .tc main_v169) = val_main_v169 (F := F) (R0 (Proc.devRef .tc main_arg0)) (R0 (Proc.devRef .tc main_arg1)) (R0 (Proc.devRef .tc main_arg2)) (R0 (Proc.devRef .tc main_arg3)) (R0 (Proc.devRef .tc main_arg4)) (R0 (Proc.devRef .tc main_arg5)) (R0 (Proc.devRef .tc main_arg6)) (R0 (Proc.devRef .tc main_arg7)) (R0 (Proc.devRef .tc main_arg8)) (R0 (Proc.devRef .tc main_arg9)) (R0 (Proc.devRef .tc main_arg10)) (R0 (Proc.devRef .tc main_arg11)) (R0 (Proc.devRef .tc main_arg12)) (R0 (Proc.devRef .tc main_arg13)) (R0 (Proc.devRef .tc main_arg14)) (R0 (Proc.devRef .tc main_arg15)) (R0 (Proc.devRef .tc main_arg16)) (R0 (Proc.devRef .tc main_arg17)) (R0 (Proc.devRef .tc main_arg18)) (R0 (Proc.devRef .tc main_arg19)) (R0 (Proc.devRef .tc main_arg20)) (R0 (Proc.devRef .tc main_arg21)) (R0 (Proc.devRef .tc main_arg22)) (R0 (Proc.devRef .tc main_arg23)) (R0 (Proc.devRef .tc main_arg24)) (R0 (Proc.devRef .tc main_arg25)) (R0 (Proc.devRef .tc main_arg26)) (R0 (Proc.devRef .tc main_arg27)) := by
  rw [ops_cut, StableHlo.after_append, StableHlo.after_append, StableHlo.after_append]
  refine (closing_after (R3 R0)).trans ?_
  rw [r3_v156 R0, r3_arg3 R0]
  rfl

end Cert.ReferenceIdeal.Stages

end
-- ==== Proof.REdge1.lean ====
/-
  The reference's first-layer edge messages, read index by index.
-/
import proofs.«409793_j85925115724498_1_alg».proof.Proof.RRead
import proofs.«409793_j85925115724498_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefMath

open Cert.ReferenceIdeal Cert.ReferenceIdeal.ReadP Cert.Spec
open Idealize.ShloMosaic Idealize.ShloMosaic.ValueIdx

/-- The reference's edge messages of layer 1: its one-term matrix product of the edge attribute column with the weight
    row, plus the bias row, plus the gathered source rows, rectified, is the edge message of the mathematics. -/
theorem ref_edge1 (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) :
    val_main_v16 (F := Ideal) x0 x1 x2 x4 x5 = edgeMsg 400000 5 x2 (val_main_v14 (F := Ideal) x0 x1) x4 (rowOf x5) := by
  funext i
  obtain ⟨p, q, rfl⟩ : ∃ (p : Fin 400000) (q : Fin 5), i = ix2 p q := ⟨i 0, i 1, eq_ix2 i⟩
  -- the one term of the product reads the attribute column at (p, 0) and the weight row at (0, q)
  have el : lidx_main_v4 (ix2 p q) (0 : Fin 1) = ix2 p (0 : Fin 1) :=
    funext fun a => Fin.ext (by match a with | ⟨0, _⟩ => rfl | ⟨1, _⟩ => rfl)
  have er : ridx_main_v4 (ix2 p q) (0 : Fin 1) = ix2 (0 : Fin 1) q :=
    funext fun a => Fin.ext (by match a with | ⟨0, _⟩ => rfl | ⟨1, _⟩ => rfl)
  -- the bias vector, laid out as a row and repeated down the rows, reads its entry q
  have eb : idx_main_v5 (idx_main_v6 (ix2 p q)) = ix1 q :=
    funext fun a => Fin.ext (by match a with | ⟨0, _⟩ => rfl)
  rw [val_main_v16_apply, val_main_v15_apply, val_main_v7_apply, val_main_v4_apply, val_main_v6_apply,
    val_main_v5_apply, val_main_call0_v0_apply, val_main_call0_cst_apply, Fin.sum_univ_one, el, er, eb]
  simp only [Ideal.addf_def, Ideal.maximumf_def, Ideal.ofBits_def, Ideal.ofBits_zero_f32]
  rfl

end Cert.ReferenceIdeal.RefMath

end
-- ==== Proof.RNode1.lean ====
/-
  The reference's first-layer node update, read index by index.
-/
import proofs.«409793_j85925115724498_1_alg».proof.Proof.RRead
import proofs.«409793_j85925115724498_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefMath

open Cert.ReferenceIdeal Cert.ReferenceIdeal.ReadP Cert.Spec
open Idealize.ShloMosaic Idealize.ShloMosaic.ValueIdx

/-- The reference's first affine map and rectifier, index by index: the sum over the 5 input features of (x + aggr)
    times the weight, plus the bias, rectified. -/
theorem ref_n1_h1 (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) :
    val_main_v25 (F := Ideal) x0 x1 x2 x4 x5 x6 x7 = hidden1 200000 5 x0 (val_main_v19 (F := Ideal) x0 x1 x2 x4 x5) x6 (rowOf x7) := by
  funext i
  obtain ⟨p, q, rfl⟩ : ∃ (p : Fin 200000) (q : Fin 128), i = ix2 p q := ⟨i 0, i 1, eq_ix2 i⟩
  rw [val_main_v25_apply, val_main_v24_apply, val_main_v21_apply, val_main_v23_apply, val_main_v22_apply,
    val_main_call1_v0_apply, val_main_call1_cst_apply]
  have el : ∀ k : Fin 5, lidx_main_v21 (ix2 p q) k = ix2 p k := fun k => funext fun a => Fin.ext (by match a with | ⟨0, _⟩ => rfl | ⟨1, _⟩ => rfl)
  have er : ∀ k : Fin 5, ridx_main_v21 (ix2 p q) k = ix2 k q := fun k => funext fun a => Fin.ext (by match a with | ⟨0, _⟩ => rfl | ⟨1, _⟩ => rfl)
  have eb : idx_main_v22 (idx_main_v23 (ix2 p q)) = ix1 q := funext fun a => Fin.ext (by match a with | ⟨0, _⟩ => rfl)
  simp only [el, er, eb, val_main_v20_apply, Ideal.addf_def, Ideal.maximumf_def, Ideal.ofBits_def, Ideal.ofBits_zero_f32]
  rfl

/-- The reference's second affine map, index by index, over the rectified first one. -/
theorem ref_n1_h2 (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v29 (F := Ideal) x0 x1 x2 x4 x5 x6 x7 x8 x9
      = hidden2 200000 (hidden1 200000 5 x0 (val_main_v19 (F := Ideal) x0 x1 x2 x4 x5) x6 (rowOf x7)) x8 (rowOf x9) := by
  funext i
  obtain ⟨p, q, rfl⟩ : ∃ (p : Fin 200000) (q : Fin 128), i = ix2 p q := ⟨i 0, i 1, eq_ix2 i⟩
  rw [val_main_v29_apply, val_main_v26_apply, val_main_v28_apply, val_main_v27_apply, ref_n1_h1]
  have el : ∀ k : Fin 128, lidx_main_v26 (ix2 p q) k = ix2 p k := fun k => funext fun a => Fin.ext (by match a with | ⟨0, _⟩ => rfl | ⟨1, _⟩ => rfl)
  have er : ∀ k : Fin 128, ridx_main_v26 (ix2 p q) k = ix2 k q := fun k => funext fun a => Fin.ext (by match a with | ⟨0, _⟩ => rfl | ⟨1, _⟩ => rfl)
  have eb : idx_main_v27 (idx_main_v28 (ix2 p q)) = ix1 q := funext fun a => Fin.ext (by match a with | ⟨0, _⟩ => rfl)
  simp only [el, er, eb, Ideal.addf_def]
  rfl

/-- The reference's row mean: the host sum over the 128 features (from the zero initial value) divided by 128. -/
theorem ref_n1_mean (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (p : Fin 200000) (u : Fin 1) :
    val_main_v33 (F := Ideal) x0 x1 x2 x4 x5 x6 x7 x8 x9 (ix2 p u) = rowMean 200000 (val_main_v29 (F := Ideal) x0 x1 x2 x4 x5 x6 x7 x8 x9) p := by
  rw [val_main_v33_apply, val_main_v31_apply, val_main_v30_apply, val_main_v32_apply, val_main_cst_2_apply, val_main_cst_1_apply]
  have e : ∀ k : Fin 128, idx_main_v30 (idx_main_v31 (ix2 p u)) k = ix2 p k := fun k => funext fun a => Fin.ext (by match a with | ⟨0, _⟩ => rfl | ⟨1, _⟩ => rfl)
  simp only [e, Ideal.hostDivf_def, Ideal.ofBits_def, Ideal.ofBits_zero_f32, zero_add]
  rfl

/-- The reference's row variance: the host sum of the squared centred features divided by 128. -/
theorem ref_n1_var (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (p : Fin 200000) (u : Fin 1) :
    val_main_v40 (F := Ideal) x0 x1 x2 x4 x5 x6 x7 x8 x9 (ix2 p u) = rowVar 200000 (val_main_v29 (F := Ideal) x0 x1 x2 x4 x5 x6 x7 x8 x9) p := by
  rw [val_main_v40_apply, val_main_v38_apply, val_main_v37_apply, val_main_v39_apply, val_main_cst_4_apply, val_main_cst_3_apply]
  have e : ∀ k : Fin 128, idx_main_v37 (idx_main_v38 (ix2 p u)) k = ix2 p k := fun k => funext fun a => Fin.ext (by match a with | ⟨0, _⟩ => rfl | ⟨1, _⟩ => rfl)
  have ec : ∀ k : Fin 128, idx_main_v34 (ix2 p k : S200000x128.Idx) = ix2 p (0 : Fin 1) := fun k => funext fun a => Fin.ext (by match a with | ⟨0, _⟩ => rfl | ⟨1, _⟩ => rfl)
  simp only [e, val_main_v36_apply, val_main_v35_apply, val_main_v34_apply, ec, ref_n1_mean, Ideal.hostDivf_def, Ideal.mulf_def, Ideal.subf_def,
    Ideal.ofBits_def, Ideal.ofBits_zero_f32, zero_add]
  rfl

/-- The reference's node update of layer 1 — add, two matrix products with their bias rows and a rectifier between, the
    row mean and variance as host sums divided by 128, the normalization, scale, shift and rectifier — is the node update
    of the mathematics. -/
theorem ref_node1 (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) :
    val_main_v54 (F := Ideal) x0 x1 x2 x4 x5 x6 x7 x8 x9 x10 x11
      = nodeUpd 200000 5 x0 (val_main_v19 (F := Ideal) x0 x1 x2 x4 x5) x6 (rowOf x7) x8 (rowOf x9) (rowOf x10) (rowOf x11) := by
  funext i
  obtain ⟨p, q, rfl⟩ : ∃ (p : Fin 200000) (q : Fin 128), i = ix2 p q := ⟨i 0, i 1, eq_ix2 i⟩
  rw [val_main_v54_apply, val_main_v53_apply, val_main_v50_apply, val_main_v47_apply, val_main_v42_apply, val_main_v41_apply,
    val_main_v46_apply, val_main_v45_apply, val_main_v44_apply, val_main_v43_apply, val_main_cst_5_apply,
    val_main_v49_apply, val_main_v48_apply, val_main_v52_apply, val_main_v51_apply, val_main_call2_v0_apply, val_main_call2_cst_apply]
  have e41 : idx_main_v41 (ix2 p q : S200000x128.Idx) = ix2 p (0 : Fin 1) := funext fun a => Fin.ext (by match a with | ⟨0, _⟩ => rfl | ⟨1, _⟩ => rfl)
  have e46 : idx_main_v46 (ix2 p q : S200000x128.Idx) = ix2 p (0 : Fin 1) := funext fun a => Fin.ext (by match a with | ⟨0, _⟩ => rfl | ⟨1, _⟩ => rfl)
  have eg : idx_main_v48 (idx_main_v49 (ix2 p q)) = ix1 q := funext fun a => Fin.ext (by match a with | ⟨0, _⟩ => rfl)
  have ebt : idx_main_v51 (idx_main_v52 (ix2 p q)) = ix1 q := funext fun a => Fin.ext (by match a with | ⟨0, _⟩ => rfl)
  rw [e41, e46, eg, ebt, ref_n1_mean, ref_n1_var, ref_n1_h2]
  simp only [Ideal.addf_def, Ideal.mulf_def, Ideal.subf_def, Ideal.maximumf_def, Ideal.hostUnary_rsqrt_def, Ideal.ofBits_def, Ideal.ofBits_zero_f32]
  rfl

end Cert.ReferenceIdeal.RefMath

end
-- ==== Proof.REdge2.lean ====
/-
  The reference's second-layer edge messages, read index by index.
-/
import proofs.«409793_j85925115724498_1_alg».proof.Proof.RRead
import proofs.«409793_j85925115724498_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefMath

open Cert.ReferenceIdeal Cert.ReferenceIdeal.ReadP Cert.Spec
open Idealize.ShloMosaic Idealize.ShloMosaic.ValueIdx

/-- The reference's edge messages of layer 2: its one-term matrix product of the edge attribute column with the weight
    row, plus the bias row, plus the gathered source rows, rectified, is the edge message of the mathematics. -/
theorem ref_edge2 (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) :
    val_main_v67 (F := Ideal) x0 x1 x2 x4 x5 x6 x7 x8 x9 x10 x11 x12 x13 = edgeMsg 400000 128 x2 (val_main_v65 (F := Ideal) x0 x1 x2 x4 x5 x6 x7 x8 x9 x10 x11) x12 (rowOf x13) := by
  funext i
  obtain ⟨p, q, rfl⟩ : ∃ (p : Fin 400000) (q : Fin 128), i = ix2 p q := ⟨i 0, i 1, eq_ix2 i⟩
  -- the one term of the product reads the attribute column at (p, 0) and the weight row at (0, q)
  have el : lidx_main_v55 (ix2 p q) (0 : Fin 1) = ix2 p (0 : Fin 1) :=
    funext fun a => Fin.ext (by match a with | ⟨0, _⟩ => rfl | ⟨1, _⟩ => rfl)
  have er : ridx_main_v55 (ix2 p q) (0 : Fin 1) = ix2 (0 : Fin 1) q :=
    funext fun a => Fin.ext (by match a with | ⟨0, _⟩ => rfl | ⟨1, _⟩ => rfl)
  -- the bias vector, laid out as a row and repeated down the rows, reads its entry q
  have eb : idx_main_v56 (idx_main_v57 (ix2 p q)) = ix1 q :=
    funext fun a => Fin.ext (by match a with | ⟨0, _⟩ => rfl)
  rw [val_main_v67_apply, val_main_v66_apply, val_main_v58_apply, val_main_v55_apply, val_main_v57_apply,
    val_main_v56_apply, val_main_call3_v0_apply, val_main_call3_cst_apply, Fin.sum_univ_one, el, er, eb]
  simp only [Ideal.addf_def, Ideal.maximumf_def, Ideal.ofBits_def, Ideal.ofBits_zero_f32]
  rfl

end Cert.ReferenceIdeal.RefMath

end
-- ==== Proof.RNode2.lean ====
/-
  The reference's second-layer node update, read index by index.
-/
import proofs.«409793_j85925115724498_1_alg».proof.Proof.RRead
import proofs.«409793_j85925115724498_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefMath

open Cert.ReferenceIdeal Cert.ReferenceIdeal.ReadP Cert.Spec
open Idealize.ShloMosaic Idealize.ShloMosaic.ValueIdx

/-! ## The bias, scale and shift rows -/

/-- The first bias vector laid out as a row and repeated over the rows reads, at (p, q), the vector at q. -/
theorem ref2_v74_apply (x15 : (⟨S128, .f32⟩ : BufTy).Contents (Elt Ideal)) (p : Fin 200000) (q : Fin 128) :
    val_main_v74 (F := Ideal) x15 (ix2 p q) = rowOf x15 (ix2 (0 : Fin 1) q) := by
  rw [val_main_v74_apply, val_main_v73_apply]
  exact congrArg x15 (funext fun a => Fin.ext (by match a with | ⟨0, _⟩ => rfl))

/-- The second bias vector laid out as a row and repeated over the rows reads, at (p, q), the vector at q. -/
theorem ref2_v79_apply (x17 : (⟨S128, .f32⟩ : BufTy).Contents (Elt Ideal)) (p : Fin 200000) (q : Fin 128) :
    val_main_v79 (F := Ideal) x17 (ix2 p q) = rowOf x17 (ix2 (0 : Fin 1) q) := by
  rw [val_main_v79_apply, val_main_v78_apply]
  exact congrArg x17 (funext fun a => Fin.ext (by match a with | ⟨0, _⟩ => rfl))

/-- The scale vector laid out as a row and repeated over the rows reads, at (p, q), the vector at q. -/
theorem ref2_v100_apply (x18 : (⟨S128, .f32⟩ : BufTy).Contents (Elt Ideal)) (p : Fin 200000) (q : Fin 128) :
    val_main_v100 (F := Ideal) x18 (ix2 p q) = rowOf x18 (ix2 (0 : Fin 1) q) := by
  rw [val_main_v100_apply, val_main_v99_apply]
  exact congrArg x18 (funext fun a => Fin.ext (by match a with | ⟨0, _⟩ => rfl))

/-- The shift vector laid out as a row and repeated over the rows reads, at (p, q), the vector at q. -/
theorem ref2_v103_apply (x19 : (⟨S128, .f32⟩ : BufTy).Contents (Elt Ideal)) (p : Fin 200000) (q : Fin 128) :
    val_main_v103 (F := Ideal) x19 (ix2 p q) = rowOf x19 (ix2 (0 : Fin 1) q) := by
  rw [val_main_v103_apply, val_main_v102_apply]
  exact congrArg x19 (funext fun a => Fin.ext (by match a with | ⟨0, _⟩ => rfl))

/-- The rectifier's zero splat is the extended real 0 everywhere. -/
theorem ref2_call4_zero (i : S200000x128.Idx) : val_main_call4_v0 (F := Ideal) i = 0 := by
  rw [val_main_call4_v0_apply, val_main_call4_cst_apply]
  exact Ideal.ofBits_zero_f32

/-- The rectifier's zero splat is the extended real 0 everywhere. -/
theorem ref2_call5_zero (i : S200000x128.Idx) : val_main_call5_v0 (F := Ideal) i = 0 := by
  rw [val_main_call5_v0_apply, val_main_call5_cst_apply]
  exact Ideal.ofBits_zero_f32

/-! ## The two affine maps -/

/-- The first matrix product, of x + aggr with the first weights, at (p, q): the sum over k of the left operand at (p, k) times the weights at (k, q). -/
theorem ref2_v72_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (p : Fin 200000) (q : Fin 128) :
    val_main_v72 (F := Ideal) x0 x1 x2 x4 x5 x6 x7 x8 x9 x10 x11 x12 x13 x14 (ix2 p q)
      = ∑ k : Fin 128, val_main_v71 (F := Ideal) x0 x1 x2 x4 x5 x6 x7 x8 x9 x10 x11 x12 x13 (ix2 p k) * x14 (ix2 k q) := by
  rw [val_main_v72_apply]
  refine Finset.sum_congr rfl fun k _ => ?_
  have el : lidx_main_v72 (ix2 p q) k = ix2 p k := funext fun a => Fin.ext (by match a with | ⟨0, _⟩ => rfl | ⟨1, _⟩ => rfl)
  have er : ridx_main_v72 (ix2 p q) k = ix2 k q := funext fun a => Fin.ext (by match a with | ⟨0, _⟩ => rfl | ⟨1, _⟩ => rfl)
  rw [el, er]

/-- The first affine map and its rectifier are the first hidden layer of the mathematics, at (p, k). -/
theorem ref2_hidden1_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (p : Fin 200000) (k : Fin 128) :
    val_main_v76 (F := Ideal) x0 x1 x2 x4 x5 x6 x7 x8 x9 x10 x11 x12 x13 x14 x15 (ix2 p k) = (hidden1 200000 128 (val_main_v54 (F := Ideal) x0 x1 x2 x4 x5 x6 x7 x8 x9 x10 x11) (val_main_v70 (F := Ideal) x0 x1 x2 x4 x5 x6 x7 x8 x9 x10 x11 x12 x13) x14 (rowOf x15)) (ix2 p k) := by
  show max (val_main_v72 (F := Ideal) x0 x1 x2 x4 x5 x6 x7 x8 x9 x10 x11 x12 x13 x14 (ix2 p k) + val_main_v74 (F := Ideal) x15 (ix2 p k)) (val_main_call4_v0 (F := Ideal) (ix2 p k))
     = max ((∑ k' : Fin 128, ((val_main_v54 (F := Ideal) x0 x1 x2 x4 x5 x6 x7 x8 x9 x10 x11) (ix2 p k') + (val_main_v70 (F := Ideal) x0 x1 x2 x4 x5 x6 x7 x8 x9 x10 x11 x12 x13) (ix2 p k')) * x14 (ix2 k' k)) + rowOf x15 (ix2 (0 : Fin 1) k)) 0
  rw [ref2_v72_apply, ref2_v74_apply, ref2_call4_zero]
  rfl

/-- … as an equation of arrays. -/
theorem ref2_hidden1_eq (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) :
    val_main_v76 (F := Ideal) x0 x1 x2 x4 x5 x6 x7 x8 x9 x10 x11 x12 x13 x14 x15 = (hidden1 200000 128 (val_main_v54 (F := Ideal) x0 x1 x2 x4 x5 x6 x7 x8 x9 x10 x11) (val_main_v70 (F := Ideal) x0 x1 x2 x4 x5 x6 x7 x8 x9 x10 x11 x12 x13) x14 (rowOf x15)) := by
  funext i
  obtain ⟨p, k, rfl⟩ : ∃ (p : Fin 200000) (k : Fin 128), i = ix2 p k := ⟨i 0, i 1, eq_ix2 i⟩
  exact ref2_hidden1_apply x0 x1 x2 x4 x5 x6 x7 x8 x9 x10 x11 x12 x13 x14 x15 p k

/-- The second matrix product, of the first hidden layer with the second weights, at (p, q): the sum over k of the left operand at (p, k) times the weights at (k, q). -/
theorem ref2_v77_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (p : Fin 200000) (q : Fin 128) :
    val_main_v77 (F := Ideal) x0 x1 x2 x4 x5 x6 x7 x8 x9 x10 x11 x12 x13 x14 x15 x16 (ix2 p q)
      = ∑ k : Fin 128, val_main_v76 (F := Ideal) x0 x1 x2 x4 x5 x6 x7 x8 x9 x10 x11 x12 x13 x14 x15 (ix2 p k) * x16 (ix2 k q) := by
  rw [val_main_v77_apply]
  refine Finset.sum_congr rfl fun k _ => ?_
  have el : lidx_main_v77 (ix2 p q) k = ix2 p k := funext fun a => Fin.ext (by match a with | ⟨0, _⟩ => rfl | ⟨1, _⟩ => rfl)
  have er : ridx_main_v77 (ix2 p q) k = ix2 k q := funext fun a => Fin.ext (by match a with | ⟨0, _⟩ => rfl | ⟨1, _⟩ => rfl)
  rw [el, er]

/-- The second affine map is the second hidden layer of the mathematics. -/
theorem ref2_hidden2_eq (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) :
    val_main_v80 (F := Ideal) x0 x1 x2 x4 x5 x6 x7 x8 x9 x10 x11 x12 x13 x14 x15 x16 x17 = hidden2 200000 (hidden1 200000 128 (val_main_v54 (F := Ideal) x0 x1 x2 x4 x5 x6 x7 x8 x9 x10 x11) (val_main_v70 (F := Ideal) x0 x1 x2 x4 x5 x6 x7 x8 x9 x10 x11 x12 x13) x14 (rowOf x15)) x16 (rowOf x17) := by
  funext i
  obtain ⟨p, q, rfl⟩ : ∃ (p : Fin 200000) (q : Fin 128), i = ix2 p q := ⟨i 0, i 1, eq_ix2 i⟩
  show val_main_v77 (F := Ideal) x0 x1 x2 x4 x5 x6 x7 x8 x9 x10 x11 x12 x13 x14 x15 x16 (ix2 p q) + val_main_v79 (F := Ideal) x17 (ix2 p q)
     = (∑ k : Fin 128, (hidden1 200000 128 (val_main_v54 (F := Ideal) x0 x1 x2 x4 x5 x6 x7 x8 x9 x10 x11) (val_main_v70 (F := Ideal) x0 x1 x2 x4 x5 x6 x7 x8 x9 x10 x11 x12 x13) x14 (rowOf x15)) (ix2 p k) * x16 (ix2 k q)) + rowOf x17 (ix2 (0 : Fin 1) q)
  rw [ref2_v77_apply, ref2_v79_apply, ref2_hidden1_eq]

/-! ## The row mean, the row variance and the normalization, over the second hidden layer kept folded -/

/-- The row sum of the second hidden layer, at row p: the host sum starts from the zero constant. -/
theorem ref2_v81_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (p : Fin 200000) :
    val_main_v81 (F := Ideal) x0 x1 x2 x4 x5 x6 x7 x8 x9 x10 x11 x12 x13 x14 x15 x16 x17 (ix1 p) = ∑ k : Fin 128, (val_main_v80 (F := Ideal) x0 x1 x2 x4 x5 x6 x7 x8 x9 x10 x11 x12 x13 x14 x15 x16 x17) (ix2 p k) := by
  rw [val_main_v81_apply, val_main_cst_9_apply]
  show Ideal.ofBits .f32 0x00000000#32 + _ = _
  rw [Ideal.ofBits_zero_f32, zero_add]
  refine Finset.sum_congr rfl fun k _ => ?_
  have e : idx_main_v81 (ix1 p) k = ix2 p k := funext fun a => Fin.ext (by match a with | ⟨0, _⟩ => rfl | ⟨1, _⟩ => rfl)
  rw [e]

/-- The row sum kept as a column and divided by the splat of 128: the row mean. -/
theorem ref2_v84_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (p : Fin 200000) (u : Fin 1) :
    val_main_v84 (F := Ideal) x0 x1 x2 x4 x5 x6 x7 x8 x9 x10 x11 x12 x13 x14 x15 x16 x17 (ix2 p u) = rowMean 200000 (val_main_v80 (F := Ideal) x0 x1 x2 x4 x5 x6 x7 x8 x9 x10 x11 x12 x13 x14 x15 x16 x17) p := by
  rw [val_main_v84_apply, val_main_v82_apply, val_main_v83_apply, val_main_cst_10_apply]
  have e : idx_main_v82 (ix2 p u) = ix1 p := funext fun a => Fin.ext (by match a with | ⟨0, _⟩ => rfl)
  rw [e, ref2_v81_apply]
  rfl

/-- The layer centred by its row mean, as the variance reads it. -/
theorem ref2_v86_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (p : Fin 200000) (q : Fin 128) :
    val_main_v86 (F := Ideal) x0 x1 x2 x4 x5 x6 x7 x8 x9 x10 x11 x12 x13 x14 x15 x16 x17 (ix2 p q) = (val_main_v80 (F := Ideal) x0 x1 x2 x4 x5 x6 x7 x8 x9 x10 x11 x12 x13 x14 x15 x16 x17) (ix2 p q) - rowMean 200000 (val_main_v80 (F := Ideal) x0 x1 x2 x4 x5 x6 x7 x8 x9 x10 x11 x12 x13 x14 x15 x16 x17) p := by
  show (val_main_v80 (F := Ideal) x0 x1 x2 x4 x5 x6 x7 x8 x9 x10 x11 x12 x13 x14 x15 x16 x17) (ix2 p q) - val_main_v85 (F := Ideal) x0 x1 x2 x4 x5 x6 x7 x8 x9 x10 x11 x12 x13 x14 x15 x16 x17 (ix2 p q) = _
  rw [val_main_v85_apply]
  have e : idx_main_v85 (ix2 p q) = ix2 p (0 : Fin 1) := funext fun a => Fin.ext (by match a with | ⟨0, _⟩ => rfl | ⟨1, _⟩ => rfl)
  rw [e, ref2_v84_apply]

/-- The row sum of the squared centred layer, at row p: the host sum starts from the zero constant. -/
theorem ref2_v88_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (p : Fin 200000) :
    val_main_v88 (F := Ideal) x0 x1 x2 x4 x5 x6 x7 x8 x9 x10 x11 x12 x13 x14 x15 x16 x17 (ix1 p) = ∑ k : Fin 128, ((val_main_v80 (F := Ideal) x0 x1 x2 x4 x5 x6 x7 x8 x9 x10 x11 x12 x13 x14 x15 x16 x17) (ix2 p k) - rowMean 200000 (val_main_v80 (F := Ideal) x0 x1 x2 x4 x5 x6 x7 x8 x9 x10 x11 x12 x13 x14 x15 x16 x17) p) * ((val_main_v80 (F := Ideal) x0 x1 x2 x4 x5 x6 x7 x8 x9 x10 x11 x12 x13 x14 x15 x16 x17) (ix2 p k) - rowMean 200000 (val_main_v80 (F := Ideal) x0 x1 x2 x4 x5 x6 x7 x8 x9 x10 x11 x12 x13 x14 x15 x16 x17) p) := by
  rw [val_main_v88_apply, val_main_cst_11_apply]
  show Ideal.ofBits .f32 0x00000000#32 + _ = _
  rw [Ideal.ofBits_zero_f32, zero_add]
  refine Finset.sum_congr rfl fun k _ => ?_
  have e : idx_main_v88 (ix1 p) k = ix2 p k := funext fun a => Fin.ext (by match a with | ⟨0, _⟩ => rfl | ⟨1, _⟩ => rfl)
  rw [e]
  show val_main_v86 (F := Ideal) x0 x1 x2 x4 x5 x6 x7 x8 x9 x10 x11 x12 x13 x14 x15 x16 x17 (ix2 p k) * val_main_v86 (F := Ideal) x0 x1 x2 x4 x5 x6 x7 x8 x9 x10 x11 x12 x13 x14 x15 x16 x17 (ix2 p k) = _
  rw [ref2_v86_apply]

/-- That sum kept as a column and divided by the splat of 128: the row variance. -/
theorem ref2_v91_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (p : Fin 200000) (u : Fin 1) :
    val_main_v91 (F := Ideal) x0 x1 x2 x4 x5 x6 x7 x8 x9 x10 x11 x12 x13 x14 x15 x16 x17 (ix2 p u) = rowVar 200000 (val_main_v80 (F := Ideal) x0 x1 x2 x4 x5 x6 x7 x8 x9 x10 x11 x12 x13 x14 x15 x16 x17) p := by
  rw [val_main_v91_apply, val_main_v89_apply, val_main_v90_apply, val_main_cst_12_apply]
  have e : idx_main_v89 (ix2 p u) = ix1 p := funext fun a => Fin.ext (by match a with | ⟨0, _⟩ => rfl)
  rw [e, ref2_v88_apply]
  rfl

/-- The layer centred by its row mean, as the normalization reads it. -/
theorem ref2_v93_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (p : Fin 200000) (q : Fin 128) :
    val_main_v93 (F := Ideal) x0 x1 x2 x4 x5 x6 x7 x8 x9 x10 x11 x12 x13 x14 x15 x16 x17 (ix2 p q) = (val_main_v80 (F := Ideal) x0 x1 x2 x4 x5 x6 x7 x8 x9 x10 x11 x12 x13 x14 x15 x16 x17) (ix2 p q) - rowMean 200000 (val_main_v80 (F := Ideal) x0 x1 x2 x4 x5 x6 x7 x8 x9 x10 x11 x12 x13 x14 x15 x16 x17) p := by
  show (val_main_v80 (F := Ideal) x0 x1 x2 x4 x5 x6 x7 x8 x9 x10 x11 x12 x13 x14 x15 x16 x17) (ix2 p q) - val_main_v92 (F := Ideal) x0 x1 x2 x4 x5 x6 x7 x8 x9 x10 x11 x12 x13 x14 x15 x16 x17 (ix2 p q) = _
  rw [val_main_v92_apply]
  have e : idx_main_v92 (ix2 p q) = ix2 p (0 : Fin 1) := funext fun a => Fin.ext (by match a with | ⟨0, _⟩ => rfl | ⟨1, _⟩ => rfl)
  rw [e, ref2_v84_apply]

/-- The reciprocal square root of the variance plus ε, repeated over the lanes. -/
theorem ref2_v97_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (p : Fin 200000) (q : Fin 128) :
    val_main_v97 (F := Ideal) x0 x1 x2 x4 x5 x6 x7 x8 x9 x10 x11 x12 x13 x14 x15 x16 x17 (ix2 p q) = Ideal.rsqrt (rowVar 200000 (val_main_v80 (F := Ideal) x0 x1 x2 x4 x5 x6 x7 x8 x9 x10 x11 x12 x13 x14 x15 x16 x17) p + cEps) := by
  rw [val_main_v97_apply]
  have e : idx_main_v97 (ix2 p q) = ix2 p (0 : Fin 1) := funext fun a => Fin.ext (by match a with | ⟨0, _⟩ => rfl | ⟨1, _⟩ => rfl)
  rw [e]
  show Ideal.rsqrt (val_main_v91 (F := Ideal) x0 x1 x2 x4 x5 x6 x7 x8 x9 x10 x11 x12 x13 x14 x15 x16 x17 (ix2 p (0 : Fin 1)) + val_main_v94 (F := Ideal) (ix2 p (0 : Fin 1))) = _
  rw [ref2_v91_apply, val_main_v94_apply, val_main_cst_13_apply]
  rfl

/-- The last stage — centred, scaled by the reciprocal deviation and by g, shifted by bt, rectified — is the normalization
    of the mathematics applied to the second hidden layer. -/
theorem ref2_norm_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (p : Fin 200000) (q : Fin 128) :
    val_main_v105 (F := Ideal) x0 x1 x2 x4 x5 x6 x7 x8 x9 x10 x11 x12 x13 x14 x15 x16 x17 x18 x19 (ix2 p q) = normRelu 200000 (val_main_v80 (F := Ideal) x0 x1 x2 x4 x5 x6 x7 x8 x9 x10 x11 x12 x13 x14 x15 x16 x17) (rowOf x18) (rowOf x19) (ix2 p q) := by
  show max (val_main_v93 (F := Ideal) x0 x1 x2 x4 x5 x6 x7 x8 x9 x10 x11 x12 x13 x14 x15 x16 x17 (ix2 p q) * val_main_v97 (F := Ideal) x0 x1 x2 x4 x5 x6 x7 x8 x9 x10 x11 x12 x13 x14 x15 x16 x17 (ix2 p q) * val_main_v100 (F := Ideal) x18 (ix2 p q)
            + val_main_v103 (F := Ideal) x19 (ix2 p q)) (val_main_call5_v0 (F := Ideal) (ix2 p q))
     = max (((val_main_v80 (F := Ideal) x0 x1 x2 x4 x5 x6 x7 x8 x9 x10 x11 x12 x13 x14 x15 x16 x17) (ix2 p q) - rowMean 200000 (val_main_v80 (F := Ideal) x0 x1 x2 x4 x5 x6 x7 x8 x9 x10 x11 x12 x13 x14 x15 x16 x17) p) * Ideal.rsqrt (rowVar 200000 (val_main_v80 (F := Ideal) x0 x1 x2 x4 x5 x6 x7 x8 x9 x10 x11 x12 x13 x14 x15 x16 x17) p + cEps) * rowOf x18 (ix2 (0 : Fin 1) q) + rowOf x19 (ix2 (0 : Fin 1) q)) 0
  rw [ref2_v93_apply, ref2_v97_apply, ref2_v100_apply, ref2_v103_apply, ref2_call5_zero]

/-- The reference's node update of layer 2 — add, two matrix products with their bias rows and a rectifier between, the
    row mean and variance as host sums divided by 128, the normalization, scale, shift and rectifier — is the node update
    of the mathematics. -/
theorem ref_node2 (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) :
    val_main_v105 (F := Ideal) x0 x1 x2 x4 x5 x6 x7 x8 x9 x10 x11 x12 x13 x14 x15 x16 x17 x18 x19
      = nodeUpd 200000 128 (val_main_v54 (F := Ideal) x0 x1 x2 x4 x5 x6 x7 x8 x9 x10 x11) (val_main_v70 (F := Ideal) x0 x1 x2 x4 x5 x6 x7 x8 x9 x10 x11 x12 x13) x14 (rowOf x15) x16 (rowOf x17) (rowOf x18) (rowOf x19) := by
  funext i
  obtain ⟨p, q, rfl⟩ : ∃ (p : Fin 200000) (q : Fin 128), i = ix2 p q := ⟨i 0, i 1, eq_ix2 i⟩
  rw [ref2_norm_apply, ref2_hidden2_eq]
  rfl

end Cert.ReferenceIdeal.RefMath

end
-- ==== Proof.REdge3.lean ====
/-
  The reference's third-layer edge messages, read index by index.
-/
import proofs.«409793_j85925115724498_1_alg».proof.Proof.RRead
import proofs.«409793_j85925115724498_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefMath

open Cert.ReferenceIdeal Cert.ReferenceIdeal.ReadP Cert.Spec
open Idealize.ShloMosaic Idealize.ShloMosaic.ValueIdx

/-- The reference's edge messages of layer 3: its one-term matrix product of the edge attribute column with the weight
    row, plus the bias row, plus the gathered source rows, rectified, is the edge message of the mathematics. -/
theorem ref_edge3 (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S1x128, .f32⟩ : BufTy).Contents (Elt Ideal)) (x21 : (⟨S128, .f32⟩ : BufTy).Contents (Elt Ideal)) :
    val_main_v118 (F := Ideal) x0 x1 x2 x4 x5 x6 x7 x8 x9 x10 x11 x12 x13 x14 x15 x16 x17 x18 x19 x20 x21 = edgeMsg 400000 128 x2 (val_main_v116 (F := Ideal) x0 x1 x2 x4 x5 x6 x7 x8 x9 x10 x11 x12 x13 x14 x15 x16 x17 x18 x19) x20 (rowOf x21) := by
  funext i
  obtain ⟨p, q, rfl⟩ : ∃ (p : Fin 400000) (q : Fin 128), i = ix2 p q := ⟨i 0, i 1, eq_ix2 i⟩
  -- the one term of the product reads the attribute column at (p, 0) and the weight row at (0, q)
  have el : lidx_main_v106 (ix2 p q) (0 : Fin 1) = ix2 p (0 : Fin 1) :=
    funext fun a => Fin.ext (by match a with | ⟨0, _⟩ => rfl | ⟨1, _⟩ => rfl)
  have er : ridx_main_v106 (ix2 p q) (0 : Fin 1) = ix2 (0 : Fin 1) q :=
    funext fun a => Fin.ext (by match a with | ⟨0, _⟩ => rfl | ⟨1, _⟩ => rfl)
  -- the bias vector, laid out as a row and repeated down the rows, reads its entry q
  have eb : idx_main_v107 (idx_main_v108 (ix2 p q)) = ix1 q :=
    funext fun a => Fin.ext (by match a with | ⟨0, _⟩ => rfl)
  rw [val_main_v118_apply, val_main_v117_apply, val_main_v109_apply, val_main_v106_apply, val_main_v108_apply,
    val_main_v107_apply, val_main_call6_v0_apply, val_main_call6_cst_apply, Fin.sum_univ_one, el, er, eb]
  simp only [Ideal.addf_def, Ideal.maximumf_def, Ideal.ofBits_def, Ideal.ofBits_zero_f32]
  rfl

end Cert.ReferenceIdeal.RefMath

end
-- ==== Proof.RNode3.lean ====
/-
  The reference's third-layer node update, read index by index.
-/
import proofs.«409793_j85925115724498_1_alg».proof.Proof.RRead
import proofs.«409793_j85925115724498_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefMath

open Cert.ReferenceIdeal Cert.ReferenceIdeal.ReadP Cert.Spec
open Idealize.ShloMosaic Idealize.ShloMosaic.ValueIdx

/-! ## The bias, scale and shift rows -/

/-- The first bias vector laid out as a row and repeated over the rows reads, at (p, q), the vector at q. -/
theorem ref3_v125_apply (x23 : (⟨S128, .f32⟩ : BufTy).Contents (Elt Ideal)) (p : Fin 200000) (q : Fin 128) :
    val_main_v125 (F := Ideal) x23 (ix2 p q) = rowOf x23 (ix2 (0 : Fin 1) q) := by
  rw [val_main_v125_apply, val_main_v124_apply]
  exact congrArg x23 (funext fun a => Fin.ext (by match a with | ⟨0, _⟩ => rfl))

/-- The second bias vector laid out as a row and repeated over the rows reads, at (p, q), the vector at q. -/
theorem ref3_v130_apply (x25 : (⟨S128, .f32⟩ : BufTy).Contents (Elt Ideal)) (p : Fin 200000) (q : Fin 128) :
    val_main_v130 (F := Ideal) x25 (ix2 p q) = rowOf x25 (ix2 (0 : Fin 1) q) := by
  rw [val_main_v130_apply, val_main_v129_apply]
  exact congrArg x25 (funext fun a => Fin.ext (by match a with | ⟨0, _⟩ => rfl))

/-- The scale vector laid out as a row and repeated over the rows reads, at (p, q), the vector at q. -/
theorem ref3_v151_apply (x26 : (⟨S128, .f32⟩ : BufTy).Contents (Elt Ideal)) (p : Fin 200000) (q : Fin 128) :
    val_main_v151 (F := Ideal) x26 (ix2 p q) = rowOf x26 (ix2 (0 : Fin 1) q) := by
  rw [val_main_v151_apply, val_main_v150_apply]
  exact congrArg x26 (funext fun a => Fin.ext (by match a with | ⟨0, _⟩ => rfl))

/-- The shift vector laid out as a row and repeated over the rows reads, at (p, q), the vector at q. -/
theorem ref3_v154_apply (x27 : (⟨S128, .f32⟩ : BufTy).Contents (Elt Ideal)) (p : Fin 200000) (q : Fin 128) :
    val_main_v154 (F := Ideal) x27 (ix2 p q) = rowOf x27 (ix2 (0 : Fin 1) q) := by
  rw [val_main_v154_apply, val_main_v153_apply]
  exact congrArg x27 (funext fun a => Fin.ext (by match a with | ⟨0, _⟩ => rfl))

/-- The rectifier's zero splat is the extended real 0 everywhere. -/
theorem ref3_call7_zero (i : S200000x128.Idx) : val_main_call7_v0 (F := Ideal) i = 0 := by
  rw [val_main_call7_v0_apply, val_main_call7_cst_apply]
  exact Ideal.ofBits_zero_f32

/-- The rectifier's zero splat is the extended real 0 everywhere. -/
theorem ref3_call8_zero (i : S200000x128.Idx) : val_main_call8_v0 (F := Ideal) i = 0 := by
  rw [val_main_call8_v0_apply, val_main_call8_cst_apply]
  exact Ideal.ofBits_zero_f32

/-! ## The two affine maps -/

/-- The first matrix product, of x + aggr with the first weights, at (p, q): the sum over k of the left operand at (p, k) times the weights at (k, q). -/
theorem ref3_v123_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S1x128, .f32⟩ : BufTy).Contents (Elt Ideal)) (x21 : (⟨S128, .f32⟩ : BufTy).Contents (Elt Ideal)) (x22 : (⟨S128x128, .f32⟩ : BufTy).Contents (Elt Ideal)) (p : Fin 200000) (q : Fin 128) :
    val_main_v123 (F := Ideal) x0 x1 x2 x4 x5 x6 x7 x8 x9 x10 x11 x12 x13 x14 x15 x16 x17 x18 x19 x20 x21 x22 (ix2 p q)
      = ∑ k : Fin 128, val_main_v122 (F := Ideal) x0 x1 x2 x4 x5 x6 x7 x8 x9 x10 x11 x12 x13 x14 x15 x16 x17 x18 x19 x20 x21 (ix2 p k) * x22 (ix2 k q) := by
  rw [val_main_v123_apply]
  refine Finset.sum_congr rfl fun k _ => ?_
  have el : lidx_main_v123 (ix2 p q) k = ix2 p k := funext fun a => Fin.ext (by match a with | ⟨0, _⟩ => rfl | ⟨1, _⟩ => rfl)
  have er : ridx_main_v123 (ix2 p q) k = ix2 k q := funext fun a => Fin.ext (by match a with | ⟨0, _⟩ => rfl | ⟨1, _⟩ => rfl)
  rw [el, er]

/-- The first affine map and its rectifier are the first hidden layer of the mathematics, at (p, k). -/
theorem ref3_hidden1_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S1x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (p : Fin 200000) (k : Fin 128) :
    val_main_v127 (F := Ideal) x0 x1 x2 x4 x5 x6 x7 x8 x9 x10 x11 x12 x13 x14 x15 x16 x17 x18 x19 x20 x21 x22 x23 (ix2 p k) = (hidden1 200000 128 (val_main_v105 (F := Ideal) x0 x1 x2 x4 x5 x6 x7 x8 x9 x10 x11 x12 x13 x14 x15 x16 x17 x18 x19) (val_main_v121 (F := Ideal) x0 x1 x2 x4 x5 x6 x7 x8 x9 x10 x11 x12 x13 x14 x15 x16 x17 x18 x19 x20 x21) x22 (rowOf x23)) (ix2 p k) := by
  show max (val_main_v123 (F := Ideal) x0 x1 x2 x4 x5 x6 x7 x8 x9 x10 x11 x12 x13 x14 x15 x16 x17 x18 x19 x20 x21 x22 (ix2 p k) + val_main_v125 (F := Ideal) x23 (ix2 p k)) (val_main_call7_v0 (F := Ideal) (ix2 p k))
     = max ((∑ k' : Fin 128, ((val_main_v105 (F := Ideal) x0 x1 x2 x4 x5 x6 x7 x8 x9 x10 x11 x12 x13 x14 x15 x16 x17 x18 x19) (ix2 p k') + (val_main_v121 (F := Ideal) x0 x1 x2 x4 x5 x6 x7 x8 x9 x10 x11 x12 x13 x14 x15 x16 x17 x18 x19 x20 x21) (ix2 p k')) * x22 (ix2 k' k)) + rowOf x23 (ix2 (0 : Fin 1) k)) 0
  rw [ref3_v123_apply, ref3_v125_apply, ref3_call7_zero]
  rfl

/-- … as an equation of arrays. -/
theorem ref3_hidden1_eq (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S1x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) :
    val_main_v127 (F := Ideal) x0 x1 x2 x4 x5 x6 x7 x8 x9 x10 x11 x12 x13 x14 x15 x16 x17 x18 x19 x20 x21 x22 x23 = (hidden1 200000 128 (val_main_v105 (F := Ideal) x0 x1 x2 x4 x5 x6 x7 x8 x9 x10 x11 x12 x13 x14 x15 x16 x17 x18 x19) (val_main_v121 (F := Ideal) x0 x1 x2 x4 x5 x6 x7 x8 x9 x10 x11 x12 x13 x14 x15 x16 x17 x18 x19 x20 x21) x22 (rowOf x23)) := by
  funext i
  obtain ⟨p, k, rfl⟩ : ∃ (p : Fin 200000) (k : Fin 128), i = ix2 p k := ⟨i 0, i 1, eq_ix2 i⟩
  exact ref3_hidden1_apply x0 x1 x2 x4 x5 x6 x7 x8 x9 x10 x11 x12 x13 x14 x15 x16 x17 x18 x19 x20 x21 x22 x23 p k

/-- The second matrix product, of the first hidden layer with the second weights, at (p, q): the sum over k of the left operand at (p, k) times the weights at (k, q). -/
theorem ref3_v128_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S1x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (p : Fin 200000) (q : Fin 128) :
    val_main_v128 (F := Ideal) x0 x1 x2 x4 x5 x6 x7 x8 x9 x10 x11 x12 x13 x14 x15 x16 x17 x18 x19 x20 x21 x22 x23 x24 (ix2 p q)
      = ∑ k : Fin 128, val_main_v127 (F := Ideal) x0 x1 x2 x4 x5 x6 x7 x8 x9 x10 x11 x12 x13 x14 x15 x16 x17 x18 x19 x20 x21 x22 x23 (ix2 p k) * x24 (ix2 k q) := by
  rw [val_main_v128_apply]
  refine Finset.sum_congr rfl fun k _ => ?_
  have el : lidx_main_v128 (ix2 p q) k = ix2 p k := funext fun a => Fin.ext (by match a with | ⟨0, _⟩ => rfl | ⟨1, _⟩ => rfl)
  have er : ridx_main_v128 (ix2 p q) k = ix2 k q := funext fun a => Fin.ext (by match a with | ⟨0, _⟩ => rfl | ⟨1, _⟩ => rfl)
  rw [el, er]

/-- The second affine map is the second hidden layer of the mathematics. -/
theorem ref3_hidden2_eq (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S1x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) :
    val_main_v131 (F := Ideal) x0 x1 x2 x4 x5 x6 x7 x8 x9 x10 x11 x12 x13 x14 x15 x16 x17 x18 x19 x20 x21 x22 x23 x24 x25 = hidden2 200000 (hidden1 200000 128 (val_main_v105 (F := Ideal) x0 x1 x2 x4 x5 x6 x7 x8 x9 x10 x11 x12 x13 x14 x15 x16 x17 x18 x19) (val_main_v121 (F := Ideal) x0 x1 x2 x4 x5 x6 x7 x8 x9 x10 x11 x12 x13 x14 x15 x16 x17 x18 x19 x20 x21) x22 (rowOf x23)) x24 (rowOf x25) := by
  funext i
  obtain ⟨p, q, rfl⟩ : ∃ (p : Fin 200000) (q : Fin 128), i = ix2 p q := ⟨i 0, i 1, eq_ix2 i⟩
  show val_main_v128 (F := Ideal) x0 x1 x2 x4 x5 x6 x7 x8 x9 x10 x11 x12 x13 x14 x15 x16 x17 x18 x19 x20 x21 x22 x23 x24 (ix2 p q) + val_main_v130 (F := Ideal) x25 (ix2 p q)
     = (∑ k : Fin 128, (hidden1 200000 128 (val_main_v105 (F := Ideal) x0 x1 x2 x4 x5 x6 x7 x8 x9 x10 x11 x12 x13 x14 x15 x16 x17 x18 x19) (val_main_v121 (F := Ideal) x0 x1 x2 x4 x5 x6 x7 x8 x9 x10 x11 x12 x13 x14 x15 x16 x17 x18 x19 x20 x21) x22 (rowOf x23)) (ix2 p k) * x24 (ix2 k q)) + rowOf x25 (ix2 (0 : Fin 1) q)
  rw [ref3_v128_apply, ref3_v130_apply, ref3_hidden1_eq]

/-! ## The row mean, the row variance and the normalization, over the second hidden layer kept folded -/

/-- The row sum of the second hidden layer, at row p: the host sum starts from the zero constant. -/
theorem ref3_v132_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S1x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (p : Fin 200000) :
    val_main_v132 (F := Ideal) x0 x1 x2 x4 x5 x6 x7 x8 x9 x10 x11 x12 x13 x14 x15 x16 x17 x18 x19 x20 x21 x22 x23 x24 x25 (ix1 p) = ∑ k : Fin 128, (val_main_v131 (F := Ideal) x0 x1 x2 x4 x5 x6 x7 x8 x9 x10 x11 x12 x13 x14 x15 x16 x17 x18 x19 x20 x21 x22 x23 x24 x25) (ix2 p k) := by
  rw [val_main_v132_apply, val_main_cst_17_apply]
  show Ideal.ofBits .f32 0x00000000#32 + _ = _
  rw [Ideal.ofBits_zero_f32, zero_add]
  refine Finset.sum_congr rfl fun k _ => ?_
  have e : idx_main_v132 (ix1 p) k = ix2 p k := funext fun a => Fin.ext (by match a with | ⟨0, _⟩ => rfl | ⟨1, _⟩ => rfl)
  rw [e]

/-- The row sum kept as a column and divided by the splat of 128: the row mean. -/
theorem ref3_v135_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S1x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (p : Fin 200000) (u : Fin 1) :
    val_main_v135 (F := Ideal) x0 x1 x2 x4 x5 x6 x7 x8 x9 x10 x11 x12 x13 x14 x15 x16 x17 x18 x19 x20 x21 x22 x23 x24 x25 (ix2 p u) = rowMean 200000 (val_main_v131 (F := Ideal) x0 x1 x2 x4 x5 x6 x7 x8 x9 x10 x11 x12 x13 x14 x15 x16 x17 x18 x19 x20 x21 x22 x23 x24 x25) p := by
  rw [val_main_v135_apply, val_main_v133_apply, val_main_v134_apply, val_main_cst_18_apply]
  have e : idx_main_v133 (ix2 p u) = ix1 p := funext fun a => Fin.ext (by match a with | ⟨0, _⟩ => rfl)
  rw [e, ref3_v132_apply]
  rfl

/-- The layer centred by its row mean, as the variance reads it. -/
theorem ref3_v137_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S1x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (p : Fin 200000) (q : Fin 128) :
    val_main_v137 (F := Ideal) x0 x1 x2 x4 x5 x6 x7 x8 x9 x10 x11 x12 x13 x14 x15 x16 x17 x18 x19 x20 x21 x22 x23 x24 x25 (ix2 p q) = (val_main_v131 (F := Ideal) x0 x1 x2 x4 x5 x6 x7 x8 x9 x10 x11 x12 x13 x14 x15 x16 x17 x18 x19 x20 x21 x22 x23 x24 x25) (ix2 p q) - rowMean 200000 (val_main_v131 (F := Ideal) x0 x1 x2 x4 x5 x6 x7 x8 x9 x10 x11 x12 x13 x14 x15 x16 x17 x18 x19 x20 x21 x22 x23 x24 x25) p := by
  show (val_main_v131 (F := Ideal) x0 x1 x2 x4 x5 x6 x7 x8 x9 x10 x11 x12 x13 x14 x15 x16 x17 x18 x19 x20 x21 x22 x23 x24 x25) (ix2 p q) - val_main_v136 (F := Ideal) x0 x1 x2 x4 x5 x6 x7 x8 x9 x10 x11 x12 x13 x14 x15 x16 x17 x18 x19 x20 x21 x22 x23 x24 x25 (ix2 p q) = _
  rw [val_main_v136_apply]
  have e : idx_main_v136 (ix2 p q) = ix2 p (0 : Fin 1) := funext fun a => Fin.ext (by match a with | ⟨0, _⟩ => rfl | ⟨1, _⟩ => rfl)
  rw [e, ref3_v135_apply]

/-- The row sum of the squared centred layer, at row p: the host sum starts from the zero constant. -/
theorem ref3_v139_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S1x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (p : Fin 200000) :
    val_main_v139 (F := Ideal) x0 x1 x2 x4 x5 x6 x7 x8 x9 x10 x11 x12 x13 x14 x15 x16 x17 x18 x19 x20 x21 x22 x23 x24 x25 (ix1 p) = ∑ k : Fin 128, ((val_main_v131 (F := Ideal) x0 x1 x2 x4 x5 x6 x7 x8 x9 x10 x11 x12 x13 x14 x15 x16 x17 x18 x19 x20 x21 x22 x23 x24 x25) (ix2 p k) - rowMean 200000 (val_main_v131 (F := Ideal) x0 x1 x2 x4 x5 x6 x7 x8 x9 x10 x11 x12 x13 x14 x15 x16 x17 x18 x19 x20 x21 x22 x23 x24 x25) p) * ((val_main_v131 (F := Ideal) x0 x1 x2 x4 x5 x6 x7 x8 x9 x10 x11 x12 x13 x14 x15 x16 x17 x18 x19 x20 x21 x22 x23 x24 x25) (ix2 p k) - rowMean 200000 (val_main_v131 (F := Ideal) x0 x1 x2 x4 x5 x6 x7 x8 x9 x10 x11 x12 x13 x14 x15 x16 x17 x18 x19 x20 x21 x22 x23 x24 x25) p) := by
  rw [val_main_v139_apply, val_main_cst_19_apply]
  show Ideal.ofBits .f32 0x00000000#32 + _ = _
  rw [Ideal.ofBits_zero_f32, zero_add]
  refine Finset.sum_congr rfl fun k _ => ?_
  have e : idx_main_v139 (ix1 p) k = ix2 p k := funext fun a => Fin.ext (by match a with | ⟨0, _⟩ => rfl | ⟨1, _⟩ => rfl)
  rw [e]
  show val_main_v137 (F := Ideal) x0 x1 x2 x4 x5 x6 x7 x8 x9 x10 x11 x12 x13 x14 x15 x16 x17 x18 x19 x20 x21 x22 x23 x24 x25 (ix2 p k) * val_main_v137 (F := Ideal) x0 x1 x2 x4 x5 x6 x7 x8 x9 x10 x11 x12 x13 x14 x15 x16 x17 x18 x19 x20 x21 x22 x23 x24 x25 (ix2 p k) = _
  rw [ref3_v137_apply]

/-- That sum kept as a column and divided by the splat of 128: the row variance. -/
theorem ref3_v142_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S1x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (p : Fin 200000) (u : Fin 1) :
    val_main_v142 (F := Ideal) x0 x1 x2 x4 x5 x6 x7 x8 x9 x10 x11 x12 x13 x14 x15 x16 x17 x18 x19 x20 x21 x22 x23 x24 x25 (ix2 p u) = rowVar 200000 (val_main_v131 (F := Ideal) x0 x1 x2 x4 x5 x6 x7 x8 x9 x10 x11 x12 x13 x14 x15 x16 x17 x18 x19 x20 x21 x22 x23 x24 x25) p := by
  rw [val_main_v142_apply, val_main_v140_apply, val_main_v141_apply, val_main_cst_20_apply]
  have e : idx_main_v140 (ix2 p u) = ix1 p := funext fun a => Fin.ext (by match a with | ⟨0, _⟩ => rfl)
  rw [e, ref3_v139_apply]
  rfl

/-- The layer centred by its row mean, as the normalization reads it. -/
theorem ref3_v144_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S1x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (p : Fin 200000) (q : Fin 128) :
    val_main_v144 (F := Ideal) x0 x1 x2 x4 x5 x6 x7 x8 x9 x10 x11 x12 x13 x14 x15 x16 x17 x18 x19 x20 x21 x22 x23 x24 x25 (ix2 p q) = (val_main_v131 (F := Ideal) x0 x1 x2 x4 x5 x6 x7 x8 x9 x10 x11 x12 x13 x14 x15 x16 x17 x18 x19 x20 x21 x22 x23 x24 x25) (ix2 p q) - rowMean 200000 (val_main_v131 (F := Ideal) x0 x1 x2 x4 x5 x6 x7 x8 x9 x10 x11 x12 x13 x14 x15 x16 x17 x18 x19 x20 x21 x22 x23 x24 x25) p := by
  show (val_main_v131 (F := Ideal) x0 x1 x2 x4 x5 x6 x7 x8 x9 x10 x11 x12 x13 x14 x15 x16 x17 x18 x19 x20 x21 x22 x23 x24 x25) (ix2 p q) - val_main_v143 (F := Ideal) x0 x1 x2 x4 x5 x6 x7 x8 x9 x10 x11 x12 x13 x14 x15 x16 x17 x18 x19 x20 x21 x22 x23 x24 x25 (ix2 p q) = _
  rw [val_main_v143_apply]
  have e : idx_main_v143 (ix2 p q) = ix2 p (0 : Fin 1) := funext fun a => Fin.ext (by match a with | ⟨0, _⟩ => rfl | ⟨1, _⟩ => rfl)
  rw [e, ref3_v135_apply]

/-- The reciprocal square root of the variance plus ε, repeated over the lanes. -/
theorem ref3_v148_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S1x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (p : Fin 200000) (q : Fin 128) :
    val_main_v148 (F := Ideal) x0 x1 x2 x4 x5 x6 x7 x8 x9 x10 x11 x12 x13 x14 x15 x16 x17 x18 x19 x20 x21 x22 x23 x24 x25 (ix2 p q) = Ideal.rsqrt (rowVar 200000 (val_main_v131 (F := Ideal) x0 x1 x2 x4 x5 x6 x7 x8 x9 x10 x11 x12 x13 x14 x15 x16 x17 x18 x19 x20 x21 x22 x23 x24 x25) p + cEps) := by
  rw [val_main_v148_apply]
  have e : idx_main_v148 (ix2 p q) = ix2 p (0 : Fin 1) := funext fun a => Fin.ext (by match a with | ⟨0, _⟩ => rfl | ⟨1, _⟩ => rfl)
  rw [e]
  show Ideal.rsqrt (val_main_v142 (F := Ideal) x0 x1 x2 x4 x5 x6 x7 x8 x9 x10 x11 x12 x13 x14 x15 x16 x17 x18 x19 x20 x21 x22 x23 x24 x25 (ix2 p (0 : Fin 1)) + val_main_v145 (F := Ideal) (ix2 p (0 : Fin 1))) = _
  rw [ref3_v142_apply, val_main_v145_apply, val_main_cst_21_apply]
  rfl

/-- The last stage — centred, scaled by the reciprocal deviation and by g, shifted by bt, rectified — is the normalization
    of the mathematics applied to the second hidden layer. -/
theorem ref3_norm_apply (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S1x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (x26 : (⟨S128, .f32⟩ : BufTy).Contents (Elt Ideal)) (x27 : (⟨S128, .f32⟩ : BufTy).Contents (Elt Ideal)) (p : Fin 200000) (q : Fin 128) :
    val_main_v156 (F := Ideal) x0 x1 x2 x4 x5 x6 x7 x8 x9 x10 x11 x12 x13 x14 x15 x16 x17 x18 x19 x20 x21 x22 x23 x24 x25 x26 x27 (ix2 p q) = normRelu 200000 (val_main_v131 (F := Ideal) x0 x1 x2 x4 x5 x6 x7 x8 x9 x10 x11 x12 x13 x14 x15 x16 x17 x18 x19 x20 x21 x22 x23 x24 x25) (rowOf x26) (rowOf x27) (ix2 p q) := by
  show max (val_main_v144 (F := Ideal) x0 x1 x2 x4 x5 x6 x7 x8 x9 x10 x11 x12 x13 x14 x15 x16 x17 x18 x19 x20 x21 x22 x23 x24 x25 (ix2 p q) * val_main_v148 (F := Ideal) x0 x1 x2 x4 x5 x6 x7 x8 x9 x10 x11 x12 x13 x14 x15 x16 x17 x18 x19 x20 x21 x22 x23 x24 x25 (ix2 p q) * val_main_v151 (F := Ideal) x26 (ix2 p q)
            + val_main_v154 (F := Ideal) x27 (ix2 p q)) (val_main_call8_v0 (F := Ideal) (ix2 p q))
     = max (((val_main_v131 (F := Ideal) x0 x1 x2 x4 x5 x6 x7 x8 x9 x10 x11 x12 x13 x14 x15 x16 x17 x18 x19 x20 x21 x22 x23 x24 x25) (ix2 p q) - rowMean 200000 (val_main_v131 (F := Ideal) x0 x1 x2 x4 x5 x6 x7 x8 x9 x10 x11 x12 x13 x14 x15 x16 x17 x18 x19 x20 x21 x22 x23 x24 x25) p) * Ideal.rsqrt (rowVar 200000 (val_main_v131 (F := Ideal) x0 x1 x2 x4 x5 x6 x7 x8 x9 x10 x11 x12 x13 x14 x15 x16 x17 x18 x19 x20 x21 x22 x23 x24 x25) p + cEps) * rowOf x26 (ix2 (0 : Fin 1) q) + rowOf x27 (ix2 (0 : Fin 1) q)) 0
  rw [ref3_v144_apply, ref3_v148_apply, ref3_v151_apply, ref3_v154_apply, ref3_call8_zero]

/-- The reference's node update of layer 3 — add, two matrix products with their bias rows and a rectifier between, the
    row mean and variance as host sums divided by 128, the normalization, scale, shift and rectifier — is the node update
    of the mathematics. -/
theorem ref_node3 (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S1x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (x26 : (⟨S128, .f32⟩ : BufTy).Contents (Elt Ideal)) (x27 : (⟨S128, .f32⟩ : BufTy).Contents (Elt Ideal)) :
    val_main_v156 (F := Ideal) x0 x1 x2 x4 x5 x6 x7 x8 x9 x10 x11 x12 x13 x14 x15 x16 x17 x18 x19 x20 x21 x22 x23 x24 x25 x26 x27
      = nodeUpd 200000 128 (val_main_v105 (F := Ideal) x0 x1 x2 x4 x5 x6 x7 x8 x9 x10 x11 x12 x13 x14 x15 x16 x17 x18 x19) (val_main_v121 (F := Ideal) x0 x1 x2 x4 x5 x6 x7 x8 x9 x10 x11 x12 x13 x14 x15 x16 x17 x18 x19 x20 x21) x22 (rowOf x23) x24 (rowOf x25) (rowOf x26) (rowOf x27) := by
  funext i
  obtain ⟨p, q, rfl⟩ : ∃ (p : Fin 200000) (q : Fin 128), i = ix2 p q := ⟨i 0, i 1, eq_ix2 i⟩
  rw [ref3_norm_apply, ref3_hidden2_eq]
  rfl

end Cert.ReferenceIdeal.RefMath

end
-- ==== Proof.RPool.lean ====
/-
  The reference's pooling: the accumulating scatter of the node rows by graph word, read index by index.

  The scatter adds update row n (the node's 128 features) into the operand's row named by the node's graph word: its
  dimension numbers insert the graph axis (window coordinate 0 there, the start the word read signed) and carry the
  feature axis as the one window axis (start 0, window coordinate the feature). So the entry of node n at feature h'
  lands at (g, h) exactly when the word reads g and h' = h, and lands nowhere when the word is outside 0..63; a word
  reads signed as g < 64 exactly when it is g's 32-bit word. The sum over the landing entries is then the sum over the
  nodes whose word is g of the node's feature h, and the operand is the zero block.
-/
import proofs.«409793_j85925115724498_1_alg».proof.Proof.RRead
import proofs.«409793_j85925115724498_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefMath

open Cert.ReferenceIdeal Cert.ReferenceIdeal.ReadP Cert.Spec
open Idealize.ShloMosaic Idealize.ShloMosaic.ValueIdx

/-! ## Where the scatter puts an update row -/

section Landing

/-- On the graph axis an update's window starts at its node's word, read signed. -/
theorem pool_start_0 (idx : IVec S200000x1 32) (n : Fin 200000) (h' : Fin 128) :
    scatter_S64x128_S200000x1_S200000x128_1_0_0_1.start (ix2 n h') idx 0 = (idx (ix2 n 0)).toInt := by
  unfold ScatterDims.start
  rw [dif_pos (show (0 : Fin S64x128.rank) ∈ scatter_S64x128_S200000x1_S200000x128_1_0_0_1.scatterDimsToOperandDims by decide)]
  refine congrArg (fun k => (idx k).toInt) (funext fun b => Fin.ext ?_)
  match b with
  | ⟨0, _⟩ => rfl
  | ⟨1, _⟩ => rfl
/-- On the feature axis the window starts at 0. -/
theorem pool_start_1 (idx : IVec S200000x1 32) (n : Fin 200000) (h' : Fin 128) :
    scatter_S64x128_S200000x1_S200000x128_1_0_0_1.start (ix2 n h') idx 1 = 0 := by
  unfold ScatterDims.start
  rw [dif_neg (show ¬(1 : Fin S64x128.rank) ∈ scatter_S64x128_S200000x1_S200000x128_1_0_0_1.scatterDimsToOperandDims by decide)]
/-- The graph axis is inserted: no window coordinate there. -/
theorem pool_window_0 (n : Fin 200000) (h' : Fin 128) :
    scatter_S64x128_S200000x1_S200000x128_1_0_0_1.window (ix2 n h') 0 = 0 := by
  unfold ScatterDims.window
  rw [dif_neg (show ¬(0 : Fin S64x128.rank) ∈ scatter_S64x128_S200000x1_S200000x128_1_0_0_1.sKept by decide)]
/-- On the feature axis the window coordinate is the update's feature. -/
theorem pool_window_1 (n : Fin 200000) (h' : Fin 128) :
    scatter_S64x128_S200000x1_S200000x128_1_0_0_1.window (ix2 n h') 1 = h'.val := by
  unfold ScatterDims.window
  rw [dif_pos (show (1 : Fin S64x128.rank) ∈ scatter_S64x128_S200000x1_S200000x128_1_0_0_1.sKept by decide)]
  rfl

end Landing

section LandsAt

/-- A graph number below 64, as a 32-bit word, reads back signed as itself. -/
theorem pool_word_toInt (g : Fin 64) : (BitVec.ofNat 32 g.val).toInt = (g.val : Int) := by
  have hg : g.val < 64 := g.isLt
  have hm : (BitVec.ofNat 32 g.val).toNat = g.val := by rw [BitVec.toNat_ofNat]; omega
  rw [BitVec.toInt_eq_toNat_of_lt (by rw [hm]; omega), hm]
/-- So a word reads signed as g exactly when it is g's word. -/
theorem pool_word_iff (b : BitVec 32) (g : Fin 64) : b.toInt = (g.val : Int) ↔ b = BitVec.ofNat 32 g.val := by
  rw [← pool_word_toInt g]
  exact BitVec.toInt_inj

/-- The update entry of node n and feature h' lands at graph g and feature h exactly when the node's word is g's
    and the features agree: a word outside 0..63 lands nowhere. -/
theorem pool_lands_iff (idx : IVec S200000x1 32) (n : Fin 200000) (h' : Fin 128) (g : Fin 64) (h : Fin 128) :
    scatter_S64x128_S200000x1_S200000x128_1_0_0_1.resultIdx? (ix2 n h') idx = some (ix2 g h)
      ↔ idx (ix2 n 0) = BitVec.ofNat 32 g.val ∧ h' = h := by
  have hg : g.val < 64 := g.isLt
  have hh' : h'.val < 128 := h'.isLt
  have e0 : scatter_S64x128_S200000x1_S200000x128_1_0_0_1.start (ix2 n h') idx 0
      + (scatter_S64x128_S200000x1_S200000x128_1_0_0_1.window (ix2 n h') 0 : Int) = (idx (ix2 n 0)).toInt := by
    rw [pool_start_0, pool_window_0]; simp
  have e1 : scatter_S64x128_S200000x1_S200000x128_1_0_0_1.start (ix2 n h') idx 1
      + (scatter_S64x128_S200000x1_S200000x128_1_0_0_1.window (ix2 n h') 1 : Int) = (h'.val : Int) := by
    rw [pool_start_1, pool_window_1]; simp
  rw [← pool_word_iff]
  unfold ScatterDims.resultIdx?
  split
  · rename_i hb
    rw [Option.some.injEq]
    constructor
    · intro e
      have c0 := congrArg (fun f => (f 0).val) e
      have c1 := congrArg (fun f => (f 1).val) e
      dsimp only at c0 c1
      rw [e0] at c0
      rw [e1] at c1
      have b0 := (hb 0).1
      rw [e0] at b0
      refine ⟨?_, Fin.ext ?_⟩
      · show (idx (ix2 n 0)).toInt = (g.val : Int)
        have : ((idx (ix2 n 0)).toInt.toNat : Int) = (g.val : Int) := by exact_mod_cast c0
        omega
      · show h'.val = h.val
        have : ((h'.val : Int).toNat) = h.val := c1
        omega
    · rintro ⟨ez, rfl⟩
      refine funext fun a => Fin.ext ?_
      match a with
      | ⟨0, _⟩ =>
        show (scatter_S64x128_S200000x1_S200000x128_1_0_0_1.start (ix2 n h') idx 0
          + (scatter_S64x128_S200000x1_S200000x128_1_0_0_1.window (ix2 n h') 0 : Int)).toNat = g.val
        rw [e0, ez]; simp
      | ⟨1, _⟩ =>
        show (scatter_S64x128_S200000x1_S200000x128_1_0_0_1.start (ix2 n h') idx 1
          + (scatter_S64x128_S200000x1_S200000x128_1_0_0_1.window (ix2 n h') 1 : Int)).toNat = h'.val
        rw [e1]; simp
  · rename_i hb
    constructor
    · intro e; exact absurd e (by simp)
    · rintro ⟨ez, rfl⟩
      refine absurd (fun a => ?_) hb
      match a with
      | ⟨0, _⟩ =>
        show 0 ≤ scatter_S64x128_S200000x1_S200000x128_1_0_0_1.start (ix2 n h') idx 0
            + (scatter_S64x128_S200000x1_S200000x128_1_0_0_1.window (ix2 n h') 0 : Int)
          ∧ scatter_S64x128_S200000x1_S200000x128_1_0_0_1.start (ix2 n h') idx 0
            + (scatter_S64x128_S200000x1_S200000x128_1_0_0_1.window (ix2 n h') 0 : Int) < (64 : Nat)
        rw [e0, ez]; omega
      | ⟨1, _⟩ =>
        show 0 ≤ scatter_S64x128_S200000x1_S200000x128_1_0_0_1.start (ix2 n h') idx 1
            + (scatter_S64x128_S200000x1_S200000x128_1_0_0_1.window (ix2 n h') 1 : Int)
          ∧ scatter_S64x128_S200000x1_S200000x128_1_0_0_1.start (ix2 n h') idx 1
            + (scatter_S64x128_S200000x1_S200000x128_1_0_0_1.window (ix2 n h') 1 : Int) < (128 : Nat)
        rw [e1]; omega

end LandsAt

section ScatterSum

/-- THE SCATTER AT AN INDEX. At graph g and feature h the accumulating scatter holds what the operand held there plus
    the rows' feature h over the nodes whose word is g: of the 200000 × 128 update entries, node n's entry at feature
    h' lands at (g, h) exactly when n's word is g and h' = h. -/
theorem pool_scatter_apply (acc : FVec Ideal S64x128 .f32) (w : IVec S200000x1 32) (upd : FVec Ideal S200000x128 .f32)
    (g : Fin 64) (h : Fin 128) :
    Host.scatterAdd scatter_S64x128_S200000x1_S200000x128_1_0_0_1 acc w upd (ix2 g h)
      = acc (ix2 g h) + ∑ n : Fin 200000, if w (ix2 n 0) = BitVec.ofNat 32 g.val then upd (ix2 n h) else 0 := by
  unfold Host.scatterAdd
  rw [Ideal.hostScatterAdd_def]
  unfold Ideal.hostScatterAdd
  refine congrArg (acc (ix2 g h) + ·) ?_
  rw [Finset.sum_filter, sum_idx2]
  refine Finset.sum_congr rfl fun n _ => ?_
  by_cases e : w (ix2 n 0) = BitVec.ofNat 32 g.val
  · rw [if_pos e]
    have hh : ∀ h' : Fin 128, (if scatter_S64x128_S200000x1_S200000x128_1_0_0_1.resultIdx? (ix2 n h') w = some (ix2 g h)
        then upd (ix2 n h') else 0) = if h' = h then upd (ix2 n h') else 0 :=
      fun h' => if_congr ((pool_lands_iff w n h' g h).trans (and_iff_right e)) rfl rfl
    rw [Finset.sum_congr rfl (fun h' _ => hh h'), Finset.sum_ite_eq', if_pos (Finset.mem_univ h)]
  · rw [if_neg e]
    refine Finset.sum_eq_zero fun h' _ => ?_
    rw [if_neg]
    intro hl
    exact e ((pool_lands_iff w n h' g h).mp hl).1

end ScatterSum

/-- The reference's pooling — the node rows added into 64 zero rows at the row their graph word names, a word outside
    0..63 dropped — is, at graph g and feature h, the sum of the rows whose word is g. -/
theorem ref_pool (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x3 : (⟨S200000, .i32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S1x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (x26 : (⟨S128, .f32⟩ : BufTy).Contents (Elt Ideal)) (x27 : (⟨S128, .f32⟩ : BufTy).Contents (Elt Ideal)) :
    val_main_v159 (F := Ideal) x0 x1 x2 x3 x4 x5 x6 x7 x8 x9 x10 x11 x12 x13 x14 x15 x16 x17 x18 x19 x20 x21 x22 x23 x24 x25 x26 x27 = poolSum 200000 64 (val_main_v156 (F := Ideal) x0 x1 x2 x4 x5 x6 x7 x8 x9 x10 x11 x12 x13 x14 x15 x16 x17 x18 x19 x20 x21 x22 x23 x24 x25 x26 x27) (colOf x3) := by
  funext i
  obtain ⟨g, h, rfl⟩ : ∃ (g : Fin 64) (h : Fin 128), i = ix2 g h := ⟨i 0, i 1, eq_ix2 i⟩
  unfold val_main_v159
  refine (pool_scatter_apply _ _ _ g h).trans ?_
  rw [val_main_v157_apply, val_main_cst_22_apply]
  show Ideal.ofBits .f32 0x00000000#32 + _ = _
  rw [Ideal.ofBits_zero_f32, zero_add]
  unfold poolSum
  refine Finset.sum_congr rfl fun n _ => ?_
  have hidx : idx_main_v158 (ix2 n 0) = ix1 n := funext fun a => Fin.ext (by
    match a with
    | ⟨0, _⟩ => rfl)
  rw [val_main_v158_apply, hidx]
  rfl

end Cert.ReferenceIdeal.RefMath

end
-- ==== Proof.RModel.lean ====
/-
  The reference's last stage is the network of the arguments.

  Stage by stage: a layer's gather and segment sum are the model's own host operations (the two programs print the same
  ones, so the stage functions agree by computation), its edge messages and node update are the mathematics (the
  stage lemmas), so each layer's output stage is the model's layer of the stage before; the pooling stage is the pooled sum
  of the third layer's output; the closing stages are the model's closing arithmetic.
-/
import proofs.«409793_j85925115724498_1_alg».proof.Proof.Model
import proofs.«409793_j85925115724498_1_alg».proof.Proof.REdge1
import proofs.«409793_j85925115724498_1_alg».proof.Proof.RNode1
import proofs.«409793_j85925115724498_1_alg».proof.Proof.REdge2
import proofs.«409793_j85925115724498_1_alg».proof.Proof.RNode2
import proofs.«409793_j85925115724498_1_alg».proof.Proof.REdge3
import proofs.«409793_j85925115724498_1_alg».proof.Proof.RNode3
import proofs.«409793_j85925115724498_1_alg».proof.Proof.RPool

set_option maxRecDepth 16384

noncomputable section

namespace Cert.ReferenceIdeal.RefModel

open Cert.ReferenceIdeal Cert.ReferenceIdeal.ReadP Cert.ReferenceIdeal.RefMath Cert.Spec Cert.Model
open Idealize.ShloMosaic Idealize.ShloMosaic.ValueIdx

variable (x0 : (⟨S200000x5, .f32⟩ : BufTy).Contents (Elt Ideal)) (x1 : (⟨S2x400000, .i32⟩ : BufTy).Contents (Elt Ideal)) (x2 : (⟨S400000x1, .f32⟩ : BufTy).Contents (Elt Ideal)) (x3 : (⟨S200000, .i32⟩ : BufTy).Contents (Elt Ideal)) (x4 : (⟨S1x5, .f32⟩ : BufTy).Contents (Elt Ideal)) (x5 : (⟨S5, .f32⟩ : BufTy).Contents (Elt Ideal)) (x6 : (⟨S5x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S1x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (x26 : (⟨S128, .f32⟩ : BufTy).Contents (Elt Ideal)) (x27 : (⟨S128, .f32⟩ : BufTy).Contents (Elt Ideal))

/-! ## The first layer -/

theorem gather1 : val_main_v14 (F := Ideal) x0 x1 = gather5 x0 x1 := rfl
theorem segsum1 : val_main_v19 (F := Ideal) x0 x1 x2 x4 x5 = segsum5 x1 (val_main_v16 (F := Ideal) x0 x1 x2 x4 x5) := rfl
theorem layer1 : val_main_v54 (F := Ideal) x0 x1 x2 x4 x5 x6 x7 x8 x9 x10 x11 = layer5 x0 x1 x2 x4 x5 x6 x7 x8 x9 x10 x11 := by
  rw [ref_node1, segsum1, ref_edge1, gather1]; rfl

/-! ## The second layer -/

theorem gather2 : val_main_v65 (F := Ideal) x0 x1 x2 x4 x5 x6 x7 x8 x9 x10 x11 = gather128 (val_main_v54 (F := Ideal) x0 x1 x2 x4 x5 x6 x7 x8 x9 x10 x11) x1 := rfl
theorem segsum2 : val_main_v70 (F := Ideal) x0 x1 x2 x4 x5 x6 x7 x8 x9 x10 x11 x12 x13 = segsum128 x1 (val_main_v67 (F := Ideal) x0 x1 x2 x4 x5 x6 x7 x8 x9 x10 x11 x12 x13) := rfl
theorem layer2 : val_main_v105 (F := Ideal) x0 x1 x2 x4 x5 x6 x7 x8 x9 x10 x11 x12 x13 x14 x15 x16 x17 x18 x19 = layer128 (layer5 x0 x1 x2 x4 x5 x6 x7 x8 x9 x10 x11) x1 x2 x12 x13 x14 x15 x16 x17 x18 x19 := by
  rw [ref_node2, segsum2, ref_edge2, gather2, layer1]; rfl

/-! ## The third layer -/

theorem gather3 : val_main_v116 (F := Ideal) x0 x1 x2 x4 x5 x6 x7 x8 x9 x10 x11 x12 x13 x14 x15 x16 x17 x18 x19 = gather128 (val_main_v105 (F := Ideal) x0 x1 x2 x4 x5 x6 x7 x8 x9 x10 x11 x12 x13 x14 x15 x16 x17 x18 x19) x1 := rfl
theorem segsum3 : val_main_v121 (F := Ideal) x0 x1 x2 x4 x5 x6 x7 x8 x9 x10 x11 x12 x13 x14 x15 x16 x17 x18 x19 x20 x21 = segsum128 x1 (val_main_v118 (F := Ideal) x0 x1 x2 x4 x5 x6 x7 x8 x9 x10 x11 x12 x13 x14 x15 x16 x17 x18 x19 x20 x21) := rfl
theorem layer3 : val_main_v156 (F := Ideal) x0 x1 x2 x4 x5 x6 x7 x8 x9 x10 x11 x12 x13 x14 x15 x16 x17 x18 x19 x20 x21 x22 x23 x24 x25 x26 x27
    = layer128 (layer128 (layer5 x0 x1 x2 x4 x5 x6 x7 x8 x9 x10 x11) x1 x2 x12 x13 x14 x15 x16 x17 x18 x19) x1 x2 x20 x21 x22 x23 x24 x25 x26 x27 := by
  rw [ref_node3, segsum3, ref_edge3, gather3, layer2]; rfl

/-! ## The pooling and the closing arithmetic -/

theorem sizes_eq : val_main_v167 (F := Ideal) x3 = sizes x3 := rfl

/-- THE REFERENCE'S LAST STAGE is the network of the arguments. -/
theorem net_eq : val_main_v169 (F := Ideal) x0 x1 x2 x3 x4 x5 x6 x7 x8 x9 x10 x11 x12 x13 x14 x15 x16 x17 x18 x19 x20 x21 x22 x23 x24 x25 x26 x27 = net x0 x1 x2 x3 x4 x5 x6 x7 x8 x9 x10 x11 x12 x13 x14 x15 x16 x17 x18 x19 x20 x21 x22 x23 x24 x25 x26 x27 := by
  unfold val_main_v169 val_main_v168
  rw [ref_pool, layer3, sizes_eq]
  rfl

end Cert.ReferenceIdeal.RefModel

end
-- ==== Proof.lean ====
/-
  Three programs — the kernel program at the machine's words, the same program over the extended reals, and a plain
  array reference over the extended reals — and five claims about them.

  The kernel program is a three-layer message-passing network over a graph of 200000 nodes and 400000 edges followed by a
  pooling by graph: per layer a gather of each edge's source row (host), the edge messages (a kernel region tiled over the
  edges), their sum at the destination nodes (host), and the node update — two affine maps with a rectifier between, then
  a row normalization (a kernel region tiled over the nodes); then the pooling (a kernel region that accumulates, point by
  point, a one-hot product) and the means by graph size (host). The reference does the same with host operations only: the
  edge encoder as a one-term matrix product, the pooling as an accumulating scatter.

  The three FRAMES: both forms of the kernel program by the generated frame; the reference by its line of host operations
  run in order. The idealization rewrote nothing, so PRESERVES has nothing to say. EQUAL RESULTS over the extended reals:
  both programs end with the result buffer at ONE function of the arguments (Proof/Model.lean) — the kernel program because
  each region's output array is the mathematics of its stage as a whole-array function (every grid point writes its block
  of it and the blocks tile the array; the pooling by induction over the points) and the host stretches are read as they are
  printed; the reference because each of its stages, read index by index, is the same mathematics — a matrix-unit product
  into a zero accumulator and a host dot product are one sum, a lane reduction and a host reduction are one sum, a one-hot
  product summed over the node blocks and an accumulating scatter by graph word are one sum over the nodes of that graph.
  No law beyond the commutative monoid of the extended reals' addition is used, so finiteness of the inputs is never needed.
-/
import proofs.«409793_j85925115724498_1_alg».proof.Defs
import proofs.«409793_j85925115724498_1_alg».proof.Proof.Gen.Kernel
import proofs.«409793_j85925115724498_1_alg».proof.Proof.Gen.Kernel.Skeleton
import proofs.«409793_j85925115724498_1_alg».proof.Proof.Gen.Kernel.Launch
import proofs.«409793_j85925115724498_1_alg».proof.Proof.Gen.Kernel.Points
import proofs.«409793_j85925115724498_1_alg».proof.Proof.Gen.Kernel.Frame
import proofs.«409793_j85925115724498_1_alg».proof.Proof.Gen.KernelIdeal
import proofs.«409793_j85925115724498_1_alg».proof.Proof.Gen.KernelIdeal.Skeleton
import proofs.«409793_j85925115724498_1_alg».proof.Proof.Gen.KernelIdeal.Launch
import proofs.«409793_j85925115724498_1_alg».proof.Proof.Gen.KernelIdeal.Points
import proofs.«409793_j85925115724498_1_alg».proof.Proof.Gen.KernelIdeal.Frame
import proofs.«409793_j85925115724498_1_alg».proof.Proof.Gen.ReferenceIdeal
import proofs.«409793_j85925115724498_1_alg».proof.Proof.Gen.Pre_finite_inputs
import proofs.«409793_j85925115724498_1_alg».proof.Proof.KRun
import proofs.«409793_j85925115724498_1_alg».proof.Proof.KChain
import proofs.«409793_j85925115724498_1_alg».proof.Proof.RStages
import proofs.«409793_j85925115724498_1_alg».proof.Proof.RModel
import Idealize.ShloMosaic.Adequacy
import Idealize.ShloMosaic.Init

set_option maxRecDepth 16384

noncomputable section

namespace Cert.Proof

open Idealize.ShloMosaic Idealize.SL.Sem Idealize.ShloMosaic.StableHlo

/-- The kernel program at the machine's words runs, and leaves its arguments as launched: the generated frame. -/
theorem frame_kernel : @Cert.frame_Kernel Cert.Kernel.Gen.facts Cert.Pre_finite_inputs.Gen.facts :=
  fun m ρ _ => Cert.Kernel.Gen.frame m ρ

/-- The same program over the extended reals: the generated frame at that instance. -/
theorem frame_kernelIdeal : @Cert.frame_KernelIdeal Cert.KernelIdeal.Gen.facts Cert.Pre_finite_inputs.Gen.facts :=
  fun m ρ _ => Cert.KernelIdeal.Gen.frame m ρ

/-- The reference runs — a line of host operations, each determined — and no operation writes an argument. -/
theorem frame_reference : @Cert.frame_ReferenceIdeal Cert.ReferenceIdeal.Gen.facts Cert.Pre_finite_inputs.Gen.facts :=
  fun m ρ _ => (θ_run (Cert.ReferenceIdeal.defs (F := Ideal)) _ _).mono (fun r h c =>
    ⟨(h c Cert.ReferenceIdeal.main_arg0).trans (Cert.ReferenceIdeal.Stages.arg0_after _),
     (h c Cert.ReferenceIdeal.main_arg1).trans (Cert.ReferenceIdeal.Stages.arg1_after _),
     (h c Cert.ReferenceIdeal.main_arg2).trans (Cert.ReferenceIdeal.Stages.arg2_after _),
     (h c Cert.ReferenceIdeal.main_arg3).trans (Cert.ReferenceIdeal.Stages.arg3_after _),
     (h c Cert.ReferenceIdeal.main_arg4).trans (Cert.ReferenceIdeal.Stages.arg4_after _),
     (h c Cert.ReferenceIdeal.main_arg5).trans (Cert.ReferenceIdeal.Stages.arg5_after _),
     (h c Cert.ReferenceIdeal.main_arg6).trans (Cert.ReferenceIdeal.Stages.arg6_after _),
     (h c Cert.ReferenceIdeal.main_arg7).trans (Cert.ReferenceIdeal.Stages.arg7_after _),
     (h c Cert.ReferenceIdeal.main_arg8).trans (Cert.ReferenceIdeal.Stages.arg8_after _),
     (h c Cert.ReferenceIdeal.main_arg9).trans (Cert.ReferenceIdeal.Stages.arg9_after _),
     (h c Cert.ReferenceIdeal.main_arg10).trans (Cert.ReferenceIdeal.Stages.arg10_after _),
     (h c Cert.ReferenceIdeal.main_arg11).trans (Cert.ReferenceIdeal.Stages.arg11_after _),
     (h c Cert.ReferenceIdeal.main_arg12).trans (Cert.ReferenceIdeal.Stages.arg12_after _),
     (h c Cert.ReferenceIdeal.main_arg13).trans (Cert.ReferenceIdeal.Stages.arg13_after _),
     (h c Cert.ReferenceIdeal.main_arg14).trans (Cert.ReferenceIdeal.Stages.arg14_after _),
     (h c Cert.ReferenceIdeal.main_arg15).trans (Cert.ReferenceIdeal.Stages.arg15_after _),
     (h c Cert.ReferenceIdeal.main_arg16).trans (Cert.ReferenceIdeal.Stages.arg16_after _),
     (h c Cert.ReferenceIdeal.main_arg17).trans (Cert.ReferenceIdeal.Stages.arg17_after _),
     (h c Cert.ReferenceIdeal.main_arg18).trans (Cert.ReferenceIdeal.Stages.arg18_after _),
     (h c Cert.ReferenceIdeal.main_arg19).trans (Cert.ReferenceIdeal.Stages.arg19_after _),
     (h c Cert.ReferenceIdeal.main_arg20).trans (Cert.ReferenceIdeal.Stages.arg20_after _),
     (h c Cert.ReferenceIdeal.main_arg21).trans (Cert.ReferenceIdeal.Stages.arg21_after _),
     (h c Cert.ReferenceIdeal.main_arg22).trans (Cert.ReferenceIdeal.Stages.arg22_after _),
     (h c Cert.ReferenceIdeal.main_arg23).trans (Cert.ReferenceIdeal.Stages.arg23_after _),
     (h c Cert.ReferenceIdeal.main_arg24).trans (Cert.ReferenceIdeal.Stages.arg24_after _),
     (h c Cert.ReferenceIdeal.main_arg25).trans (Cert.ReferenceIdeal.Stages.arg25_after _),
     (h c Cert.ReferenceIdeal.main_arg26).trans (Cert.ReferenceIdeal.Stages.arg26_after _),
     (h c Cert.ReferenceIdeal.main_arg27).trans (Cert.ReferenceIdeal.Stages.arg27_after _)⟩)
    (Cert.ReferenceIdeal.ValueP.run_after (F := Ideal) m ρ)

/-- The idealization rewrote no operation. -/
theorem preserves : Cert.preserves_Kernel_KernelIdeal := trivial

/-- The network of equal arguments is equal. -/
theorem net_congr {x0 y0 : FVec Ideal Cert.KernelIdeal.S200000x5 .f32} {x1 y1 : IVec Cert.KernelIdeal.S2x400000 32} {x2 y2 : FVec Ideal Cert.KernelIdeal.S400000x1 .f32} {x3 y3 : IVec Cert.KernelIdeal.S200000 32} {x4 y4 : FVec Ideal Cert.KernelIdeal.S1x5 .f32} {x5 y5 : FVec Ideal Cert.KernelIdeal.S5 .f32} {x6 y6 : FVec Ideal Cert.KernelIdeal.S5x128 .f32} {x7 y7 : FVec Ideal Cert.KernelIdeal.S128 .f32} {x8 y8 : FVec Ideal Cert.KernelIdeal.S128x128 .f32} {x9 y9 : FVec Ideal Cert.KernelIdeal.S128 .f32} {x10 y10 : FVec Ideal Cert.KernelIdeal.S128 .f32} {x11 y11 : FVec Ideal Cert.KernelIdeal.S128 .f32} {x12 y12 : FVec Ideal Cert.KernelIdeal.S1x128 .f32} {x13 y13 : FVec Ideal Cert.KernelIdeal.S128 .f32} {x14 y14 : FVec Ideal Cert.KernelIdeal.S128x128 .f32} {x15 y15 : FVec Ideal Cert.KernelIdeal.S128 .f32} {x16 y16 : FVec Ideal Cert.KernelIdeal.S128x128 .f32} {x17 y17 : FVec Ideal Cert.KernelIdeal.S128 .f32} {x18 y18 : FVec Ideal Cert.KernelIdeal.S128 .f32} {x19 y19 : FVec Ideal Cert.KernelIdeal.S128 .f32} {x20 y20 : FVec Ideal Cert.KernelIdeal.S1x128 .f32} {x21 y21 : FVec Ideal Cert.KernelIdeal.S128 .f32} {x22 y22 : FVec Ideal Cert.KernelIdeal.S128x128 .f32} {x23 y23 : FVec Ideal Cert.KernelIdeal.S128 .f32} {x24 y24 : FVec Ideal Cert.KernelIdeal.S128x128 .f32} {x25 y25 : FVec Ideal Cert.KernelIdeal.S128 .f32} {x26 y26 : FVec Ideal Cert.KernelIdeal.S128 .f32} {x27 y27 : FVec Ideal Cert.KernelIdeal.S128 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) (h26 : x26 = y26) (h27 : x27 = y27) :
    Cert.Model.net x0 x1 x2 x3 x4 x5 x6 x7 x8 x9 x10 x11 x12 x13 x14 x15 x16 x17 x18 x19 x20 x21 x22 x23 x24 x25 x26 x27 = Cert.Model.net y0 y1 y2 y3 y4 y5 y6 y7 y8 y9 y10 y11 y12 y13 y14 y15 y16 y17 y18 y19 y20 y21 y22 y23 y24 y25 y26 y27 := by
  subst_vars; rfl

/-- Both idealized programs, from memories that agree on the arguments, end with their result buffers at the network of
    the arguments (Proof/Model.lean), and their arguments as launched. -/
theorem algebraic : @Cert.algebraic_KernelIdeal_ReferenceIdeal Cert.KernelIdeal.Gen.facts Cert.ReferenceIdeal.Gen.facts Cert.Pre_finite_inputs.Gen.facts := by
  intro m g m' g' _ hagree
  refine ⟨fun c => Cert.Model.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)), ?_, ?_⟩
  · exact (θ_run (Cert.KernelIdeal.defs (F := Ideal)) _ _).mono
      (fun r h c => ⟨((h c).1).trans (Cert.KernelIdeal.Chain.kernel_value m g c), (h c).2⟩)
      (Cert.KernelIdeal.Launched.run_named m g)
  · refine (θ_run (Cert.ReferenceIdeal.defs (F := Ideal)) _ _).mono (fun r h c => ⟨?_,
      (h c Cert.ReferenceIdeal.main_arg0).trans (Cert.ReferenceIdeal.Stages.arg0_after _),
      (h c Cert.ReferenceIdeal.main_arg1).trans (Cert.ReferenceIdeal.Stages.arg1_after _),
      (h c Cert.ReferenceIdeal.main_arg2).trans (Cert.ReferenceIdeal.Stages.arg2_after _),
      (h c Cert.ReferenceIdeal.main_arg3).trans (Cert.ReferenceIdeal.Stages.arg3_after _),
      (h c Cert.ReferenceIdeal.main_arg4).trans (Cert.ReferenceIdeal.Stages.arg4_after _),
      (h c Cert.ReferenceIdeal.main_arg5).trans (Cert.ReferenceIdeal.Stages.arg5_after _),
      (h c Cert.ReferenceIdeal.main_arg6).trans (Cert.ReferenceIdeal.Stages.arg6_after _),
      (h c Cert.ReferenceIdeal.main_arg7).trans (Cert.ReferenceIdeal.Stages.arg7_after _),
      (h c Cert.ReferenceIdeal.main_arg8).trans (Cert.ReferenceIdeal.Stages.arg8_after _),
      (h c Cert.ReferenceIdeal.main_arg9).trans (Cert.ReferenceIdeal.Stages.arg9_after _),
      (h c Cert.ReferenceIdeal.main_arg10).trans (Cert.ReferenceIdeal.Stages.arg10_after _),
      (h c Cert.ReferenceIdeal.main_arg11).trans (Cert.ReferenceIdeal.Stages.arg11_after _),
      (h c Cert.ReferenceIdeal.main_arg12).trans (Cert.ReferenceIdeal.Stages.arg12_after _),
      (h c Cert.ReferenceIdeal.main_arg13).trans (Cert.ReferenceIdeal.Stages.arg13_after _),
      (h c Cert.ReferenceIdeal.main_arg14).trans (Cert.ReferenceIdeal.Stages.arg14_after _),
      (h c Cert.ReferenceIdeal.main_arg15).trans (Cert.ReferenceIdeal.Stages.arg15_after _),
      (h c Cert.ReferenceIdeal.main_arg16).trans (Cert.ReferenceIdeal.Stages.arg16_after _),
      (h c Cert.ReferenceIdeal.main_arg17).trans (Cert.ReferenceIdeal.Stages.arg17_after _),
      (h c Cert.ReferenceIdeal.main_arg18).trans (Cert.ReferenceIdeal.Stages.arg18_after _),
      (h c Cert.ReferenceIdeal.main_arg19).trans (Cert.ReferenceIdeal.Stages.arg19_after _),
      (h c Cert.ReferenceIdeal.main_arg20).trans (Cert.ReferenceIdeal.Stages.arg20_after _),
      (h c Cert.ReferenceIdeal.main_arg21).trans (Cert.ReferenceIdeal.Stages.arg21_after _),
      (h c Cert.ReferenceIdeal.main_arg22).trans (Cert.ReferenceIdeal.Stages.arg22_after _),
      (h c Cert.ReferenceIdeal.main_arg23).trans (Cert.ReferenceIdeal.Stages.arg23_after _),
      (h c Cert.ReferenceIdeal.main_arg24).trans (Cert.ReferenceIdeal.Stages.arg24_after _),
      (h c Cert.ReferenceIdeal.main_arg25).trans (Cert.ReferenceIdeal.Stages.arg25_after _),
      (h c Cert.ReferenceIdeal.main_arg26).trans (Cert.ReferenceIdeal.Stages.arg26_after _),
      (h c Cert.ReferenceIdeal.main_arg27).trans (Cert.ReferenceIdeal.Stages.arg27_after _)⟩)
      (Cert.ReferenceIdeal.ValueP.run_after (F := Ideal) m' g')
    refine (h c Cert.ReferenceIdeal.main_v169).trans ((Cert.ReferenceIdeal.Stages.result_after (launchContents m' c)).trans ((Cert.ReferenceIdeal.RefModel.net_eq ..).trans ?_))
    obtain ⟨e0, e1, e2, e3, e4, e5, e6, e7, e8, e9, e10, e11, e12, e13, e14, e15, e16, e17, e18, e19, e20, e21, e22, e23, e24, e25, e26, e27⟩ := hagree c
    exact net_congr e0 e1 e2 e3 e4 e5 e6 e7 e8 e9 e10 e11 e12 e13 e14 e15 e16 e17 e18 e19 e20 e21 e22 e23 e24 e25 e26 e27

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
